-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512 : Shape := ⟨2, ![16, 512]⟩
abbrev S16x512x5 : Shape := ⟨3, ![16, 512, 5]⟩
abbrev S512x512 : Shape := ⟨2, ![512, 512]⟩
abbrev S512 : Shape := ⟨1, ![512]⟩
abbrev S32x11 : Shape := ⟨2, ![32, 11]⟩
abbrev S32 : Shape := ⟨1, ![32]⟩
abbrev S6x32 : Shape := ⟨2, ![6, 32]⟩
abbrev S6 : Shape := ⟨1, ![6]⟩
abbrev S_ : Shape := ⟨0, ![]⟩

class Facts : Prop where
  bcast_S_S16x512 : S_.BroadcastsInDim S16x512 (![] : Fin 0 → Fin S16x512.rank)
  reducesTo_S16x512_S_d0_1 : S16x512.ReducesTo [0, 1] S_
  h_S_ : 0 < S_.numel
  bcast_S_S16x512x5 : S_.BroadcastsInDim S16x512x5 (![] : Fin 0 → Fin S16x512x5.rank)
  reducesTo_S16x512x5_S_d0_1_2 : S16x512x5.ReducesTo [0, 1, 2] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S32x11 : S_.BroadcastsInDim S32x11 (![] : Fin 0 → Fin S32x11.rank)
  reducesTo_S32x11_S_d0_1 : S32x11.ReducesTo [0, 1] S_
  bcast_S_S32 : S_.BroadcastsInDim S32 (![] : Fin 0 → Fin S32.rank)
  reducesTo_S32_S_d0 : S32.ReducesTo [0] S_
  bcast_S_S6x32 : S_.BroadcastsInDim S6x32 (![] : Fin 0 → Fin S6x32.rank)
  reducesTo_S6x32_S_d0_1 : S6x32.ReducesTo [0, 1] S_
  bcast_S_S6 : S_.BroadcastsInDim S6 (![] : Fin 0 → Fin S6.rank)
  reducesTo_S6_S_d0 : S6.ReducesTo [0] S_

variable [Facts]

def fn_part3 {F : FTy → Type} [FloatOps F] (main_arg11 : FVec F S6x32 .f32) (main_arg12 : FVec F S6 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S6x32 .f32 := Host.absf main_arg11
  let main_cst_20 : FVec F S_ .f32 := constant S_ .f32 0x7F800000#32
  let main_v55 : FVec F S6x32 .f32 := broadcastInDim S6x32 ![] bcast_S_S6x32 main_cst_20
  let main_v56 : IVec S6x32 1 := cmpf .olt main_v54 main_v55
  let main_c_21 : IVec S_ 1 := constantI S_ 1 1#1
  let main_v57 : IVec S_ 1 := (fun x v => Host.reduce IntOp.andi x v reducesTo_S6x32_S_d0_1 h_S_) main_v56 main_c_21
  let main_v58 : IVec S_ 1 := andi main_v53 main_v57
  let main_v59 : FVec F S6 .f32 := Host.absf main_arg12
  let main_cst_22 : FVec F S_ .f32 := constant S_ .f32 0x7F800000#32
  let main_v60 : FVec F S6 .f32 := broadcastInDim S6 ![] bcast_S_S6 main_cst_22
  let main_v61 : IVec S6 1 := cmpf .olt main_v59 main_v60
  let main_c_23 : IVec S_ 1 := constantI S_ 1 1#1
  let main_v62 : IVec S_ 1 := (fun x v => Host.reduce IntOp.andi x v reducesTo_S6_S_d0 h_S_) main_v61 main_c_23
  let main_v63 : IVec S_ 1 := andi main_v58 main_v62
  main_v63

def fn_part2 {F : FTy → Type} [FloatOps F] (main_arg7 : FVec F S512x512 .f32) (main_arg8 : FVec F S512 .f32) (main_arg9 : FVec F S32x11 .f32) (main_arg10 : FVec F S32 .f32) (main_arg11 : FVec F S6x32 .f32) (main_arg12 : FVec F S6 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S32x11 .f32 := Host.absf main_arg9
  let main_cst_16 : FVec F S_ .f32 := constant S_ .f32 0x7F800000#32
  let main_v45 : FVec F S32x11 .f32 := broadcastInDim S32x11 ![] bcast_S_S32x11 main_cst_16
  let main_v46 : IVec S32x11 1 := cmpf .olt main_v44 main_v45
  let main_c_17 : IVec S_ 1 := constantI S_ 1 1#1
  let main_v47 : IVec S_ 1 := (fun x v => Host.reduce IntOp.andi x v reducesTo_S32x11_S_d0_1 h_S_) main_v46 main_c_17
  let main_v48 : IVec S_ 1 := andi main_v43 main_v47
  let main_v49 : FVec F S32 .f32 := Host.absf main_arg10
  let main_cst_18 : FVec F S_ .f32 := constant S_ .f32 0x7F800000#32
  let main_v50 : FVec F S32 .f32 := broadcastInDim S32 ![] bcast_S_S32 main_cst_18
  fn_part3 (F := F) main_arg11 main_arg12 main_v48 main_v49 main_v50

def fn_part1 {F : FTy → Type} [FloatOps F] (main_arg4 : FVec F S16x512 .f32) (main_arg5 : FVec F S16x512 .f32) (main_arg6 : FVec F S16x512x5 .f32) (main_arg7 : FVec F S512x512 .f32) (main_arg8 : FVec F S512 .f32) (main_arg9 : FVec F S32x11 .f32) (main_arg10 : FVec F S32 .f32) (main_arg11 : FVec F S6x32 .f32) (main_arg12 : FVec F S6 .f32) (main_v13 : IVec S_ 1) (main_v16 : IVec S16x512 1) : IVec S_ 1 :=
  let main_c_5 : IVec S_ 1 := constantI S_ 1 1#1
  let main_v17 : IVec S_ 1 := (fun x v => Host.reduce IntOp.andi x v reducesTo_S16x512_S_d0_1 h_S_) main_v16 main_c_5
  let main_v18 : IVec S_ 1 := andi main_v13 main_v17
  let main_v19 : FVec F S16x512 .f32 := Host.absf main_arg4
  let main_cst_6 : FVec F S_ .f32 := constant S_ .f32 0x7F800000#32
  let main_v20 : FVec F S16x512 .f32 := broadcastInDim S16x512 ![] bcast_S_S16x512 main_cst_6
  let main_v21 : IVec S16x512 1 := cmpf .olt main_v19 main_v20
  let main_c_7 : IVec S_ 1 := constantI S_ 1 1#1
  let main_v22 : IVec S_ 1 := (fun x v => Host.reduce IntOp.andi x v reducesTo_S16x512_S_d0_1 h_S_) main_v21 main_c_7
  let main_v23 : IVec S_ 1 := andi main_v18 main_v22
  let main_v24 : FVec F S16x512 .f32 := Host.absf main_arg5
  let main_cst_8 : FVec F S_ .f32 := constant S_ .f32 0x7F800000#32
  let main_v25 : FVec F S16x512 .f32 := broadcastInDim S16x512 ![] bcast_S_S16x512 main_cst_8
  let main_v26 : IVec S16x512 1 := cmpf .olt main_v24 main_v25
  let main_c_9 : IVec S_ 1 := constantI S_ 1 1#1
  let main_v27 : IVec S_ 1 := (fun x v => Host.reduce IntOp.andi x v reducesTo_S16x512_S_d0_1 h_S_) main_v26 main_c_9
  let main_v28 : IVec S_ 1 := andi main_v23 main_v27
  let main_v29 : FVec F S16x512x5 .f32 := Host.absf main_arg6
  let main_cst_10 : FVec F S_ .f32 := constant S_ .f32 0x7F800000#32
  let main_v30 : FVec F S16x512x5 .f32 := broadcastInDim S16x512x5 ![] bcast_S_S16x512x5 main_cst_10
  let main_v31 : IVec S16x512x5 1 := cmpf .olt main_v29 main_v30
  let main_c_11 : IVec S_ 1 := constantI S_ 1 1#1
  let main_v32 : IVec S_ 1 := (fun x v => Host.reduce IntOp.andi x v reducesTo_S16x512x5_S_d0_1_2 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S16x512 .f32) (main_arg1 : FVec F S16x512 .f32) (main_arg2 : FVec F S16x512 .f32) (main_arg3 : FVec F S16x512 .f32) (main_arg4 : FVec F S16x512 .f32) (main_arg5 : FVec F S16x512 .f32) (main_arg6 : FVec F S16x512x5 .f32) (main_arg7 : FVec F S512x512 .f32) (main_arg8 : FVec F S512 .f32) (main_arg9 : FVec F S32x11 .f32) (main_arg10 : FVec F S32 .f32) (main_arg11 : FVec F S6x32 .f32) (main_arg12 : FVec F S6 .f32) : IVec S_ 1 :=
  let main_v0 : FVec F S16x512 .f32 := Host.absf main_arg0
  let main_cst : FVec F S_ .f32 := constant S_ .f32 0x7F800000#32
  let main_v1 : FVec F S16x512 .f32 := broadcastInDim S16x512 ![] bcast_S_S16x512 main_cst
  let main_v2 : IVec S16x512 1 := cmpf .olt main_v0 main_v1
  let main_c : IVec S_ 1 := constantI S_ 1 1#1
  let main_v3 : IVec S_ 1 := (fun x v => Host.reduce IntOp.andi x v reducesTo_S16x512_S_d0_1 h_S_) main_v2 main_c
  let main_v4 : FVec F S16x512 .f32 := Host.absf main_arg1
  let main_cst_0 : FVec F S_ .f32 := constant S_ .f32 0x7F800000#32
  let main_v5 : FVec F S16x512 .f32 := broadcastInDim S16x512 ![] bcast_S_S16x512 main_cst_0
  let main_v6 : IVec S16x512 1 := cmpf .olt main_v4 main_v5
  let main_c_1 : IVec S_ 1 := constantI S_ 1 1#1
  let main_v7 : IVec S_ 1 := (fun x v => Host.reduce IntOp.andi x v reducesTo_S16x512_S_d0_1 h_S_) main_v6 main_c_1
  let main_v8 : IVec S_ 1 := andi main_v3 main_v7
  let main_v9 : FVec F S16x512 .f32 := Host.absf main_arg2
  let main_cst_2 : FVec F S_ .f32 := constant S_ .f32 0x7F800000#32
  let main_v10 : FVec F S16x512 .f32 := broadcastInDim S16x512 ![] bcast_S_S16x512 main_cst_2
  let main_v11 : IVec S16x512 1 := cmpf .olt main_v9 main_v10
  let main_c_3 : IVec S_ 1 := constantI S_ 1 1#1
  let main_v12 : IVec S_ 1 := (fun x v => Host.reduce IntOp.andi x v reducesTo_S16x512_S_d0_1 h_S_) main_v11 main_c_3
  let main_v13 : IVec S_ 1 := andi main_v8 main_v12
  let main_v14 : FVec F S16x512 .f32 := Host.absf main_arg3
  let main_cst_4 : FVec F S_ .f32 := constant S_ .f32 0x7F800000#32
  let main_v15 : FVec F S16x512 .f32 := broadcastInDim S16x512 ![] bcast_S_S16x512 main_cst_4
  let main_v16 : IVec S16x512 1 := cmpf .olt main_v14 main_v15
  fn_part1 (F := F) main_arg4 main_arg5 main_arg6 main_arg7 main_arg8 main_arg9 main_arg10 main_arg11 main_arg12 main_v13 main_v16
-- ==== Kernel.lean ====
abbrev S16x512 : Shape := ⟨2, ![16, 512]⟩
abbrev S16x512x5 : Shape := ⟨3, ![16, 512, 5]⟩
abbrev S512x512 : Shape := ⟨2, ![512, 512]⟩
abbrev S512 : Shape := ⟨1, ![512]⟩
abbrev S32x11 : Shape := ⟨2, ![32, 11]⟩
abbrev S32 : Shape := ⟨1, ![32]⟩
abbrev S6x32 : Shape := ⟨2, ![6, 32]⟩
abbrev S6 : Shape := ⟨1, ![6]⟩
abbrev S16x128 : Shape := ⟨2, ![16, 128]⟩
abbrev S128x128 : Shape := ⟨2, ![128, 128]⟩
abbrev S16x128x5 : Shape := ⟨3, ![16, 128, 5]⟩
abbrev S32x1 : Shape := ⟨2, ![32, 1]⟩
abbrev S32x4 : Shape := ⟨2, ![32, 4]⟩
abbrev S32x6 : Shape := ⟨2, ![32, 6]⟩
abbrev S16x128x1 : Shape := ⟨3, ![16, 128, 1]⟩
abbrev S16x128x4 : Shape := ⟨3, ![16, 128, 4]⟩
abbrev S16x128x6 : Shape := ⟨3, ![16, 128, 6]⟩
abbrev S16x128x128x6 : Shape := ⟨4, ![16, 128, 128, 6]⟩
abbrev S8x4 : Shape := ⟨2, ![8, 4]⟩
abbrev S8x1 : Shape := ⟨2, ![8, 1]⟩
abbrev S8x6 : Shape := ⟨2, ![8, 6]⟩
abbrev S8 : Shape := ⟨1, ![8]⟩
abbrev S6x8 : Shape := ⟨2, ![6, 8]⟩
abbrev S2048x4 : Shape := ⟨2, ![2048, 4]⟩
abbrev S4x8 : Shape := ⟨2, ![4, 8]⟩
abbrev S2048x8 : Shape := ⟨2, ![2048, 8]⟩
abbrev S16x128x8 : Shape := ⟨3, ![16, 128, 8]⟩
abbrev S2048x6 : Shape := ⟨2, ![2048, 6]⟩
abbrev S128x128x1 : Shape := ⟨3, ![128, 128, 1]⟩
abbrev S1x1x8 : Shape := ⟨3, ![1, 1, 8]⟩
abbrev S128x128x8 : Shape := ⟨3, ![128, 128, 8]⟩
abbrev S16x128x1x8 : Shape := ⟨4, ![16, 128, 1, 8]⟩
abbrev S1x128x128x8 : Shape := ⟨4, ![1, 128, 128, 8]⟩
abbrev S16x128x128x8 : Shape := ⟨4, ![16, 128, 128, 8]⟩
abbrev S16x1x128x8 : Shape := ⟨4, ![16, 1, 128, 8]⟩
abbrev S1x1x1x8 : Shape := ⟨4, ![1, 1, 1, 8]⟩
abbrev S262144x8 : Shape := ⟨2, ![262144, 8]⟩
abbrev S262144x6 : Shape := ⟨2, ![262144, 6]⟩
abbrev S1x1x1x6 : Shape := ⟨4, ![1, 1, 1, 6]⟩
abbrev S16x128x128x1 : Shape := ⟨4, ![16, 128, 128, 1]⟩
abbrev S16x128x128 : Shape := ⟨3, ![16, 128, 128]⟩
abbrev S16x128x128x5 : Shape := ⟨4, ![16, 128, 128, 5]⟩
abbrev S1x512 : Shape := ⟨2, ![1, 512]⟩

abbrev nBuf : Space → Nat
  | .hbm => 16
  | .vmem => 27
  | .smem => 0
  | _ => 0

abbrev bufTy : (tb : Table) → Fin (tcTables nBuf tb) → BufTy
  | .hbm, ⟨0, _⟩ => ⟨S16x512, .f32⟩
  | .hbm, ⟨1, _⟩ => ⟨S16x512, .f32⟩
  | .hbm, ⟨2, _⟩ => ⟨S16x512, .f32⟩
  | .hbm, ⟨3, _⟩ => ⟨S16x512, .f32⟩
  | .hbm, ⟨4, _⟩ => ⟨S16x512, .f32⟩
  | .hbm, ⟨5, _⟩ => ⟨S16x512, .f32⟩
  | .hbm, ⟨6, _⟩ => ⟨S16x512x5, .f32⟩
  | .hbm, ⟨7, _⟩ => ⟨S512x512, .f32⟩
  | .hbm, ⟨8, _⟩ => ⟨S512, .f32⟩
  | .hbm, ⟨9, _⟩ => ⟨S32x11, .f32⟩
  | .hbm, ⟨10, _⟩ => ⟨S32, .f32⟩
  | .hbm, ⟨11, _⟩ => ⟨S6x32, .f32⟩
  | .hbm, ⟨12, _⟩ => ⟨S6, .f32⟩
  | .hbm, ⟨13, _⟩ => ⟨S512x512, .f32⟩
  | .hbm, ⟨14, _⟩ => ⟨S16x512x5, .f32⟩
  | .hbm, ⟨15, _⟩ => ⟨S16x512, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | .local _ .vmem, ⟨7, _⟩ => ⟨S16x128, .f32⟩
  | .local _ .vmem, ⟨8, _⟩ => ⟨S128x128, .f32⟩
  | .local _ .vmem, ⟨9, _⟩ => ⟨S128x128, .f32⟩
  | .local _ .vmem, ⟨10, _⟩ => ⟨S16x128x5, .f32⟩
  | .local _ .vmem, ⟨11, _⟩ => ⟨S16x128x5, .f32⟩
  | .local _ .vmem, ⟨12, _⟩ => ⟨S16x128, .f32⟩
  | .local _ .vmem, ⟨13, _⟩ => ⟨S16x128, .f32⟩
  | .local _ .vmem, ⟨14, _⟩ => ⟨S32x11, .f32⟩
  | .local _ .vmem, ⟨15, _⟩ => ⟨S32, .f32⟩
  | .local _ .vmem, ⟨16, _⟩ => ⟨S6x32, .f32⟩
  | .local _ .vmem, ⟨17, _⟩ => ⟨S6, .f32⟩
  | .local _ .vmem, ⟨18, _⟩ => ⟨S128x128, .f32⟩
  | .local _ .vmem, ⟨19, _⟩ => ⟨S128x128, .f32⟩
  | .local _ .vmem, ⟨20, _⟩ => ⟨S16x128x5, .f32⟩
  | .local _ .vmem, ⟨21, _⟩ => ⟨S16x128x5, .f32⟩
  | .local _ .vmem, ⟨22, _⟩ => ⟨S16x128x5, .f32⟩
  | .local _ .vmem, ⟨23, _⟩ => ⟨S16x512, .f32⟩
  | .local _ .vmem, ⟨24, _⟩ => ⟨S512x512, .f32⟩
  | .local _ .vmem, ⟨25, _⟩ => ⟨S512, .f32⟩
  | .local _ .vmem, ⟨26, _⟩ => ⟨S16x512, .f32⟩
  | _, _ => ⟨S16x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev main_v1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_scratch0 : Ref sig .tc := ⟨.vmem, 22, rfl⟩
abbrev cc1_stg0_0 : Ref sig .tc := ⟨.vmem, 23, rfl⟩
abbrev cc1_stg1_0 : Ref sig .tc := ⟨.vmem, 24, rfl⟩
abbrev cc1_stg2_0 : Ref sig .tc := ⟨.vmem, 25, rfl⟩
abbrev cc1_stg3_0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc1_sem0_0 : DmaSem sig := 22
abbrev cc1_sem1_0 : DmaSem sig := 23
abbrev cc1_sem2_0 : DmaSem sig := 24
abbrev cc1_sem3_0 : DmaSem sig := 25

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v190 : BitVec 1 := Scalar.cmpi .eq arg1 c3_i32
  let v191 : BitVec 32 := Scalar.extui v190
  let c0_i32_44 : BitVec 32 := 0#32
  let v192 : BitVec 1 := Scalar.cmpi .ne v191 c0_i32_44
  v192

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x128x5 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S16x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S32x11 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S6x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S6 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S16x128x5 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S16x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S512x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

class Facts₀ : Prop where
  inb_S16x128x5_S16x128x5_0_0_0 : ∀ a, (![0, 0, 0] : Fin 3 → Nat) a + S16x128x5.size a ≤ S16x128x5.size a
  h_S16x128x5 : 0 < S16x128x5.numel
  shapeCasts_S16x128x5_S16x128x5 : S16x128x5.ShapeCasts S16x128x5
  inb_S16x128_S16x128_0_0 : ∀ a, (![0, 0] : Fin 2 → Nat) a + S16x128.size a ≤ S16x128.size a
  h_S16x128 : 0 < S16x128.numel
  inb_S128x128_S128x128_0_0 : ∀ a, (![0, 0] : Fin 2 → Nat) a + S128x128.size a ≤ S128x128.size a
  h_S128x128 : 0 < S128x128.numel
  inb_S32x11_S32x11_0_0 : ∀ a, (![0, 0] : Fin 2 → Nat) a + S32x11.size a ≤ S32x11.size a
  h_S32x11 : 0 < S32x11.numel
  inb_S32_S32_0 : ∀ a, (![0] : Fin 1 → Nat) a + S32.size a ≤ S32.size a
  h_S32 : 0 < S32.numel
  inb_S6x32_S6x32_0_0 : ∀ a, (![0, 0] : Fin 2 → Nat) a + S6x32.size a ≤ S6x32.size a
  h_S6x32 : 0 < S6x32.numel
  inb_S6_S6_0 : ∀ a, (![0] : Fin 1 → Nat) a + S6.size a ≤ S6.size a
  h_S6 : 0 < S6.numel
  slices_S32x11_o0_0_S32x1 : S32x11.Slices ![0, 0] S32x1
  slices_S32x11_o0_1_S32x1 : S32x11.Slices ![0, 1] S32x1
  slices_S32x11_o0_2_S32x1 : S32x11.Slices ![0, 2] S32x1
  slices_S32x11_o0_10_S32x1 : S32x11.Slices ![0, 10] S32x1
  concatenates_S32x1_S32x1_S32x1_S32x1_S32x4_d1 : Shape.Concatenates [S32x1, S32x1, S32x1, S32x1] S32x4 1
  slices_S32x11_o0_3_S32x1 : S32x11.Slices ![0, 3] S32x1
  slices_S32x11_o0_4_S32x6 : S32x11.Slices ![0, 4] S32x6
  shapeCasts_S16x128_S16x128x1 : S16x128.ShapeCasts S16x128x1
  concatenates_S16x128x1_S16x128x1_S16x128x1_S16x128x1_S16x128x4_d2 : Shape.Concatenates [S16x128x1, S16x128x1, S16x128x1, S16x128x1] S16x128x4 2
  concatenates_S16x128x5_S16x128x1_S16x128x6_d2 : Shape.Concatenates [S16x128x5, S16x128x1] S16x128x6 2
  slices_S32x4_o0_0_S8x4 : S32x4.Slices ![0, 0] S8x4
  slices_S32x1_o0_0_S8x1 : S32x1.Slices ![0, 0] S8x1
  slices_S32x6_o0_0_S8x6 : S32x6.Slices ![0, 0] S8x6
  slices_S32_o0_S8 : S32.Slices ![0] S8
  slices_S6x32_o0_0_S6x8 : S6x32.Slices ![0, 0] S6x8
  shapeCasts_S16x128x4_S2048x4 : S16x128x4.ShapeCasts S2048x4
  transposes_S8x4_p1_0_S4x8 : S8x4.Transposes [1, 0] S4x8
  shapeCasts_S2048x8_S16x128x8 : S2048x8.ShapeCasts S16x128x8
  shapeCasts_S16x128x6_S2048x6 : S16x128x6.ShapeCasts S2048x6
  transposes_S8x6_p1_0_S6x8 : S8x6.Transposes [1, 0] S6x8
  shapeCasts_S8x1_S8 : S8x1.ShapeCasts S8
  shapeCasts_S128x128_S128x128x1 : S128x128.ShapeCasts S128x128x1
  shapeCasts_S8_S1x1x8 : S8.ShapeCasts S1x1x8
  broadcasts_S128x128x1_S128x128x8 : S128x128x1.Broadcasts S128x128x8
  broadcasts_S1x1x8_S128x128x8 : S1x1x8.Broadcasts S128x128x8
  shapeCasts_S16x128x8_S16x128x1x8 : S16x128x8.ShapeCasts S16x128x1x8
  shapeCasts_S128x128x8_S1x128x128x8 : S128x128x8.ShapeCasts S1x128x128x8
  broadcasts_S16x128x1x8_S16x128x128x8 : S16x128x1x8.Broadcasts S16x128x128x8
  broadcasts_S1x128x128x8_S16x128x128x8 : S1x128x128x8.Broadcasts S16x128x128x8
  shapeCasts_S16x128x8_S16x1x128x8 : S16x128x8.ShapeCasts S16x1x128x8
  broadcasts_S16x1x128x8_S16x128x128x8 : S16x1x128x8.Broadcasts S16x128x128x8
  shapeCasts_S8_S1x1x1x8 : S8.ShapeCasts S1x1x1x8
  broadcasts_S1x1x1x8_S16x128x128x8 : S1x1x1x8.Broadcasts S16x128x128x8
  shapeCasts_S16x128x128x8_S262144x8 : S16x128x128x8.ShapeCasts S262144x8
  transposes_S6x8_p1_0_S8x6 : S6x8.Transposes [1, 0] S8x6
  shapeCasts_S262144x6_S16x128x128x6 : S262144x6.ShapeCasts S16x128x128x6
  slices_S32x4_o8_0_S8x4 : S32x4.Slices ![8, 0] S8x4
  slices_S32x1_o8_0_S8x1 : S32x1.Slices ![8, 0] S8x1
  slices_S32x6_o8_0_S8x6 : S32x6.Slices ![8, 0] S8x6
  slices_S32_o8_S8 : S32.Slices ![8] S8
  slices_S6x32_o0_8_S6x8 : S6x32.Slices ![0, 8] S6x8
  slices_S32x4_o16_0_S8x4 : S32x4.Slices ![16, 0] S8x4
  slices_S32x1_o16_0_S8x1 : S32x1.Slices ![16, 0] S8x1
  slices_S32x6_o16_0_S8x6 : S32x6.Slices ![16, 0] S8x6
  slices_S32_o16_S8 : S32.Slices ![16] S8
  slices_S6x32_o0_16_S6x8 : S6x32.Slices ![0, 16] S6x8
  slices_S32x4_o24_0_S8x4 : S32x4.Slices ![24, 0] S8x4
  slices_S32x1_o24_0_S8x1 : S32x1.Slices ![24, 0] S8x1
  slices_S32x6_o24_0_S8x6 : S32x6.Slices ![24, 0] S8x6
  slices_S32_o24_S8 : S32.Slices ![24] S8
  slices_S6x32_o0_24_S6x8 : S6x32.Slices ![0, 24] S6x8
  shapeCasts_S6_S1x1x1x6 : S6.ShapeCasts S1x1x1x6
  broadcasts_S1x1x1x6_S16x128x128x6 : S1x1x1x6.Broadcasts S16x128x128x6
  slices_S16x128x128x6_o0_0_0_5_S16x128x128x1 : S16x128x128x6.Slices ![0, 0, 0, 5] S16x128x128x1
  shapeCasts_S16x128x128x1_S16x128x128 : S16x128x128x1.ShapeCasts S16x128x128
  reduces_S16x128x128_S128x128 : S16x128x128.Reduces [0] S128x128
  slices_S16x128x128x6_o0_0_0_0_S16x128x128x5 : S16x128x128x6.Slices ![0, 0, 0, 0] S16x128x128x5
  reduces_S16x128x128x5_S16x128x5 : S16x128x128x5.Reduces [2] S16x128x5
  inb_S16x512_S16x512_0_0 : ∀ a, (![0, 0] : Fin 2 → Nat) a + S16x512.size a ≤ S16x512.size a
  h_S16x512 : 0 < S16x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512_S512_0 : ∀ a, (![0] : Fin 1 → Nat) a + S512.size a ≤ S512.size a
  h_S512 : 0 < S512.numel
  transposes_S512x512_p1_0_S512x512 : S512x512.Transposes [1, 0] S512x512
  shapeCasts_S512_S1x512 : S512.ShapeCasts S1x512
  broadcasts_S1x512_S16x512 : S1x512.Broadcasts S16x512
  dot_S2048x4_S4x8_S2048x8_1_0_0_1_n_n_wf : DotDims.WF S2048x4 S4x8 S2048x8 [1] [0] [0] [1] [] []
  dot_S2048x6_S6x8_S2048x8_1_0_0_1_n_n_wf : DotDims.WF S2048x6 S6x8 S2048x8 [1] [0] [0] [1] [] []
  dot_S262144x8_S8x6_S262144x6_1_0_0_1_n_n_wf : DotDims.WF S262144x8 S8x6 S262144x6 [1] [0] [0] [1] [] []
  dot_S16x512_S512x512_S16x512_1_0_0_1_n_n_wf : DotDims.WF S16x512 S512x512 S16x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x128.size a ≤ S16x512.size a
  hwx0_0 : ∀ i : grid0.Coords, EltTy.bits .f32 = 32 ∨ (Rect.block (s := S16x512) S16x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x128.size a ≤ S16x512.size a
  hwx0_1 : ∀ i : grid0.Coords, EltTy.bits .f32 = 32 ∨ (Rect.block (s := S16x512) S16x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x128.size a ≤ S16x512.size a
  hwx0_2 : ∀ i : grid0.Coords, EltTy.bits .f32 = 32 ∨ (Rect.block (s := S16x512) S16x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x128.size a ≤ S16x512.size a
  hwx0_3 : ∀ i : grid0.Coords, EltTy.bits .f32 = 32 ∨ (Rect.block (s := S16x512) S16x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S512x512.size a
  hwx0_4 : ∀ i : grid0.Coords, EltTy.bits .f32 = 32 ∨ (Rect.block (s := S512x512) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x128x5.size a ≤ S16x512x5.size a
  hwx0_5 : ∀ i : grid0.Coords, EltTy.bits .f32 = 32 ∨ (Rect.block (s := S16x512x5) S16x128x5.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S16x128.size a ≤ S16x512.size a
  hwx0_6 : ∀ i : grid0.Coords, EltTy.bits .f32 = 32 ∨ (Rect.block (s := S16x512) S16x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x11.size a ≤ S32x11.size a
  hwx0_7 : ∀ i : grid0.Coords, EltTy.bits .f32 = 32 ∨ (Rect.block (s := S32x11) S32x11.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32.size a ≤ S32.size a
  hwx0_8 : ∀ i : grid0.Coords, EltTy.bits .f32 = 32 ∨ (Rect.block (s := S32) S32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S6x32.size a ≤ S6x32.size a
  hwx0_9 : ∀ i : grid0.Coords, EltTy.bits .f32 = 32 ∨ (Rect.block (s := S6x32) S6x32.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S6.size a ≤ S6.size a
  hwx0_10 : ∀ i : grid0.Coords, EltTy.bits .f32 = 32 ∨ (Rect.block (s := S6) S6.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S128x128.size a ≤ S512x512.size a
  hwx0_11 : ∀ i : grid0.Coords, EltTy.bits .f32 = 32 ∨ (Rect.block (s := S512x512) S128x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S16x128x5.size a ≤ S16x512x5.size a
  hwx0_12 : ∀ i : grid0.Coords, EltTy.bits .f32 = 32 ∨ (Rect.block (s := S16x512x5) S16x128x5.size (cc0_transform_12 i) (hinb0_12 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S16x512.size a ≤ S16x512.size a
  hwx1_0 : ∀ i : grid1.Coords, EltTy.bits .f32 = 32 ∨ (Rect.block (s := S16x512) S16x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .f32 = 32 ∨ (Rect.block (s := S512x512) S512x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512.size a ≤ S512.size a
  hwx1_2 : ∀ i : grid1.Coords, EltTy.bits .f32 = 32 ∨ (Rect.block (s := S512) S512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x512.size a ≤ S16x512.size a
  hwx1_3 : ∀ i : grid1.Coords, EltTy.bits .f32 = 32 ∨ (Rect.block (s := S16x512) S16x512.size (cc1_transform_3 i) (hinb1_3 i)).WholeWords (EltTy.packing .f32)

variable [Facts₀]

def dot_S2048x4_S4x8_S2048x8_1_0_0_1_n_n : DotDims S2048x4 S4x8 S2048x8 where
  lhsContracting := [1]
  rhsContracting := [0]
  lhsNonContracting := [0]
  rhsNonContracting := [1]
  lhsBatch := []
  rhsBatch := []
  wf := dot_S2048x4_S4x8_S2048x8_1_0_0_1_n_n_wf
def dot_S2048x6_S6x8_S2048x8_1_0_0_1_n_n : DotDims S2048x6 S6x8 S2048x8 where
  lhsContracting := [1]
  rhsContracting := [0]
  lhsNonContracting := [0]
  rhsNonContracting := [1]
  lhsBatch := []
  rhsBatch := []
  wf := dot_S2048x6_S6x8_S2048x8_1_0_0_1_n_n_wf
def dot_S262144x8_S8x6_S262144x6_1_0_0_1_n_n : DotDims S262144x8 S8x6 S262144x6 where
  lhsContracting := [1]
  rhsContracting := [0]
  lhsNonContracting := [0]
  rhsNonContracting := [1]
  lhsBatch := []
  rhsBatch := []
  wf := dot_S262144x8_S8x6_S262144x6_1_0_0_1_n_n_wf
def dot_S16x512_S512x512_S16x512_1_0_0_1_n_n : DotDims S16x512 S512x512 S16x512 where
  lhsContracting := [1]
  rhsContracting := [0]
  lhsNonContracting := [0]
  rhsNonContracting := [1]
  lhsBatch := []
  rhsBatch := []
  wf := dot_S16x512_S512x512_S16x512_1_0_0_1_n_n_wf

abbrev win0_0 : Pipeline.Window sig grid0 :=
  Pipeline.Window.ofSpec (Memref.whole main_arg1) S16x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S16x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S16x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S16x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S128x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S16x128x5.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S16x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S32x11.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg11) S6x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg12) S6.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v0_0) S128x128.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v0_1) S16x128x5.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev idle0 : Fin 13 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun i => !(k0_cond2 i == 1#1) | ⟨_ + 13, h⟩ => absurd h (Nat.not_lt.2 (Nat.le_add_left _ _))

abbrev win1_0 : Pipeline.Window sig grid1 :=
  Pipeline.Window.ofSpec (Memref.whole main_arg0) S16x512.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S16x512.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16x512 : Shape := ⟨2, ![16, 512]⟩
abbrev S16x512x5 : Shape := ⟨3, ![16, 512, 5]⟩
abbrev S512x512 : Shape := ⟨2, ![512, 512]⟩
abbrev S512 : Shape := ⟨1, ![512]⟩
abbrev S32x11 : Shape := ⟨2, ![32, 11]⟩
abbrev S32 : Shape := ⟨1, ![32]⟩
abbrev S6x32 : Shape := ⟨2, ![6, 32]⟩
abbrev S6 : Shape := ⟨1, ![6]⟩
abbrev S16x512x1x1 : Shape := ⟨4, ![16, 512, 1, 1]⟩
abbrev S16x512x512x1 : Shape := ⟨4, ![16, 512, 512, 1]⟩
abbrev S1x512x512x1 : Shape := ⟨4, ![1, 512, 512, 1]⟩
abbrev S16x1x512x5 : Shape := ⟨4, ![16, 1, 512, 5]⟩
abbrev S16x512x512x5 : Shape := ⟨4, ![16, 512, 512, 5]⟩
abbrev S16x1x512x1 : Shape := ⟨4, ![16, 1, 512, 1]⟩
abbrev S16x512x512x11 : Shape := ⟨4, ![16, 512, 512, 11]⟩
abbrev S16x512x512x32 : Shape := ⟨4, ![16, 512, 512, 32]⟩
abbrev S1x1x1x32 : Shape := ⟨4, ![1, 1, 1, 32]⟩
abbrev S16x512x512x6 : Shape := ⟨4, ![16, 512, 512, 6]⟩
abbrev S1x1x1x6 : Shape := ⟨4, ![1, 1, 1, 6]⟩
abbrev S_ : Shape := ⟨0, ![]⟩
abbrev S512x512x6 : Shape := ⟨3, ![512, 512, 6]⟩
abbrev S512x512x1 : Shape := ⟨3, ![512, 512, 1]⟩
abbrev S16x512x6 : Shape := ⟨3, ![16, 512, 6]⟩
abbrev S1x512 : Shape := ⟨2, ![1, 512]⟩

abbrev nBuf : Space → Nat
  | .hbm => 56
  | .vmem => 0
  | .smem => 0
  | _ => 0

abbrev bufTy : (tb : Table) → Fin (tcTables nBuf tb) → BufTy
  | .hbm, ⟨0, _⟩ => ⟨S16x512, .f32⟩
  | .hbm, ⟨1, _⟩ => ⟨S16x512, .f32⟩
  | .hbm, ⟨2, _⟩ => ⟨S16x512, .f32⟩
  | .hbm, ⟨3, _⟩ => ⟨S16x512, .f32⟩
  | .hbm, ⟨4, _⟩ => ⟨S16x512, .f32⟩
  | .hbm, ⟨5, _⟩ => ⟨S16x512, .f32⟩
  | .hbm, ⟨6, _⟩ => ⟨S16x512x5, .f32⟩
  | .hbm, ⟨7, _⟩ => ⟨S512x512, .f32⟩
  | .hbm, ⟨8, _⟩ => ⟨S512, .f32⟩
  | .hbm, ⟨9, _⟩ => ⟨S32x11, .f32⟩
  | .hbm, ⟨10, _⟩ => ⟨S32, .f32⟩
  | .hbm, ⟨11, _⟩ => ⟨S6x32, .f32⟩
  | .hbm, ⟨12, _⟩ => ⟨S6, .f32⟩
  | .hbm, ⟨13, _⟩ => ⟨S16x512x1x1, .f32⟩
  | .hbm, ⟨14, _⟩ => ⟨S16x512x512x1, .f32⟩
  | .hbm, ⟨15, _⟩ => ⟨S16x512x1x1, .f32⟩
  | .hbm, ⟨16, _⟩ => ⟨S16x512x512x1, .f32⟩
  | .hbm, ⟨17, _⟩ => ⟨S16x512x1x1, .f32⟩
  | .hbm, ⟨18, _⟩ => ⟨S16x512x512x1, .f32⟩
  | .hbm, ⟨19, _⟩ => ⟨S1x512x512x1, .f32⟩
  | .hbm, ⟨20, _⟩ => ⟨S16x512x512x1, .f32⟩
  | .hbm, ⟨21, _⟩ => ⟨S16x1x512x5, .f32⟩
  | .hbm, ⟨22, _⟩ => ⟨S16x512x512x5, .f32⟩
  | .hbm, ⟨23, _⟩ => ⟨S16x1x512x1, .f32⟩
  | .hbm, ⟨24, _⟩ => ⟨S16x512x512x1, .f32⟩
  | .hbm, ⟨25, _⟩ => ⟨S16x512x1x1, .f32⟩
  | .hbm, ⟨26, _⟩ => ⟨S16x512x512x1, .f32⟩
  | .hbm, ⟨27, _⟩ => ⟨S16x512x512x11, .f32⟩
  | .hbm, ⟨28, _⟩ => ⟨S16x512x512x32, .f32⟩
  | .hbm, ⟨29, _⟩ => ⟨S1x1x1x32, .f32⟩
  | .hbm, ⟨30, _⟩ => ⟨S16x512x512x32, .f32⟩
  | .hbm, ⟨31, _⟩ => ⟨S16x512x512x32, .f32⟩
  | .hbm, ⟨32, _⟩ => ⟨S16x512x512x32, .f32⟩
  | .hbm, ⟨33, _⟩ => ⟨S16x512x512x6, .f32⟩
  | .hbm, ⟨34, _⟩ => ⟨S1x1x1x6, .f32⟩
  | .hbm, ⟨35, _⟩ => ⟨S16x512x512x6, .f32⟩
  | .hbm, ⟨36, _⟩ => ⟨S16x512x512x6, .f32⟩
  | .hbm, ⟨37, _⟩ => ⟨S_, .f32⟩
  | .hbm, ⟨38, _⟩ => ⟨S512x512x6, .f32⟩
  | .hbm, ⟨39, _⟩ => ⟨S_, .f32⟩
  | .hbm, ⟨40, _⟩ => ⟨S512x512x6, .f32⟩
  | .hbm, ⟨41, _⟩ => ⟨S512x512x6, .f32⟩
  | .hbm, ⟨42, _⟩ => ⟨S512x512x1, .f32⟩
  | .hbm, ⟨43, _⟩ => ⟨S512x512, .f32⟩
  | .hbm, ⟨44, _⟩ => ⟨S512x512, .f32⟩
  | .hbm, ⟨45, _⟩ => ⟨S_, .f32⟩
  | .hbm, ⟨46, _⟩ => ⟨S16x512x6, .f32⟩
  | .hbm, ⟨47, _⟩ => ⟨S_, .f32⟩
  | .hbm, ⟨48, _⟩ => ⟨S16x512x6, .f32⟩
  | .hbm, ⟨49, _⟩ => ⟨S16x512x6, .f32⟩
  | .hbm, ⟨50, _⟩ => ⟨S16x512x5, .f32⟩
  | .hbm, ⟨51, _⟩ => ⟨S512x512, .f32⟩
  | .hbm, ⟨52, _⟩ => ⟨S16x512, .f32⟩
  | .hbm, ⟨53, _⟩ => ⟨S1x512, .f32⟩
  | .hbm, ⟨54, _⟩ => ⟨S16x512, .f32⟩
  | .hbm, ⟨55, _⟩ => ⟨S16x512, .f32⟩
  | _, _ => ⟨S16x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst : Ref sig .tc := ⟨.hbm, 37, rfl⟩
abbrev main_v24 : Ref sig .tc := ⟨.hbm, 38, rfl⟩
abbrev main_cst_0 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_1 : Ref sig .tc := ⟨.hbm, 45, rfl⟩
abbrev main_v30 : Ref sig .tc := ⟨.hbm, 46, rfl⟩
abbrev main_cst_2 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩

abbrev nD : Nat := 1
abbrev τ : Topo := Topo.v7x

variable {F : FTy → Type} [FloatOps F]

class Facts₀ : Prop where
  bcast_S16x512_S16x512x1x1_0_1 : S16x512.BroadcastsInDim S16x512x1x1 (![0, 1] : Fin 2 → Fin S16x512x1x1.rank)
  bcast_S16x512x1x1_S16x512x512x1_0_1_2_3 : S16x512x1x1.BroadcastsInDim S16x512x512x1 (![0, 1, 2, 3] : Fin 4 → Fin S16x512x512x1.rank)
  bcast_S512x512_S1x512x512x1_1_2 : S512x512.BroadcastsInDim S1x512x512x1 (![1, 2] : Fin 2 → Fin S1x512x512x1.rank)
  bcast_S1x512x512x1_S16x512x512x1_0_1_2_3 : S1x512x512x1.BroadcastsInDim S16x512x512x1 (![0, 1, 2, 3] : Fin 4 → Fin S16x512x512x1.rank)
  bcast_S16x512x5_S16x1x512x5_0_2_3 : S16x512x5.BroadcastsInDim S16x1x512x5 (![0, 2, 3] : Fin 3 → Fin S16x1x512x5.rank)
  bcast_S16x1x512x5_S16x512x512x5_0_1_2_3 : S16x1x512x5.BroadcastsInDim S16x512x512x5 (![0, 1, 2, 3] : Fin 4 → Fin S16x512x512x5.rank)
  bcast_S16x512_S16x1x512x1_0_2 : S16x512.BroadcastsInDim S16x1x512x1 (![0, 2] : Fin 2 → Fin S16x1x512x1.rank)
  bcast_S16x1x512x1_S16x512x512x1_0_1_2_3 : S16x1x512x1.BroadcastsInDim S16x512x512x1 (![0, 1, 2, 3] : Fin 4 → Fin S16x512x512x1.rank)
  concatenates_S16x512x512x1_S16x512x512x1_S16x512x512x1_S16x512x512x1_S16x512x512x5_S16x512x512x1_S16x512x512x1_S16x512x512x11_d3 : Shape.Concatenates [S16x512x512x1, S16x512x512x1, S16x512x512x1, S16x512x512x1, S16x512x512x5, S16x512x512x1, S16x512x512x1] S16x512x512x11 3
  bcast_S32_S1x1x1x32_3 : S32.BroadcastsInDim S1x1x1x32 (![3] : Fin 1 → Fin S1x1x1x32.rank)
  bcast_S1x1x1x32_S16x512x512x32_0_1_2_3 : S1x1x1x32.BroadcastsInDim S16x512x512x32 (![0, 1, 2, 3] : Fin 4 → Fin S16x512x512x32.rank)
  bcast_S6_S1x1x1x6_3 : S6.BroadcastsInDim S1x1x1x6 (![3] : Fin 1 → Fin S1x1x1x6.rank)
  bcast_S1x1x1x6_S16x512x512x6_0_1_2_3 : S1x1x1x6.BroadcastsInDim S16x512x512x6 (![0, 1, 2, 3] : Fin 4 → Fin S16x512x512x6.rank)
  reducesTo_S16x512x512x6_S512x512x6_d0 : S16x512x512x6.ReducesTo [0] S512x512x6
  h_S_ : 0 < S_.numel
  bcast_S_S512x512x6 : S_.BroadcastsInDim S512x512x6 (![] : Fin 0 → Fin S512x512x6.rank)
  slices_S512x512x6_S512x512x1_0_0_5 : S512x512x6.Slices ![0, 0, 5] S512x512x1
  shapeCasts_S512x512x1_S512x512 : S512x512x1.ShapeCasts S512x512
  reducesTo_S16x512x512x6_S16x512x6_d2 : S16x512x512x6.ReducesTo [2] S16x512x6
  bcast_S_S16x512x6 : S_.BroadcastsInDim S16x512x6 (![] : Fin 0 → Fin S16x512x6.rank)
  slices_S16x512x6_S16x512x5_0_0_0 : S16x512x6.Slices ![0, 0, 0] S16x512x5
  transposes_S512x512_S512x512_1_0 : S512x512.Transposes [1, 0] S512x512
  bcast_S512_S1x512_1 : S512.BroadcastsInDim S1x512 (![1] : Fin 1 → Fin S1x512.rank)
  bcast_S1x512_S16x512_0_1 : S1x512.BroadcastsInDim S16x512 (![0, 1] : Fin 2 → Fin S16x512.rank)
  dot_S16x512x512x11_S32x11_S16x512x512x32_3_1_012_0_n_n_wf : DotDims.WF S16x512x512x11 S32x11 S16x512x512x32 [3] [1] [0, 1, 2] [0] [] []
  dot_S16x512x512x32_S6x32_S16x512x512x6_3_1_012_0_n_n_wf : DotDims.WF S16x512x512x32 S6x32 S16x512x512x6 [3] [1] [0, 1, 2] [0] [] []
  dot_S16x512_S512x512_S16x512_1_0_0_1_n_n_wf : DotDims.WF S16x512 S512x512 S16x512 [1] [0] [0] [1] [] []

variable [Facts₀]

def dot_S16x512x512x11_S32x11_S16x512x512x32_3_1_012_0_n_n : DotDims S16x512x512x11 S32x11 S16x512x512x32 where
  lhsContracting := [3]
  rhsContracting := [1]
  lhsNonContracting := [0, 1, 2]
  rhsNonContracting := [0]
  lhsBatch := []
  rhsBatch := []
  wf := dot_S16x512x512x11_S32x11_S16x512x512x32_3_1_012_0_n_n_wf
def dot_S16x512x512x32_S6x32_S16x512x512x6_3_1_012_0_n_n : DotDims S16x512x512x32 S6x32 S16x512x512x6 where
  lhsContracting := [3]
  rhsContracting := [1]
  lhsNonContracting := [0, 1, 2]
  rhsNonContracting := [0]
  lhsBatch := []
  rhsBatch := []
  wf := dot_S16x512x512x32_S6x32_S16x512x512x6_3_1_012_0_n_n_wf
def dot_S16x512_S512x512_S16x512_1_0_0_1_n_n : DotDims S16x512 S512x512 S16x512 where
  lhsContracting := [1]
  rhsContracting := [0]
  lhsNonContracting := [0]
  rhsNonContracting := [1]
  lhsBatch := []
  rhsBatch := []
  wf := dot_S16x512_S512x512_S16x512_1_0_0_1_n_n_wf

class Facts : Prop extends Facts₀ where

variable [Facts]
-- ==== Proof.TermsBits.lean ====
/-
  What one grid point of the first kernel computes, as terms over the blocks it loads.

  The kernel's body is printed in four parts that hand named intermediate values to one another. Threading those
  values through gives, for the eleven loaded blocks of a point — four (sample, output) signals, the weight tile, the
  hidden-state and previous-input blocks, and the small network's two layers —:
  * `updT`: the network's six outputs at every (sample, output, input) of the tile;
  * `weightT`: the tile of the new weight (the old tile plus the sample mean of the sixth output);
  * `carryT prev`: the running sum over inputs of the first five outputs, continued from `prev`;
  * `clearedT`: the zeros that running sum starts from at the first tile of a row of tiles;
  * `meanT s`: the running sum `s` divided by the number of inputs, stored once a row of tiles is complete.
-/
import proofs.«167862_j23304492548723_1_alg».proof.Proof.Gen.Kernel.Skeleton

noncomputable section

namespace Cert.Kernel.Terms

open Idealize.ShloMosaic Idealize.SL.Sem Cert.Kernel Cert.Kernel.Gen

variable {F : FTy → Type} [FloatOps F]

variable (v3 v4 v5 v6 : Vec F S16x128 .f32) (v7 : Vec F S128x128 .f32) (v8 : Vec F S16x128x5 .f32) (v9 : Vec F S16x128 .f32)
  (v10 : Vec F S32x11 .f32) (v11 : Vec F S32 .f32) (v12 : Vec F S6x32 .f32) (v13 : Vec F S6 .f32)

/-- The accumulator after the first group of eight hidden units. -/
def acc1 : FVec F S16x128x128x6 .f32 :=
  k0_pay14 v7 v12 (k0_pay7 v3 v4 v5 v6) (k0_pay8 v8 v9) (k0_pay9 (F := F)) (k0_pay10 v10) (k0_pay11 v10) (k0_pay12 v10) (k0_pay13 v11)

/-- The accumulator after the third group. -/
def acc3 : FVec F S16x128x128x6 .f32 :=
  k0_pay20 v7 v11 v12 (k0_pay4 v10) (k0_pay5 v10) (k0_pay6 v10) (k0_pay7 v3 v4 v5 v6) (k0_pay8 v8 v9)
    (acc1 v3 v4 v5 v6 v7 v8 v9 v10 v11 v12) (k0_pay15 v11) (k0_pay16 v12) (k0_pay17 (k0_pay6 v10) (k0_pay8 v8 v9))
    (k0_pay18 (k0_pay4 v10) (k0_pay7 v3 v4 v5 v6)) (k0_pay19 v7 (k0_pay5 v10))

/-- The network's six outputs over the tile: the fourth group added, then the second layer's bias. -/
def updT : FVec F S16x128x128x6 .f32 :=
  k0_pay27 v7 v13 (k0_pay8 v8 v9) (acc3 v3 v4 v5 v6 v7 v8 v9 v10 v11 v12) (k0_pay21 (k0_pay5 v10)) (k0_pay22 (k0_pay6 v10))
    (k0_pay23 v11) (k0_pay24 v12) (k0_pay25 (k0_pay7 v3 v4 v5 v6)) (k0_pay26 (k0_pay4 v10))

/-- The new weight's tile. -/
def weightT : FVec F S128x128 .f32 :=
  k0_pay28 v7 v13 (k0_pay8 v8 v9) (acc3 v3 v4 v5 v6 v7 v8 v9 v10 v11 v12) (k0_pay21 (k0_pay5 v10)) (k0_pay22 (k0_pay6 v10))
    (k0_pay23 v11) (k0_pay24 v12) (k0_pay25 (k0_pay7 v3 v4 v5 v6)) (k0_pay26 (k0_pay4 v10))

/-- The running sum over inputs of the first five outputs, continued from `prev`. -/
def carryT (prev : Vec F S16x128x5 .f32) : FVec F S16x128x5 .f32 :=
  k0_pay1 (k0_pay29 v7 v13 (k0_pay8 v8 v9) (acc3 v3 v4 v5 v6 v7 v8 v9 v10 v11 v12) (k0_pay21 (k0_pay5 v10)) (k0_pay22 (k0_pay6 v10))
    (k0_pay23 v11) (k0_pay24 v12) (k0_pay25 (k0_pay7 v3 v4 v5 v6)) (k0_pay26 (k0_pay4 v10)) prev)

/-- The zeros the running sum starts from. -/
def clearedT : FVec F S16x128x5 .f32 := k0_pay3 (F := F)

/-- A completed running sum divided by the number of inputs. -/
def meanT (s : Vec F S16x128x5 .f32) : FVec F S16x128x5 .f32 := k0_pay2 s

/-- The second kernel's one value: the sample block times the transposed new weight, plus the bias row. -/
def denseT (x : Vec F S16x512 .f32) (w : Vec F S512x512 .f32) (b : Vec F S512 .f32) : FVec F S16x512 .f32 := k1_pay1 x w b

end Cert.Kernel.Terms

end
-- ==== Proof.TileBodyBits.lean ====
/-
  One grid point of the first kernel, run on whole staging buffers.

  The body clears its running sum at the first input tile of a row, loads its eleven blocks, stores the new weight's
  tile, adds the tile's sums to the running sum, and at the last input tile of the row stores the mean. Three runs
  cover the grid: at a row's first tile, at a middle tile, and at its last tile. Each says what every buffer holds
  afterwards, as the terms of the blocks loaded: the inputs as they were, the weight tile, the running sum continued
  from what it held (from zero at a first tile), the hidden-state block either untouched or at the mean.
-/
import proofs.«167862_j23304492548723_1_alg».proof.Proof.Gen.Kernel.Launch
import proofs.«167862_j23304492548723_1_alg».proof.Proof.Gen.Kernel.Skeleton
import proofs.«167862_j23304492548723_1_alg».proof.Proof.Gen.Kernel.Points
import proofs.«167862_j23304492548723_1_alg».proof.Proof.TermsBits
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- A list of stores whose last (head) one goes through the whole rectangle at zero offsets covers the shape. -/
theorem cover_head {S : Shape} {e : EltTy} {Val : EltTy → Type} {off : Fin S.rank → Nat} (h : off = fun _ => 0)
    (inb : ∀ a, off a + S.size a ≤ S.size a) (w : S.Idx → Val e) (L : List (View.Piece Val S e)) :
    ∀ y : S.Idx, ∃ p ∈ ((⟨Rect.unit off S.size inb, w⟩ : View.Piece Val S e) :: L), y ∈ p.1.set :=
  fun y => ⟨_, List.mem_cons_self, View.mem_set_unit_zero h inb y⟩

/-- Zero offsets, however many axes. -/
theorem hz1 : (![0] : Fin 1 → Nat) = fun _ => 0 := by funext a; fin_cases a; rfl
theorem hz2 : (![0, 0] : Fin 2 → Nat) = fun _ => 0 := by funext a; fin_cases a <;> rfl
theorem hz3 : (![0, 0, 0] : Fin 3 → Nat) = fun _ => 0 := by funext a; fin_cases a <;> rfl

/-- The body's first branch: the point is at the first input tile of its row (its second coordinate is 0). -/
abbrev atFirst (i : grid0.Coords) : Prop :=
  (Scalar.cmpi .ne (Scalar.extui (Scalar.cmpi .eq (BitVec.ofNat 32 (i 1).val) 0#32)) 0#32) = 1#1
/-- The body's second branch: the point is at the last input tile of its row (its second coordinate is 3). -/
abbrev atLast (i : grid0.Coords) : Prop := k0_cond2 i = 1#1

set_option maxHeartbeats 4000000 in
/-- At a row's FIRST tile: the running sum is cleared, then holds the tile's sums from zero; the hidden-state block is not touched. -/
theorem run_first (c : Dev nD) (E : Set ℕ) (i : grid0.Coords) (arg2 : Memref sig .tc .vmem S16x128 .f32) (harg2 : arg2.IsWhole) (arg3 : Memref sig .tc .vmem S16x128 .f32) (harg3 : arg3.IsWhole) (arg4 : Memref sig .tc .vmem S16x128 .f32) (harg4 : arg4.IsWhole) (arg5 : Memref sig .tc .vmem S16x128 .f32) (harg5 : arg5.IsWhole) (arg6 : Memref sig .tc .vmem S128x128 .f32) (harg6 : arg6.IsWhole) (arg7 : Memref sig .tc .vmem S16x128x5 .f32) (harg7 : arg7.IsWhole) (arg8 : Memref sig .tc .vmem S16x128 .f32) (harg8 : arg8.IsWhole) (arg9 : Memref sig .tc .vmem S32x11 .f32) (harg9 : arg9.IsWhole) (arg10 : Memref sig .tc .vmem S32 .f32) (harg10 : arg10.IsWhole) (arg11 : Memref sig .tc .vmem S6x32 .f32) (harg11 : arg11.IsWhole) (arg12 : Memref sig .tc .vmem S6 .f32) (harg12 : arg12.IsWhole) (arg13 : Memref sig .tc .vmem S128x128 .f32) (harg13 : arg13.IsWhole) (arg14 : Memref sig .tc .vmem S16x128x5 .f32) (harg14 : arg14.IsWhole) (arg15 : Memref sig .tc .vmem S16x128x5 .f32) (harg15 : arg15.IsWhole)
    (hF : atFirst i) (hL : ¬atLast i) (x3 x4 x5 x6 : Vec F S16x128 .f32) (x7 : Vec F S128x128 .f32) (x8 : Vec F S16x128x5 .f32) (x9 : Vec F S16x128 .f32) (x10 : Vec F S32x11 .f32) (x11 : Vec F S32 .f32) (x12 : Vec F S6x32 .f32) (x13 : Vec F S6 .f32) (keep : Vec F S16x128x5 .f32) (K : PUnit → sProp 𝕄) :
    iprop(owns (c : Thread nD τ) arg2 fullShare x3 ∗ owns (c : Thread nD τ) arg3 fullShare x4 ∗ owns (c : Thread nD τ) arg4 fullShare x5 ∗ owns (c : Thread nD τ) arg5 fullShare x6 ∗ owns (c : Thread nD τ) arg6 fullShare x7 ∗ owns (c : Thread nD τ) arg7 fullShare x8 ∗ owns (c : Thread nD τ) arg8 fullShare x9 ∗ owns (c : Thread nD τ) arg9 fullShare x10 ∗ owns (c : Thread nD τ) arg10 fullShare x11 ∗ owns (c : Thread nD τ) arg11 fullShare x12 ∗ owns (c : Thread nD τ) arg12 fullShare x13
        ∗ (∃ d, owns (c : Thread nD τ) arg13 fullShare d) ∗ owns (c : Thread nD τ) arg14 fullShare keep ∗ (∃ d, owns (c : Thread nD τ) arg15 fullShare d)
        ∗ (iprop(owns (c : Thread nD τ) arg2 fullShare x3 ∗ owns (c : Thread nD τ) arg3 fullShare x4 ∗ owns (c : Thread nD τ) arg4 fullShare x5 ∗ owns (c : Thread nD τ) arg5 fullShare x6 ∗ owns (c : Thread nD τ) arg6 fullShare x7 ∗ owns (c : Thread nD τ) arg7 fullShare x8 ∗ owns (c : Thread nD τ) arg8 fullShare x9 ∗ owns (c : Thread nD τ) arg9 fullShare x10 ∗ owns (c : Thread nD τ) arg10 fullShare x11 ∗ owns (c : Thread nD τ) arg11 fullShare x12 ∗ owns (c : Thread nD τ) arg12 fullShare x13
            ∗ owns (c : Thread nD τ) arg13 fullShare (Terms.weightT x3 x4 x5 x6 x7 x8 x9 x10 x11 x12 x13) ∗ owns (c : Thread nD τ) arg14 fullShare keep ∗ owns (c : Thread nD τ) arg15 fullShare (Terms.carryT x3 x4 x5 x6 x7 x8 x9 x10 x11 x12 x13 (Terms.clearedT (F := F)))) -∗ K ⟨⟩))
      ⊢ wp frame (wpE (defs₀ (F := F)) Variants.none c none) E (cc0__kernel1 i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__kernel1_eq_skeleton]; unfold cc0__kernel1_skel
  unfold owns
  iintro ⟨⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%do13, %fo13, -, Ho13⟩, ⟨%fo14, %ho14, Ho14⟩, ⟨%ds15, %fs15, -, Hs15⟩, Hk⟩
  subst h3; subst h4; subst h5; subst h6; subst h7; subst h8; subst h9; subst h10; subst h11; subst h12; subst h13; subst ho14
  sl_exec (disch := first | exact hF | exact hL)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [Ho13]
  · iexists _; isplitr
    swap; · iexact Ho13
    ipureintro
    (try sl_unfold_words)
    rw [View.read_writes_eq_canon _ _ _ (cover_head hz2 _ _ _), View.canon_cons_unit_zero (S := S128x128) hz2]
    simp only [View.readAt_eq_ld, View.ld_unit_zero (S := S16x128) hz2, View.ld_unit_zero (S := S128x128) hz2, View.ld_unit_zero (S := S16x128x5) hz3, View.ld_unit_zero (S := S32x11) hz2, View.ld_unit_zero (S := S32) hz1, View.ld_unit_zero (S := S6x32) hz2, View.ld_unit_zero (S := S6) hz1, View.readCov_unit_zero (S := S16x128x5) _ hz3]
    rfl
  isplitl [Ho14]
  · iexists fo14; isplitr; · ipureintro; rfl
    iexact Ho14
  iexists _; isplitr
  swap; · iexact Hs15
  ipureintro
  (try sl_unfold_words)
  rw [View.read_writes_eq_canon _ _ _ (cover_head hz3 _ _ _), View.canon_cons_unit_zero (S := S16x128x5) hz3]
  simp only [View.readAt_eq_ld, View.ld_unit_zero (S := S16x128) hz2, View.ld_unit_zero (S := S128x128) hz2, View.ld_unit_zero (S := S16x128x5) hz3, View.ld_unit_zero (S := S32x11) hz2, View.ld_unit_zero (S := S32) hz1, View.ld_unit_zero (S := S6x32) hz2, View.ld_unit_zero (S := S6) hz1, View.readCov_unit_zero (S := S16x128x5) _ hz3]
  rfl

set_option maxHeartbeats 4000000 in
/-- At a MIDDLE tile: the running sum is continued from what it held; the hidden-state block is not touched. -/
theorem run_mid (c : Dev nD) (E : Set ℕ) (i : grid0.Coords) (arg2 : Memref sig .tc .vmem S16x128 .f32) (harg2 : arg2.IsWhole) (arg3 : Memref sig .tc .vmem S16x128 .f32) (harg3 : arg3.IsWhole) (arg4 : Memref sig .tc .vmem S16x128 .f32) (harg4 : arg4.IsWhole) (arg5 : Memref sig .tc .vmem S16x128 .f32) (harg5 : arg5.IsWhole) (arg6 : Memref sig .tc .vmem S128x128 .f32) (harg6 : arg6.IsWhole) (arg7 : Memref sig .tc .vmem S16x128x5 .f32) (harg7 : arg7.IsWhole) (arg8 : Memref sig .tc .vmem S16x128 .f32) (harg8 : arg8.IsWhole) (arg9 : Memref sig .tc .vmem S32x11 .f32) (harg9 : arg9.IsWhole) (arg10 : Memref sig .tc .vmem S32 .f32) (harg10 : arg10.IsWhole) (arg11 : Memref sig .tc .vmem S6x32 .f32) (harg11 : arg11.IsWhole) (arg12 : Memref sig .tc .vmem S6 .f32) (harg12 : arg12.IsWhole) (arg13 : Memref sig .tc .vmem S128x128 .f32) (harg13 : arg13.IsWhole) (arg14 : Memref sig .tc .vmem S16x128x5 .f32) (harg14 : arg14.IsWhole) (arg15 : Memref sig .tc .vmem S16x128x5 .f32) (harg15 : arg15.IsWhole)
    (hF : ¬atFirst i) (hL : ¬atLast i) (x3 x4 x5 x6 : Vec F S16x128 .f32) (x7 : Vec F S128x128 .f32) (x8 : Vec F S16x128x5 .f32) (x9 : Vec F S16x128 .f32) (x10 : Vec F S32x11 .f32) (x11 : Vec F S32 .f32) (x12 : Vec F S6x32 .f32) (x13 : Vec F S6 .f32) (keep prev : Vec F S16x128x5 .f32) (K : PUnit → sProp 𝕄) :
    iprop(owns (c : Thread nD τ) arg2 fullShare x3 ∗ owns (c : Thread nD τ) arg3 fullShare x4 ∗ owns (c : Thread nD τ) arg4 fullShare x5 ∗ owns (c : Thread nD τ) arg5 fullShare x6 ∗ owns (c : Thread nD τ) arg6 fullShare x7 ∗ owns (c : Thread nD τ) arg7 fullShare x8 ∗ owns (c : Thread nD τ) arg8 fullShare x9 ∗ owns (c : Thread nD τ) arg9 fullShare x10 ∗ owns (c : Thread nD τ) arg10 fullShare x11 ∗ owns (c : Thread nD τ) arg11 fullShare x12 ∗ owns (c : Thread nD τ) arg12 fullShare x13
        ∗ (∃ d, owns (c : Thread nD τ) arg13 fullShare d) ∗ owns (c : Thread nD τ) arg14 fullShare keep ∗ owns (c : Thread nD τ) arg15 fullShare prev
        ∗ (iprop(owns (c : Thread nD τ) arg2 fullShare x3 ∗ owns (c : Thread nD τ) arg3 fullShare x4 ∗ owns (c : Thread nD τ) arg4 fullShare x5 ∗ owns (c : Thread nD τ) arg5 fullShare x6 ∗ owns (c : Thread nD τ) arg6 fullShare x7 ∗ owns (c : Thread nD τ) arg7 fullShare x8 ∗ owns (c : Thread nD τ) arg8 fullShare x9 ∗ owns (c : Thread nD τ) arg9 fullShare x10 ∗ owns (c : Thread nD τ) arg10 fullShare x11 ∗ owns (c : Thread nD τ) arg11 fullShare x12 ∗ owns (c : Thread nD τ) arg12 fullShare x13
            ∗ owns (c : Thread nD τ) arg13 fullShare (Terms.weightT x3 x4 x5 x6 x7 x8 x9 x10 x11 x12 x13) ∗ owns (c : Thread nD τ) arg14 fullShare keep ∗ owns (c : Thread nD τ) arg15 fullShare (Terms.carryT x3 x4 x5 x6 x7 x8 x9 x10 x11 x12 x13 prev)) -∗ K ⟨⟩))
      ⊢ wp frame (wpE (defs₀ (F := F)) Variants.none c none) E (cc0__kernel1 i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__kernel1_eq_skeleton]; unfold cc0__kernel1_skel
  unfold owns
  iintro ⟨⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%do13, %fo13, -, Ho13⟩, ⟨%fo14, %ho14, Ho14⟩, ⟨%fs15, %hs15, Hs15⟩, Hk⟩
  subst h3; subst h4; subst h5; subst h6; subst h7; subst h8; subst h9; subst h10; subst h11; subst h12; subst h13; subst ho14; subst hs15
  sl_exec (disch := first | exact hF | exact hL)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [Ho13]
  · iexists _; isplitr
    swap; · iexact Ho13
    ipureintro
    (try sl_unfold_words)
    rw [View.read_writes_eq_canon _ _ _ (cover_head hz2 _ _ _), View.canon_cons_unit_zero (S := S128x128) hz2]
    simp only [View.readAt_eq_ld, View.ld_unit_zero (S := S16x128) hz2, View.ld_unit_zero (S := S128x128) hz2, View.ld_unit_zero (S := S16x128x5) hz3, View.ld_unit_zero (S := S32x11) hz2, View.ld_unit_zero (S := S32) hz1, View.ld_unit_zero (S := S6x32) hz2, View.ld_unit_zero (S := S6) hz1, View.readCov_unit_zero (S := S16x128x5) _ hz3]
    rfl
  isplitl [Ho14]
  · iexists fo14; isplitr; · ipureintro; rfl
    iexact Ho14
  iexists _; isplitr
  swap; · iexact Hs15
  ipureintro
  (try sl_unfold_words)
  rw [View.read_writes_eq_canon _ _ _ (cover_head hz3 _ _ _), View.canon_cons_unit_zero (S := S16x128x5) hz3]
  simp only [View.readAt_eq_ld, View.ld_unit_zero (S := S16x128) hz2, View.ld_unit_zero (S := S128x128) hz2, View.ld_unit_zero (S := S16x128x5) hz3, View.ld_unit_zero (S := S32x11) hz2, View.ld_unit_zero (S := S32) hz1, View.ld_unit_zero (S := S6x32) hz2, View.ld_unit_zero (S := S6) hz1, View.readCov_unit_zero (S := S16x128x5) _ hz3]
  rfl

set_option maxHeartbeats 4000000 in
/-- At a row's LAST tile: the running sum is continued, and its mean is stored into the hidden-state block. -/
theorem run_last (c : Dev nD) (E : Set ℕ) (i : grid0.Coords) (arg2 : Memref sig .tc .vmem S16x128 .f32) (harg2 : arg2.IsWhole) (arg3 : Memref sig .tc .vmem S16x128 .f32) (harg3 : arg3.IsWhole) (arg4 : Memref sig .tc .vmem S16x128 .f32) (harg4 : arg4.IsWhole) (arg5 : Memref sig .tc .vmem S16x128 .f32) (harg5 : arg5.IsWhole) (arg6 : Memref sig .tc .vmem S128x128 .f32) (harg6 : arg6.IsWhole) (arg7 : Memref sig .tc .vmem S16x128x5 .f32) (harg7 : arg7.IsWhole) (arg8 : Memref sig .tc .vmem S16x128 .f32) (harg8 : arg8.IsWhole) (arg9 : Memref sig .tc .vmem S32x11 .f32) (harg9 : arg9.IsWhole) (arg10 : Memref sig .tc .vmem S32 .f32) (harg10 : arg10.IsWhole) (arg11 : Memref sig .tc .vmem S6x32 .f32) (harg11 : arg11.IsWhole) (arg12 : Memref sig .tc .vmem S6 .f32) (harg12 : arg12.IsWhole) (arg13 : Memref sig .tc .vmem S128x128 .f32) (harg13 : arg13.IsWhole) (arg14 : Memref sig .tc .vmem S16x128x5 .f32) (harg14 : arg14.IsWhole) (arg15 : Memref sig .tc .vmem S16x128x5 .f32) (harg15 : arg15.IsWhole)
    (hF : ¬atFirst i) (hL : atLast i) (x3 x4 x5 x6 : Vec F S16x128 .f32) (x7 : Vec F S128x128 .f32) (x8 : Vec F S16x128x5 .f32) (x9 : Vec F S16x128 .f32) (x10 : Vec F S32x11 .f32) (x11 : Vec F S32 .f32) (x12 : Vec F S6x32 .f32) (x13 : Vec F S6 .f32) (prev : Vec F S16x128x5 .f32) (K : PUnit → sProp 𝕄) :
    iprop(owns (c : Thread nD τ) arg2 fullShare x3 ∗ owns (c : Thread nD τ) arg3 fullShare x4 ∗ owns (c : Thread nD τ) arg4 fullShare x5 ∗ owns (c : Thread nD τ) arg5 fullShare x6 ∗ owns (c : Thread nD τ) arg6 fullShare x7 ∗ owns (c : Thread nD τ) arg7 fullShare x8 ∗ owns (c : Thread nD τ) arg8 fullShare x9 ∗ owns (c : Thread nD τ) arg9 fullShare x10 ∗ owns (c : Thread nD τ) arg10 fullShare x11 ∗ owns (c : Thread nD τ) arg11 fullShare x12 ∗ owns (c : Thread nD τ) arg12 fullShare x13
        ∗ (∃ d, owns (c : Thread nD τ) arg13 fullShare d) ∗ (∃ d, owns (c : Thread nD τ) arg14 fullShare d) ∗ owns (c : Thread nD τ) arg15 fullShare prev
        ∗ (iprop(owns (c : Thread nD τ) arg2 fullShare x3 ∗ owns (c : Thread nD τ) arg3 fullShare x4 ∗ owns (c : Thread nD τ) arg4 fullShare x5 ∗ owns (c : Thread nD τ) arg5 fullShare x6 ∗ owns (c : Thread nD τ) arg6 fullShare x7 ∗ owns (c : Thread nD τ) arg7 fullShare x8 ∗ owns (c : Thread nD τ) arg8 fullShare x9 ∗ owns (c : Thread nD τ) arg9 fullShare x10 ∗ owns (c : Thread nD τ) arg10 fullShare x11 ∗ owns (c : Thread nD τ) arg11 fullShare x12 ∗ owns (c : Thread nD τ) arg12 fullShare x13
            ∗ owns (c : Thread nD τ) arg13 fullShare (Terms.weightT x3 x4 x5 x6 x7 x8 x9 x10 x11 x12 x13) ∗ owns (c : Thread nD τ) arg14 fullShare (Terms.meanT (Terms.carryT x3 x4 x5 x6 x7 x8 x9 x10 x11 x12 x13 prev)) ∗ owns (c : Thread nD τ) arg15 fullShare (Terms.carryT x3 x4 x5 x6 x7 x8 x9 x10 x11 x12 x13 prev)) -∗ K ⟨⟩))
      ⊢ wp frame (wpE (defs₀ (F := F)) Variants.none c none) E (cc0__kernel1 i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__kernel1_eq_skeleton]; unfold cc0__kernel1_skel
  unfold owns
  iintro ⟨⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%do13, %fo13, -, Ho13⟩, ⟨%do14, %fo14, -, Ho14⟩, ⟨%fs15, %hs15, Hs15⟩, Hk⟩
  subst h3; subst h4; subst h5; subst h6; subst h7; subst h8; subst h9; subst h10; subst h11; subst h12; subst h13; subst hs15
  sl_exec (disch := first | exact hF | exact hL)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [Ho13]
  · iexists _; isplitr
    swap; · iexact Ho13
    ipureintro
    (try sl_unfold_words)
    rw [View.read_writes_eq_canon _ _ _ (cover_head hz2 _ _ _), View.canon_cons_unit_zero (S := S128x128) hz2]
    simp only [View.readAt_eq_ld, View.ld_unit_zero (S := S16x128) hz2, View.ld_unit_zero (S := S128x128) hz2, View.ld_unit_zero (S := S16x128x5) hz3, View.ld_unit_zero (S := S32x11) hz2, View.ld_unit_zero (S := S32) hz1, View.ld_unit_zero (S := S6x32) hz2, View.ld_unit_zero (S := S6) hz1, View.readCov_unit_zero (S := S16x128x5) _ hz3]
    rfl
  isplitl [Ho14]
  · iexists _; isplitr
    swap; · iexact Ho14
    ipureintro
    (try sl_unfold_words)
    rw [View.read_writes_eq_canon _ _ _ (cover_head hz3 _ _ _), View.canon_cons_unit_zero (S := S16x128x5) hz3]
    simp only [View.readAt_eq_ld, View.ld_unit_zero (S := S16x128) hz2, View.ld_unit_zero (S := S128x128) hz2, View.ld_unit_zero (S := S16x128x5) hz3, View.ld_unit_zero (S := S32x11) hz2, View.ld_unit_zero (S := S32) hz1, View.ld_unit_zero (S := S6x32) hz2, View.ld_unit_zero (S := S6) hz1, View.readCov_unit_zero (S := S16x128x5) _ hz3]
    rfl
  iexists _; isplitr
  swap; · iexact Hs15
  ipureintro
  (try sl_unfold_words)
  rw [View.read_writes_eq_canon _ _ _ (cover_head hz3 _ _ _), View.canon_cons_unit_zero (S := S16x128x5) hz3]
  simp only [View.readAt_eq_ld, View.ld_unit_zero (S := S16x128) hz2, View.ld_unit_zero (S := S128x128) hz2, View.ld_unit_zero (S := S16x128x5) hz3, View.ld_unit_zero (S := S32x11) hz2, View.ld_unit_zero (S := S32) hz1, View.ld_unit_zero (S := S6x32) hz2, View.ld_unit_zero (S := S6) hz1, View.readCov_unit_zero (S := S16x128x5) _ hz3]
  rfl

end Cert.Kernel.Tile

end
-- ==== Proof.TileDataBits.lean ====
/-
  The first kernel's region, point by point: the data.

  The grid is four rows of four tiles; point `t` is tile `t % 4` of row `t / 4`. The hidden-state block is stored only at
  a row's last tile (remainder 3) and written back only there; at the other points its buffer is left alone. What the
  running sum holds after point `t` is defined by recursion on the point (`sumAt`): the tile's sums from zero at a row's
  first tile (remainder 0), added to what the point before left otherwise. The region's invariant carries it from point
  to point beside the rest of the core's scoped state. Everything is stated at any contents `V` of the core's buffers
  when the region is entered.
-/
import proofs.«167862_j23304492548723_1_alg».proof.Proof.Gen.Kernel.Launch
import proofs.«167862_j23304492548723_1_alg».proof.Proof.Gen.Kernel.Skeleton
import proofs.«167862_j23304492548723_1_alg».proof.Proof.Gen.Kernel.Points
import proofs.«167862_j23304492548723_1_alg».proof.Proof.TermsBits
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## Where a window is left alone -/

theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel
theorem live_4 : ∀ t : Fin cfg0.N, cfg0.idle 4 (grid0.coords t) = false := by decide +kernel
theorem live_5 : ∀ t : Fin cfg0.N, cfg0.idle 5 (grid0.coords t) = false := by decide +kernel
theorem live_6 : ∀ t : Fin cfg0.N, cfg0.idle 6 (grid0.coords t) = false := by decide +kernel
theorem live_7 : ∀ t : Fin cfg0.N, cfg0.idle 7 (grid0.coords t) = false := by decide +kernel
theorem live_8 : ∀ t : Fin cfg0.N, cfg0.idle 8 (grid0.coords t) = false := by decide +kernel
theorem live_9 : ∀ t : Fin cfg0.N, cfg0.idle 9 (grid0.coords t) = false := by decide +kernel
theorem live_10 : ∀ t : Fin cfg0.N, cfg0.idle 10 (grid0.coords t) = false := by decide +kernel
theorem live_11 : ∀ t : Fin cfg0.N, cfg0.idle 11 (grid0.coords t) = false := by decide +kernel
/-- Away from a row's last tile the body stores nothing into the hidden-state block, -/
theorem idle_12 : ∀ t : Fin cfg0.N, ¬t.val % 4 = 3 → cfg0.idle 12 (grid0.coords t) = true := by decide +kernel
/-- and the block is not written back there; -/
theorem noflush_12 : ∀ t : Fin cfg0.N, ¬t.val % 4 = 3 → (cfg0.win 12).flush t = false := by decide +kernel
/-- at a row's last tile it is stored. -/
theorem live_12 : ∀ t : Fin cfg0.N, t.val % 4 = 3 → cfg0.idle 12 (grid0.coords t) = false := by decide +kernel

/-! ## The scoped state the body does not describe -/

/-- The running sum's buffer, whole. -/
abbrev scM : Memref sig .tc .vmem S16x128x5 .f32 := Memref.whole cc0_scratch0

/-- The other region's staging buffers, each at some contents: scoped state this region never touches. -/
def others (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f))

/-- The class invariant with the running sum's buffer split off as a memref owned at some contents. -/
theorem PhiA0_eq (c : Dev nD) :
    (Pipeline.ΦA spec0 c : sProp 𝕄)
      = iprop(((∃ d, owns (c : Thread nD τ) scM fullShare d) ∗ others c) ∗ (∃ r, prngReg c r)) := by
  unfold Pipeline.ΦA others; rw [scopedRest0_eq]; simp only [scM, owns_whole]; try rfl

section AtEntry

-- the core's buffer contents when the region is entered
variable (V : (c : Dev nD) → (b : Ref sig .tc) → Buf (Elt F) ((c : Thread nD τ).loc b))

/-- Window `w`'s block at point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of window 0 at point `t`, at its literal type. -/
abbrev b0 (c : Dev nD) (t : Fin cfg0.N) : Vec F S16x128 .f32 := blk V c 0 t
/-- The block of window 1 at point `t`, at its literal type. -/
abbrev b1 (c : Dev nD) (t : Fin cfg0.N) : Vec F S16x128 .f32 := blk V c 1 t
/-- The block of window 2 at point `t`, at its literal type. -/
abbrev b2 (c : Dev nD) (t : Fin cfg0.N) : Vec F S16x128 .f32 := blk V c 2 t
/-- The block of window 3 at point `t`, at its literal type. -/
abbrev b3 (c : Dev nD) (t : Fin cfg0.N) : Vec F S16x128 .f32 := blk V c 3 t
/-- The block of window 4 at point `t`, at its literal type. -/
abbrev b4 (c : Dev nD) (t : Fin cfg0.N) : Vec F S128x128 .f32 := blk V c 4 t
/-- The block of window 5 at point `t`, at its literal type. -/
abbrev b5 (c : Dev nD) (t : Fin cfg0.N) : Vec F S16x128x5 .f32 := blk V c 5 t
/-- The block of window 6 at point `t`, at its literal type. -/
abbrev b6 (c : Dev nD) (t : Fin cfg0.N) : Vec F S16x128 .f32 := blk V c 6 t
/-- The block of window 7 at point `t`, at its literal type. -/
abbrev b7 (c : Dev nD) (t : Fin cfg0.N) : Vec F S32x11 .f32 := blk V c 7 t
/-- The block of window 8 at point `t`, at its literal type. -/
abbrev b8 (c : Dev nD) (t : Fin cfg0.N) : Vec F S32 .f32 := blk V c 8 t
/-- The block of window 9 at point `t`, at its literal type. -/
abbrev b9 (c : Dev nD) (t : Fin cfg0.N) : Vec F S6x32 .f32 := blk V c 9 t
/-- The block of window 10 at point `t`, at its literal type. -/
abbrev b10 (c : Dev nD) (t : Fin cfg0.N) : Vec F S6 .f32 := blk V c 10 t

/-! ## The running sum after each point -/

/-- What the running sum holds after point `n`: at a row's first tile the tile's sums from zero; otherwise the tile's
    sums added to what point `n - 1` left. -/
def sumAt (c : Dev nD) : (n : ℕ) → n < cfg0.N → Vec F S16x128x5 .f32
  | 0, hn => Terms.carryT (b0 V c ⟨0, hn⟩) (b1 V c ⟨0, hn⟩) (b2 V c ⟨0, hn⟩) (b3 V c ⟨0, hn⟩) (b4 V c ⟨0, hn⟩) (b5 V c ⟨0, hn⟩) (b6 V c ⟨0, hn⟩) (b7 V c ⟨0, hn⟩) (b8 V c ⟨0, hn⟩) (b9 V c ⟨0, hn⟩) (b10 V c ⟨0, hn⟩) (Terms.clearedT (F := F))
  | n + 1, hn =>
    if (n + 1) % 4 = 0 then Terms.carryT (b0 V c ⟨n + 1, hn⟩) (b1 V c ⟨n + 1, hn⟩) (b2 V c ⟨n + 1, hn⟩) (b3 V c ⟨n + 1, hn⟩) (b4 V c ⟨n + 1, hn⟩) (b5 V c ⟨n + 1, hn⟩) (b6 V c ⟨n + 1, hn⟩) (b7 V c ⟨n + 1, hn⟩) (b8 V c ⟨n + 1, hn⟩) (b9 V c ⟨n + 1, hn⟩) (b10 V c ⟨n + 1, hn⟩) (Terms.clearedT (F := F))
    else Terms.carryT (b0 V c ⟨n + 1, hn⟩) (b1 V c ⟨n + 1, hn⟩) (b2 V c ⟨n + 1, hn⟩) (b3 V c ⟨n + 1, hn⟩) (b4 V c ⟨n + 1, hn⟩) (b5 V c ⟨n + 1, hn⟩) (b6 V c ⟨n + 1, hn⟩) (b7 V c ⟨n + 1, hn⟩) (b8 V c ⟨n + 1, hn⟩) (b9 V c ⟨n + 1, hn⟩) (b10 V c ⟨n + 1, hn⟩) (sumAt c n (Nat.lt_of_succ_lt hn))

theorem sumAt_first (c : Dev nD) (t : Fin cfg0.N) (h : t.val % 4 = 0) :
    sumAt V c t.val t.isLt = Terms.carryT (b0 V c t) (b1 V c t) (b2 V c t) (b3 V c t) (b4 V c t) (b5 V c t) (b6 V c t) (b7 V c t) (b8 V c t) (b9 V c t) (b10 V c t) (Terms.clearedT (F := F)) := by
  obtain ⟨n, hn⟩ := t
  cases n with
  | zero => rfl
  | succ n => exact if_pos h

theorem sumAt_later (c : Dev nD) (t : Fin cfg0.N) (h : ¬t.val % 4 = 0) :
    sumAt V c t.val t.isLt = Terms.carryT (b0 V c t) (b1 V c t) (b2 V c t) (b3 V c t) (b4 V c t) (b5 V c t) (b6 V c t) (b7 V c t) (b8 V c t) (b9 V c t) (b10 V c t) (sumAt V c (t.val - 1) (Nat.lt_of_le_of_lt (Nat.sub_le _ _) t.isLt)) := by
  obtain ⟨n, hn⟩ := t
  cases n with
  | zero => exact absurd (Nat.zero_mod _) h
  | succ n => exact if_neg h

/-! ## The invariant -/

/-- Before point `n`: at the region's entry the class invariant (the running sum's buffer at anything); afterwards the
    running sum at what point `n - 1` left, the other scoped buffers at anything, the generator register at some state. -/
def PhiT (c : Dev nD) : (n : ℕ) → n ≤ cfg0.N → sProp 𝕄
  | 0, _ => Pipeline.ΦA spec0 c
  | n + 1, hn => iprop((owns (c : Thread nD τ) scM fullShare (sumAt V c n hn) ∗ others c) ∗ (∃ r, prngReg c r))

theorem PhiT_zero (c : Dev nD) (n : ℕ) (h : n ≤ cfg0.N) (hz : n = 0) : PhiT V c n h = Pipeline.ΦA spec0 c := by
  subst hz; rfl
theorem PhiT_succ (c : Dev nD) (n : ℕ) (hn : n < cfg0.N) :
    PhiT V c (n + 1) hn = iprop((owns (c : Thread nD τ) scM fullShare (sumAt V c n hn) ∗ others c) ∗ (∃ r, prngReg c r)) := rfl
theorem PhiT_pos (c : Dev nD) (n : ℕ) (h : n ≤ cfg0.N) (hz : n ≠ 0) :
    PhiT V c n h = iprop((owns (c : Thread nD τ) scM fullShare (sumAt V c (n - 1) (by omega)) ∗ others c) ∗ (∃ r, prngReg c r)) := by
  cases n with
  | zero => exact absurd rfl hz
  | succ n => rfl

/-! ## The proof data -/

/-- The region's proof data: the arrays as found; after the body at point `t` each input's buffer at its block, the
    weight window's at the new weight's tile, the hidden-state window's at the mean of the running sum (consulted only at
    a row's last tile); the invariant `PhiT`; nothing owed; full shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => blk V c 7 t
    | ⟨8, _⟩ => blk V c 8 t
    | ⟨9, _⟩ => blk V c 9 t
    | ⟨10, _⟩ => blk V c 10 t
    | ⟨11, _⟩ => Terms.weightT (b0 V c t) (b1 V c t) (b2 V c t) (b3 V c t) (b4 V c t) (b5 V c t) (b6 V c t) (b7 V c t) (b8 V c t) (b9 V c t) (b10 V c t)
    | ⟨12, _⟩ => Terms.meanT (sumAt V c t.val t.isLt)
  Φ t := PhiT V c t.val (Nat.le_of_lt_succ t.isLt)
  q _ := fullShare
  owed _ := 0

theorem A_eq (c : Dev nD) (w : Fin cfg0.W) : (dat V c).A w = V c (Pipeline.arrRef spec0 w) := by dsimp only [dat]
theorem PhiT_castSucc (c : Dev nD) (t : Fin cfg0.N) : (dat V c).Φ t.castSucc = PhiT V c t.val (Nat.le_of_lt t.isLt) := by
  dsimp only [dat]; simp only [Fin.coe_castSucc]
theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = blk V c 2 t := by dsimp only [dat]
theorem after_3 (c : Dev nD) (t : Fin cfg0.N) : (dat V c).after 3 t = blk V c 3 t := by dsimp only [dat]
theorem after_4 (c : Dev nD) (t : Fin cfg0.N) : (dat V c).after 4 t = blk V c 4 t := by dsimp only [dat]
theorem after_5 (c : Dev nD) (t : Fin cfg0.N) : (dat V c).after 5 t = blk V c 5 t := by dsimp only [dat]
theorem after_6 (c : Dev nD) (t : Fin cfg0.N) : (dat V c).after 6 t = blk V c 6 t := by dsimp only [dat]
theorem after_7 (c : Dev nD) (t : Fin cfg0.N) : (dat V c).after 7 t = blk V c 7 t := by dsimp only [dat]
theorem after_8 (c : Dev nD) (t : Fin cfg0.N) : (dat V c).after 8 t = blk V c 8 t := by dsimp only [dat]
theorem after_9 (c : Dev nD) (t : Fin cfg0.N) : (dat V c).after 9 t = blk V c 9 t := by dsimp only [dat]
theorem after_10 (c : Dev nD) (t : Fin cfg0.N) : (dat V c).after 10 t = blk V c 10 t := by dsimp only [dat]
theorem after_11 (c : Dev nD) (t : Fin cfg0.N) : (dat V c).after 11 t = Terms.weightT (b0 V c t) (b1 V c t) (b2 V c t) (b3 V c t) (b4 V c t) (b5 V c t) (b6 V c t) (b7 V c t) (b8 V c t) (b9 V c t) (b10 V c t) := by dsimp only [dat]
theorem after_12 (c : Dev nD) (t : Fin cfg0.N) : (dat V c).after 12 t = Terms.meanT (sumAt V c t.val t.isLt) := by dsimp only [dat]

/-- An input's staging buffer holds its block when the body starts, fetched at this point or not. -/
theorem before_0 (c : Dev nD) (t : Fin cfg0.N) (d) : (dat V c).before 0 t d = blk V c 0 t :=
  ((dat V c).before_in_eq_fetched 0 rfl (fun _ => rfl) (fun _ _ _ => rfl) (fun t => by rw [after_0]; unfold Dat.blockOf blk; rw [A_eq]; try rfl) t d).trans
    (by unfold Dat.fetched Dat.blockOf blk; rw [A_eq]; try rfl)
theorem before_1 (c : Dev nD) (t : Fin cfg0.N) (d) : (dat V c).before 1 t d = blk V c 1 t :=
  ((dat V c).before_in_eq_fetched 1 rfl (fun _ => rfl) (fun _ _ _ => rfl) (fun t => by rw [after_1]; unfold Dat.blockOf blk; rw [A_eq]; try rfl) t d).trans
    (by unfold Dat.fetched Dat.blockOf blk; rw [A_eq]; try rfl)
theorem before_2 (c : Dev nD) (t : Fin cfg0.N) (d) : (dat V c).before 2 t d = blk V c 2 t :=
  ((dat V c).before_in_eq_fetched 2 rfl (fun _ => rfl) (fun _ _ _ => rfl) (fun t => by rw [after_2]; unfold Dat.blockOf blk; rw [A_eq]; try rfl) t d).trans
    (by unfold Dat.fetched Dat.blockOf blk; rw [A_eq]; try rfl)
theorem before_3 (c : Dev nD) (t : Fin cfg0.N) (d) : (dat V c).before 3 t d = blk V c 3 t :=
  ((dat V c).before_in_eq_fetched 3 rfl (fun _ => rfl) (fun _ _ _ => rfl) (fun t => by rw [after_3]; unfold Dat.blockOf blk; rw [A_eq]; try rfl) t d).trans
    (by unfold Dat.fetched Dat.blockOf blk; rw [A_eq]; try rfl)
theorem before_4 (c : Dev nD) (t : Fin cfg0.N) (d) : (dat V c).before 4 t d = blk V c 4 t :=
  ((dat V c).before_in_eq_fetched 4 rfl (fun _ => rfl) (fun _ _ _ => rfl) (fun t => by rw [after_4]; unfold Dat.blockOf blk; rw [A_eq]; try rfl) t d).trans
    (by unfold Dat.fetched Dat.blockOf blk; rw [A_eq]; try rfl)
theorem before_5 (c : Dev nD) (t : Fin cfg0.N) (d) : (dat V c).before 5 t d = blk V c 5 t :=
  ((dat V c).before_in_eq_fetched 5 rfl (fun _ => rfl) (fun _ _ _ => rfl) (fun t => by rw [after_5]; unfold Dat.blockOf blk; rw [A_eq]; try rfl) t d).trans
    (by unfold Dat.fetched Dat.blockOf blk; rw [A_eq]; try rfl)
theorem before_6 (c : Dev nD) (t : Fin cfg0.N) (d) : (dat V c).before 6 t d = blk V c 6 t :=
  ((dat V c).before_in_eq_fetched 6 rfl (fun _ => rfl) (fun _ _ _ => rfl) (fun t => by rw [after_6]; unfold Dat.blockOf blk; rw [A_eq]; try rfl) t d).trans
    (by unfold Dat.fetched Dat.blockOf blk; rw [A_eq]; try rfl)
theorem before_7 (c : Dev nD) (t : Fin cfg0.N) (d) : (dat V c).before 7 t d = blk V c 7 t :=
  ((dat V c).before_in_eq_fetched 7 rfl (fun _ => rfl) (fun _ _ _ => rfl) (fun t => by rw [after_7]; unfold Dat.blockOf blk; rw [A_eq]; try rfl) t d).trans
    (by unfold Dat.fetched Dat.blockOf blk; rw [A_eq]; try rfl)
theorem before_8 (c : Dev nD) (t : Fin cfg0.N) (d) : (dat V c).before 8 t d = blk V c 8 t :=
  ((dat V c).before_in_eq_fetched 8 rfl (fun _ => rfl) (fun _ _ _ => rfl) (fun t => by rw [after_8]; unfold Dat.blockOf blk; rw [A_eq]; try rfl) t d).trans
    (by unfold Dat.fetched Dat.blockOf blk; rw [A_eq]; try rfl)
theorem before_9 (c : Dev nD) (t : Fin cfg0.N) (d) : (dat V c).before 9 t d = blk V c 9 t :=
  ((dat V c).before_in_eq_fetched 9 rfl (fun _ => rfl) (fun _ _ _ => rfl) (fun t => by rw [after_9]; unfold Dat.blockOf blk; rw [A_eq]; try rfl) t d).trans
    (by unfold Dat.fetched Dat.blockOf blk; rw [A_eq]; try rfl)
theorem before_10 (c : Dev nD) (t : Fin cfg0.N) (d) : (dat V c).before 10 t d = blk V c 10 t :=
  ((dat V c).before_in_eq_fetched 10 rfl (fun _ => rfl) (fun _ _ _ => rfl) (fun t => by rw [after_10]; unfold Dat.blockOf blk; rw [A_eq]; try rfl) t d).trans
    (by unfold Dat.fetched Dat.blockOf blk; rw [A_eq]; try rfl)

theorem leaves_0 (c : Dev nD) (t : Fin cfg0.N) :
    (dat V c).leavesExact 0 t = owns (c : Thread nD τ) (st0_0 t) fullShare ((dat V c).after 0 t) := by
  unfold Dat.leavesExact; rw [live_0 t]
theorem leaves_1 (c : Dev nD) (t : Fin cfg0.N) :
    (dat V c).leavesExact 1 t = owns (c : Thread nD τ) (st0_1 t) fullShare ((dat V c).after 1 t) := by
  unfold Dat.leavesExact; rw [live_1 t]
theorem leaves_2 (c : Dev nD) (t : Fin cfg0.N) :
    (dat V c).leavesExact 2 t = owns (c : Thread nD τ) (st0_2 t) fullShare ((dat V c).after 2 t) := by
  unfold Dat.leavesExact; rw [live_2 t]
theorem leaves_3 (c : Dev nD) (t : Fin cfg0.N) :
    (dat V c).leavesExact 3 t = owns (c : Thread nD τ) (st0_3 t) fullShare ((dat V c).after 3 t) := by
  unfold Dat.leavesExact; rw [live_3 t]
theorem leaves_4 (c : Dev nD) (t : Fin cfg0.N) :
    (dat V c).leavesExact 4 t = owns (c : Thread nD τ) (st0_4 t) fullShare ((dat V c).after 4 t) := by
  unfold Dat.leavesExact; rw [live_4 t]
theorem leaves_5 (c : Dev nD) (t : Fin cfg0.N) :
    (dat V c).leavesExact 5 t = owns (c : Thread nD τ) (st0_5 t) fullShare ((dat V c).after 5 t) := by
  unfold Dat.leavesExact; rw [live_5 t]
theorem leaves_6 (c : Dev nD) (t : Fin cfg0.N) :
    (dat V c).leavesExact 6 t = owns (c : Thread nD τ) (st0_6 t) fullShare ((dat V c).after 6 t) := by
  unfold Dat.leavesExact; rw [live_6 t]
theorem leaves_7 (c : Dev nD) (t : Fin cfg0.N) :
    (dat V c).leavesExact 7 t = owns (c : Thread nD τ) (st0_7 t) fullShare ((dat V c).after 7 t) := by
  unfold Dat.leavesExact; rw [live_7 t]
theorem leaves_8 (c : Dev nD) (t : Fin cfg0.N) :
    (dat V c).leavesExact 8 t = owns (c : Thread nD τ) (st0_8 t) fullShare ((dat V c).after 8 t) := by
  unfold Dat.leavesExact; rw [live_8 t]
theorem leaves_9 (c : Dev nD) (t : Fin cfg0.N) :
    (dat V c).leavesExact 9 t = owns (c : Thread nD τ) (st0_9 t) fullShare ((dat V c).after 9 t) := by
  unfold Dat.leavesExact; rw [live_9 t]
theorem leaves_10 (c : Dev nD) (t : Fin cfg0.N) :
    (dat V c).leavesExact 10 t = owns (c : Thread nD τ) (st0_10 t) fullShare ((dat V c).after 10 t) := by
  unfold Dat.leavesExact; rw [live_10 t]
theorem leaves_11 (c : Dev nD) (t : Fin cfg0.N) :
    (dat V c).leavesExact 11 t = owns (c : Thread nD τ) (st0_11 t) fullShare ((dat V c).after 11 t) := by
  unfold Dat.leavesExact; rw [live_11 t]

end AtEntry

end Cert.Kernel.Tile

end
-- ==== Proof.TileFrameBits.lean ====
/-
  The first kernel's region, point by point: the body obligation.

  The body's two branches are decided by the remainder of the point's number modulo 4: it clears its running sum where
  the remainder is 0 and stores the mean where it is 3. At every point one of the three runs of the body applies; the
  invariant hands over the running sum at what the point before left and takes it back at this point's.
-/
import proofs.«167862_j23304492548723_1_alg».proof.Proof.TileBodyBits
import proofs.«167862_j23304492548723_1_alg».proof.Proof.TileDataBits

set_option maxRecDepth 16384

noncomputable section

namespace Cert.Kernel.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The branches over the grid -/

/-- A point is at its row's first tile exactly when its number is a multiple of 4. -/
theorem hFirst : ∀ t : Fin cfg0.N, atFirst (grid0.coords t) ↔ t.val % 4 = 0 :=
  (by decide +kernel : ∀ t : Fin grid0.N, atFirst (grid0.coords t) ↔ t.val % 4 = 0)
/-- A point is at its row's last tile exactly when its number is 3 more than a multiple of 4. -/
theorem hLast : ∀ t : Fin cfg0.N, atLast (grid0.coords t) ↔ t.val % 4 = 3 :=
  (by decide +kernel : ∀ t : Fin grid0.N, atLast (grid0.coords t) ↔ t.val % 4 = 3)

section AtEntry

-- the core's buffer contents when the region is entered
variable (V : (c : Dev nD) → (b : Ref sig .tc) → Buf (Elt F) ((c : Thread nD τ).loc b))

/-! ## The body obligation -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d))
    ∗ (∃ d, owns (c : Thread nD τ) (st0_8 t) fullShare ((dat V c).before 8 t d))
    ∗ (∃ d, owns (c : Thread nD τ) (st0_9 t) fullShare ((dat V c).before 9 t d))
    ∗ (∃ d, owns (c : Thread nD τ) (st0_10 t) fullShare ((dat V c).before 10 t d))
    ∗ (∃ d, owns (c : Thread nD τ) (st0_11 t) fullShare ((dat V c).before 11 t d))
    ∗ (∃ d, owns (c : Thread nD τ) (st0_12 t) fullShare ((dat V c).before 12 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t
    ∗ (dat V c).leavesExact 10 t
    ∗ (dat V c).leavesExact 11 t
    ∗ (dat V c).leavesExact 12 t)

set_option maxHeartbeats 8000000 in
/-- The body at any point: the inputs' buffers hold their blocks; the remainder of the point's number modulo 4 says
    which of the three runs applies; the invariant hands over the running sum at what the point before left (at anything
    at the very first point, and at a later row's first tile, where it is cleared) and takes it back at this point's. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5, before_6, before_7, before_8, before_9, before_10]
  rw [show (dat V c).owesAt () t.succ = (dat V c).owesAt () t.castSucc from rfl]
  rw [show (dat V c).Φ t.succ = PhiT V c (t.val + 1) t.isLt from rfl, PhiT_succ]
  rw [leaves_0, leaves_1, leaves_2, leaves_3, leaves_4, leaves_5, leaves_6, leaves_7, leaves_8, leaves_9, leaves_10, leaves_11,
    after_0, after_1, after_2, after_3, after_4, after_5, after_6, after_7, after_8, after_9, after_10, after_11]
  have hN : t.val < 16 := lt_of_lt_of_eq t.isLt N_0
  by_cases h0 : t.val % 4 = 0
  · have hF : atFirst (grid0.coords t) := (hFirst t).mpr h0
    have h3 : ¬t.val % 4 = 3 := by omega
    have hL : ¬atLast (grid0.coords t) := fun h => h3 ((hLast t).mp h)
    rw [Dat.leavesExact_idle (dat V c) 12 t (idle_12 t h3) (noflush_12 t h3), sumAt_first V c t h0]
    by_cases hz : t.val = 0
    ·
      rw [PhiT_castSucc V c t, PhiT_zero V c _ _ hz, PhiA0_eq]
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (run_first c Set.univ (grid0.coords t) _ _ _ _ _ _ _ _ _ _ _ _ _ _ _ _ _ _ _ _ _ _ _ _ _ _ _ _ hF hL (b0 V c t) (b1 V c t) (b2 V c t) (b3 V c t) (b4 V c t) (b5 V c t) (b6 V c t) (b7 V c t) (b8 V c t) (b9 V c t) (b10 V c t) ((dat V c).before 12 t d12) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexact H12
      isplitl [HS]; · iexact HS
      iintro ⟨H0, H1, H2, H3, H4, H5, H6, H7, H8, H9, H10, H11, H12, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexists _; iexact H12
    ·
      rw [PhiT_castSucc V c t, PhiT_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (run_first c Set.univ (grid0.coords t) _ _ _ _ _ _ _ _ _ _ _ _ _ _ _ _ _ _ _ _ _ _ _ _ _ _ _ _ hF hL (b0 V c t) (b1 V c t) (b2 V c t) (b3 V c t) (b4 V c t) (b5 V c t) (b6 V c t) (b7 V c t) (b8 V c t) (b9 V c t) (b10 V c t) ((dat V c).before 12 t d12) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexact H12
      isplitl [HS]; · iexists _; iexact HS
      iintro ⟨H0, H1, H2, H3, H4, H5, H6, H7, H8, H9, H10, H11, H12, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexists _; iexact H12
  · have hF : ¬atFirst (grid0.coords t) := fun h => h0 ((hFirst t).mp h)
    have hz : t.val ≠ 0 := fun h => h0 (by rw [h])
    rw [sumAt_later V c t h0]
    by_cases h3 : t.val % 4 = 3
    · have hL : atLast (grid0.coords t) := (hLast t).mpr h3
      rw [show (dat V c).leavesExact 12 t = owns (c : Thread nD τ) (st0_12 t) fullShare ((dat V c).after 12 t) from by
        unfold Dat.leavesExact; rw [live_12 t h3], after_12, sumAt_later V c t h0]
      rw [PhiT_castSucc V c t, PhiT_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (run_last c Set.univ (grid0.coords t) _ _ _ _ _ _ _ _ _ _ _ _ _ _ _ _ _ _ _ _ _ _ _ _ _ _ _ _ hF hL (b0 V c t) (b1 V c t) (b2 V c t) (b3 V c t) (b4 V c t) (b5 V c t) (b6 V c t) (b7 V c t) (b8 V c t) (b9 V c t) (b10 V c t) (sumAt V c (t.val - 1) (by omega)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      isplitl [HS]; · iexact HS
      iintro ⟨H0, H1, H2, H3, H4, H5, H6, H7, H8, H9, H10, H11, H12, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    · have hL : ¬atLast (grid0.coords t) := fun h => h3 ((hLast t).mp h)
      rw [Dat.leavesExact_idle (dat V c) 12 t (idle_12 t h3) (noflush_12 t h3)]
      rw [PhiT_castSucc V c t, PhiT_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (run_mid c Set.univ (grid0.coords t) _ _ _ _ _ _ _ _ _ _ _ _ _ _ _ _ _ _ _ _ _ _ _ _ _ _ _ _ hF hL (b0 V c t) (b1 V c t) (b2 V c t) (b3 V c t) (b4 V c t) (b5 V c t) (b6 V c t) (b7 V c t) (b8 V c t) (b9 V c t) (b10 V c t) ((dat V c).before 12 t d12) (sumAt V c (t.val - 1) (by omega)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexact H12
      isplitl [HS]; · iexact HS
      iintro ⟨H0, H1, H2, H3, H4, H5, H6, H7, H8, H9, H10, H11, H12, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexists _; iexact H12

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiT V c 0 (Nat.zero_le _) from rfl, PhiT_zero V c 0 _ rfl]
  try exact Idealize.SL.BI.Entails.refl _

/-- After the last point the invariant gives the class invariant back: what the running sum holds is forgotten. -/
theorem hout (c : Dev nD) : (dat V c).Φ (Fin.last cfg0.N) ⊢ Pipeline.ΦA spec0 c := by
  rw [show (dat V c).Φ (Fin.last cfg0.N) = PhiT V c (Fin.last cfg0.N).val (Nat.le_of_lt_succ (Fin.last cfg0.N).isLt) from rfl,
    PhiT_pos V c _ _ (by rw [Fin.val_last]; have : cfg0.N = 16 := N_0; omega), PhiA0_eq]
  iintro ⟨⟨HS, Hoth⟩, Hg⟩
  isplitl [HS Hoth]
  · isplitl [HS]
    · iexists _; iexact HS
    iexact Hoth
  iexact Hg

end AtEntry

end Cert.Kernel.Tile

end
-- ==== Proof.DenseFrameBits.lean ====
/-
  The second kernel's region: one grid point that loads the whole sample block, the whole new weight and the bias,
  and stores the product of the first with the transposed second plus the bias row.

  Stated at any contents `V` of the core's buffers when the region is entered: each window's block read off its
  array, what the body leaves in every staging buffer (the inputs as loaded, the output at the term of the loaded
  blocks), and that the body, run on those buffers, leaves exactly that.
-/
import proofs.«167862_j23304492548723_1_alg».proof.Proof.Gen.Kernel.Launch
import proofs.«167862_j23304492548723_1_alg».proof.Proof.Gen.Kernel.Skeleton
import proofs.«167862_j23304492548723_1_alg».proof.Proof.Gen.Kernel.Points
import proofs.«167862_j23304492548723_1_alg».proof.Proof.TermsBits
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Dense

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem hz1 : (![0] : Fin 1 → Nat) = fun _ => 0 := by funext a; fin_cases a; rfl
theorem hz2 : (![0, 0] : Fin 2 → Nat) = fun _ => 0 := by funext a; fin_cases a <;> rfl

/-! ## The body on whole staging buffers -/

set_option maxHeartbeats 1000000 in
/-- The body loads its three inputs and stores the one value: afterwards the inputs are as they were and the output
    buffer holds the term of what was loaded, whatever it held before. -/
theorem sound_kernel (c : Dev nD) (E : Set ℕ) (i : grid1.Coords)
    (arg1 : Memref sig .tc .vmem S16x512 .f32) (harg1 : arg1.IsWhole) (arg2 : Memref sig .tc .vmem S512x512 .f32) (harg2 : arg2.IsWhole)
    (arg3 : Memref sig .tc .vmem S512 .f32) (harg3 : arg3.IsWhole) (arg4 : Memref sig .tc .vmem S16x512 .f32) (harg4 : arg4.IsWhole)
    (x0 : Vec F S16x512 .f32) (x1 : Vec F S512x512 .f32) (x2 : Vec F S512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (Terms.denseT x0 x1 x2)) -∗ K ⟨⟩))
      ⊢ wp frame (wpE (defs₀ (F := F)) Variants.none c none) E (cc1__kernel2 i arg1 harg1 arg2 harg2 arg3 harg3 arg4 harg4) K := by
  simp only [cc1__kernel2_eq_skeleton]; unfold cc1__kernel2_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (View.cover_of_tiled _ S16x512.size (by rfl)), View.canon_unit_zero (S := S16x512) hz2]
  simp only [View.readAt_eq_ld, Rect.toLoadRect, View.ld_unit_zero (S := S16x512) hz2, View.ld_unit_zero (S := S512x512) hz2, View.ld_unit_zero (S := S512) hz1]
  rfl

section AtEntry

-- the core's buffer contents when the region is entered
variable (V : (c : Dev nD) → (b : Ref sig .tc) → Buf (Elt F) ((c : Thread nD τ).loc b))

/-- Window `w`'s block at the point, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The region's proof data: the arrays as found; after the body each input's buffer at its block and the output's at
    the body's value of the three blocks; the invariant the untouched rest of the core's scoped state; nothing owed. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => Terms.denseT (blk V c 0 t) (blk V c 1 t) (blk V c 2 t)
  Φ _ := Pipeline.ΦA spec1 c
  q _ := fullShare
  owed _ := 0

theorem A_eq (c : Dev nD) (w : Fin cfg1.W) : (dat V c).A w = V c (Pipeline.arrRef spec1 w) := by dsimp only [dat]
theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) :
    (dat V c).after 3 t = Terms.denseT (blk V c 0 t) (blk V c 1 t) (blk V c 2 t) := by dsimp only [dat]

/-- An input's staging buffer holds its block when the body starts, fetched at this point or not. -/
theorem before_0 (c : Dev nD) (t : Fin cfg1.N) (d) : (dat V c).before 0 t d = blk V c 0 t :=
  ((dat V c).before_in_eq_fetched 0 rfl (fun _ => rfl) (fun _ _ _ => rfl) (fun t => by rw [after_0]; unfold Dat.blockOf blk; rw [A_eq]; try rfl) t d).trans
    (by unfold Dat.fetched Dat.blockOf blk; rw [A_eq]; try rfl)
theorem before_1 (c : Dev nD) (t : Fin cfg1.N) (d) : (dat V c).before 1 t d = blk V c 1 t :=
  ((dat V c).before_in_eq_fetched 1 rfl (fun _ => rfl) (fun _ _ _ => rfl) (fun t => by rw [after_1]; unfold Dat.blockOf blk; rw [A_eq]; try rfl) t d).trans
    (by unfold Dat.fetched Dat.blockOf blk; rw [A_eq]; try rfl)
theorem before_2 (c : Dev nD) (t : Fin cfg1.N) (d) : (dat V c).before 2 t d = blk V c 2 t :=
  ((dat V c).before_in_eq_fetched 2 rfl (fun _ => rfl) (fun _ _ _ => rfl) (fun t => by rw [after_2]; unfold Dat.blockOf blk; rw [A_eq]; try rfl) t d).trans
    (by unfold Dat.fetched Dat.blockOf blk; rw [A_eq]; try rfl)

/-- What the body is called with at the point, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t))

theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at the region's one point. -/
theorem body_obligation (c : Dev nD) : BodyObligation (dat (F := F) V c) (defs₀ (F := F)) Variants.none () Set.univ := fun t => by
  rw [bigSep_W1, bigSep_W1]
  exact sound_body V c t

end AtEntry

end Cert.Kernel.Dense

end
-- ==== Proof.RunBits.lean ====
/-
  The whole program: the first kernel's region, then the second's.

  Between the items every unscoped buffer of a core is held whole at contents that are named here: as launched before the
  first region; after it, the two arrays it writes at what its write-backs leave (the new weight and the new hidden
  state) and every other buffer as it was; after the second region, the output array at what its one write-back leaves.
  The launch theorem for a list of regions then says that every weakly fair execution ends, and that in the end every
  unscoped buffer holds those last contents. Reading that at the arguments gives the frame; reading it at the two results
  gives their values in terms of the regions' proof data.
-/
import proofs.«167862_j23304492548723_1_alg».proof.Proof.TileFrameBits
import proofs.«167862_j23304492548723_1_alg».proof.Proof.DenseFrameBits
import Idealize.ShloMosaic.Lib.Pipeline.RegionsLoop
import Idealize.ShloMosaic.Lib.Pipeline.FrameSuffix

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the boundaries -/

/-- At launch, which is the first region's entry. -/
abbrev E0 : Dev nD → Valuation τ sig (Elt F) := fun c b => m ((c : Dev nD), b)
/-- The same read at the TensorCore's references. -/
abbrev V0 : (c : Dev nD) → (b : Ref sig .tc) → Buf (Elt F) ((c : Thread nD τ).loc b) := fun c b => E0 m c b

/-- After the first region: its arrays at what the pipeline leaves, every other buffer as before. -/
def E1 (c : Dev nD) : Valuation τ sig (Elt F) :=
  Pipeline.withArrays spec0 c (E0 m c) fun w => (Tile.dat (V0 m) c).arrAt w cfg0.N
theorem E1_arr (c : Dev nD) (w : Fin cfg0.W) :
    E1 m c (Proc.devRef .tc (Pipeline.arrRef spec0 w)) = (Tile.dat (V0 m) c).arrAt w cfg0.N := by
  unfold E1; exact Pipeline.withArrays_arr spec0 launch0.win.arr_inj c _ _ w
theorem E1_of_ne (c : Dev nD) (b : Ref sig .tc) (hb : ∀ w, Pipeline.arrRef spec0 w ≠ b) :
    E1 m c (Proc.devRef .tc b) = E0 m c (Proc.devRef .tc b) := by
  unfold E1; exact Pipeline.withArrays_of_ne spec0 c _ _ b hb
abbrev V1 : (c : Dev nD) → (b : Ref sig .tc) → Buf (Elt F) ((c : Thread nD τ).loc b) := fun c b => E1 m c b
theorem hF0 (c : Dev nD) (w : Fin cfg0.W) : (Tile.dat (V0 m) c).arrAt w cfg0.N = V1 m c (Pipeline.arrRef spec0 w) :=
  (E1_arr m c w).symm
theorem hrest0 (c : Dev nD) : ∀ b, b ∉ Finset.univ.image (Pipeline.arrRef spec0) → V1 m c b = V0 m c b :=
  fun b hb => E1_of_ne m c b fun w e => hb (Finset.mem_image.mpr ⟨w, Finset.mem_univ _, e⟩)

/-- After the second region: its arrays at what its pipeline leaves, every other buffer as before. -/
def E2 (c : Dev nD) : Valuation τ sig (Elt F) :=
  Pipeline.withArrays spec1 c (E1 m c) fun w => (Dense.dat (V1 m) c).arrAt w cfg1.N
theorem E2_arr (c : Dev nD) (w : Fin cfg1.W) :
    E2 m c (Proc.devRef .tc (Pipeline.arrRef spec1 w)) = (Dense.dat (V1 m) c).arrAt w cfg1.N := by
  unfold E2; exact Pipeline.withArrays_arr spec1 launch1.win.arr_inj c _ _ w
theorem E2_of_ne (c : Dev nD) (b : Ref sig .tc) (hb : ∀ w, Pipeline.arrRef spec1 w ≠ b) :
    E2 m c (Proc.devRef .tc b) = E1 m c (Proc.devRef .tc b) := by
  unfold E2; exact Pipeline.withArrays_of_ne spec1 c _ _ b hb
abbrev V2 : (c : Dev nD) → (b : Ref sig .tc) → Buf (Elt F) ((c : Thread nD τ).loc b) := fun c b => E2 m c b
theorem hF1 (c : Dev nD) (w : Fin cfg1.W) : (Dense.dat (V1 m) c).arrAt w cfg1.N = V2 m c (Pipeline.arrRef spec1 w) :=
  (E2_arr m c w).symm
theorem hrest1 (c : Dev nD) : ∀ b, b ∉ Finset.univ.image (Pipeline.arrRef spec1) → V2 m c b = V1 m c b :=
  fun b hb => E2_of_ne m c b fun w e => hb (Finset.mem_image.mpr ⟨w, Finset.mem_univ _, e⟩)

/-! ## No region writes an argument: a region reads it through an input window or passes it by -/

theorem E2_main_arg0 (c : Dev nD) : E2 m c (Proc.devRef .tc main_arg0) = m ((c : Thread nD τ).loc main_arg0) :=
  ((E2_arr m c 0).trans (((Dense.dat (V1 m) c).arrAt_in 0 rfl _).trans (Dense.A_eq (V1 m) c 0))).trans ((E1_of_ne m c main_arg0 (by decide)).trans rfl)
theorem E2_main_arg1 (c : Dev nD) : E2 m c (Proc.devRef .tc main_arg1) = m ((c : Thread nD τ).loc main_arg1) :=
  (E2_of_ne m c main_arg1 (by decide)).trans (((E1_arr m c 0).trans (((Tile.dat (V0 m) c).arrAt_in 0 rfl _).trans (Tile.A_eq (V0 m) c 0))).trans rfl)
theorem E2_main_arg2 (c : Dev nD) : E2 m c (Proc.devRef .tc main_arg2) = m ((c : Thread nD τ).loc main_arg2) :=
  (E2_of_ne m c main_arg2 (by decide)).trans (((E1_arr m c 1).trans (((Tile.dat (V0 m) c).arrAt_in 1 rfl _).trans (Tile.A_eq (V0 m) c 1))).trans rfl)
theorem E2_main_arg3 (c : Dev nD) : E2 m c (Proc.devRef .tc main_arg3) = m ((c : Thread nD τ).loc main_arg3) :=
  (E2_of_ne m c main_arg3 (by decide)).trans (((E1_arr m c 2).trans (((Tile.dat (V0 m) c).arrAt_in 2 rfl _).trans (Tile.A_eq (V0 m) c 2))).trans rfl)
theorem E2_main_arg4 (c : Dev nD) : E2 m c (Proc.devRef .tc main_arg4) = m ((c : Thread nD τ).loc main_arg4) :=
  (E2_of_ne m c main_arg4 (by decide)).trans (((E1_arr m c 6).trans (((Tile.dat (V0 m) c).arrAt_in 6 rfl _).trans (Tile.A_eq (V0 m) c 6))).trans rfl)
theorem E2_main_arg5 (c : Dev nD) : E2 m c (Proc.devRef .tc main_arg5) = m ((c : Thread nD τ).loc main_arg5) :=
  (E2_of_ne m c main_arg5 (by decide)).trans (((E1_arr m c 3).trans (((Tile.dat (V0 m) c).arrAt_in 3 rfl _).trans (Tile.A_eq (V0 m) c 3))).trans rfl)
theorem E2_main_arg6 (c : Dev nD) : E2 m c (Proc.devRef .tc main_arg6) = m ((c : Thread nD τ).loc main_arg6) :=
  (E2_of_ne m c main_arg6 (by decide)).trans (((E1_arr m c 5).trans (((Tile.dat (V0 m) c).arrAt_in 5 rfl _).trans (Tile.A_eq (V0 m) c 5))).trans rfl)
theorem E2_main_arg7 (c : Dev nD) : E2 m c (Proc.devRef .tc main_arg7) = m ((c : Thread nD τ).loc main_arg7) :=
  (E2_of_ne m c main_arg7 (by decide)).trans (((E1_arr m c 4).trans (((Tile.dat (V0 m) c).arrAt_in 4 rfl _).trans (Tile.A_eq (V0 m) c 4))).trans rfl)
theorem E2_main_arg8 (c : Dev nD) : E2 m c (Proc.devRef .tc main_arg8) = m ((c : Thread nD τ).loc main_arg8) :=
  ((E2_arr m c 2).trans (((Dense.dat (V1 m) c).arrAt_in 2 rfl _).trans (Dense.A_eq (V1 m) c 2))).trans ((E1_of_ne m c main_arg8 (by decide)).trans rfl)
theorem E2_main_arg9 (c : Dev nD) : E2 m c (Proc.devRef .tc main_arg9) = m ((c : Thread nD τ).loc main_arg9) :=
  (E2_of_ne m c main_arg9 (by decide)).trans (((E1_arr m c 7).trans (((Tile.dat (V0 m) c).arrAt_in 7 rfl _).trans (Tile.A_eq (V0 m) c 7))).trans rfl)
theorem E2_main_arg10 (c : Dev nD) : E2 m c (Proc.devRef .tc main_arg10) = m ((c : Thread nD τ).loc main_arg10) :=
  (E2_of_ne m c main_arg10 (by decide)).trans (((E1_arr m c 8).trans (((Tile.dat (V0 m) c).arrAt_in 8 rfl _).trans (Tile.A_eq (V0 m) c 8))).trans rfl)
theorem E2_main_arg11 (c : Dev nD) : E2 m c (Proc.devRef .tc main_arg11) = m ((c : Thread nD τ).loc main_arg11) :=
  (E2_of_ne m c main_arg11 (by decide)).trans (((E1_arr m c 9).trans (((Tile.dat (V0 m) c).arrAt_in 9 rfl _).trans (Tile.A_eq (V0 m) c 9))).trans rfl)
theorem E2_main_arg12 (c : Dev nD) : E2 m c (Proc.devRef .tc main_arg12) = m ((c : Thread nD τ).loc main_arg12) :=
  (E2_of_ne m c main_arg12 (by decide)).trans (((E1_arr m c 10).trans (((Tile.dat (V0 m) c).arrAt_in 10 rfl _).trans (Tile.A_eq (V0 m) c 10))).trans rfl)

/-- The output array in the end: what the second region's write-back leaves. -/
theorem E2_main_v1 (c : Dev nD) : E2 m c (Proc.devRef .tc main_v1) = (Dense.dat (V1 m) c).arrAt 3 cfg1.N := E2_arr m c 3
/-- The hidden-state array in the end: what the first region's write-backs leave (the second region passes it by). -/
theorem E2_main_v0_1 (c : Dev nD) : E2 m c (Proc.devRef .tc main_v0_1) = (Tile.dat (V0 m) c).arrAt 12 cfg0.N :=
  (E2_of_ne m c main_v0_1 (by decide)).trans (E1_arr m c 12)
/-- The new weight as the second region finds it: what the first region's write-backs leave. -/
theorem V1_main_v0_0 (c : Dev nD) : V1 m c main_v0_0 = (Tile.dat (V0 m) c).arrAt 11 cfg0.N := E1_arr m c 11
/-- The sample block and the bias as the second region finds them: as launched. -/
theorem V1_main_arg0 (c : Dev nD) : V1 m c main_arg0 = m ((c : Thread nD τ).loc main_arg0) := E1_of_ne m c main_arg0 (by decide)
theorem V1_main_arg8 (c : Dev nD) : V1 m c main_arg8 = m ((c : Thread nD τ).loc main_arg8) := E1_of_ne m c main_arg8 (by decide)

/-! ## The proof data of both pipelines, and the thread state -/

/-- No pipeline has a prefetched table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => Tile.dat (V0 m) c
  | ⟨1, _⟩ => fun c => Dense.dat (V1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (E2 m c) ∗ ∃ r, prngReg c r)

/-! ## The regions as segments -/

set_option backward.isDefEq.respectTransparency.types false in
/-- The first region: entered with every unscoped buffer as launched, left with them at `E1`. Its arrays are split out of
    the unscoped buffers and put back at the exit contents; the generator register goes into the invariant and comes back;
    the running sum's contents are forgotten at the exit. -/
def regTile : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Tile.body_obligation (V0 m) c).loose
  hwaits := Pipeline.hwaits_of_owed_zero _ _ _ _ L lv 0 fun _ _ => rfl
  pre c := iprop(StableHlo.held (c : Thread nD τ) (Pipeline.ucRefs τ sig) (E0 m c) ∗ R c)
  post c := iprop(StableHlo.held (c : Thread nD τ) (Pipeline.ucRefs τ sig) (E1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec0 c).trans (show Pipeline.ΦA spec0 c ⊢ (pdats m 0 c).Φ 0 from Tile.hin (V0 m) c)
    unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from Tile.hout (V0 m) c).trans (?_ : Pipeline.ΦA spec0 c ⊢ _)
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered with every unscoped buffer at `E1`, left with them at `E2`. -/
def regDense : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Dense.body_obligation (V1 m) c).loose
  hwaits := Pipeline.hwaits_of_owed_zero _ _ _ _ L lv 1 fun _ _ => rfl
  pre c := iprop(StableHlo.held (c : Thread nD τ) (Pipeline.ucRefs τ sig) (E1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The launch -/

/-- The program's two items in order. -/
abbrev segs : List (Pipeline.Seg (pcfgs (F := F)) adm (pdats m) () defs₀ 𝒱₀ L lv) :=
  [ .region (regTile m), .region (regDense m) ]
/-- The program is the run of its items. -/
theorem main_run (c : Dev nD) : main (F := F) c = Pipeline.Seg.run (segs m) := (main_chain c).trans (by chain_rfl)

set_option backward.isDefEq.respectTransparency.types false in
/-- From any memory with zero counters every weakly fair execution of the program terminates, nothing faulting, and in
    the end every unscoped buffer of every core holds the contents `E2`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = E2 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (E0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (E0 m c)
        from Pipeline.unscopedBufs_held c (E0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = E2 m c b)
    (hfin := fun c s' => by
      iintro ⟨⟨Hh, -⟩, HSI⟩
      unfold StableHlo.held
      imodintro
      iapply (pointsTo_read_all (Pipeline.ucRefs τ sig) (fun b => (((c : Thread nD τ)).1, b)) (E2 m c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (E2_main_arg0 m c),
      (h c _ (mem_uc main_arg1 (by decide))).trans (E2_main_arg1 m c),
      (h c _ (mem_uc main_arg2 (by decide))).trans (E2_main_arg2 m c),
      (h c _ (mem_uc main_arg3 (by decide))).trans (E2_main_arg3 m c),
      (h c _ (mem_uc main_arg4 (by decide))).trans (E2_main_arg4 m c),
      (h c _ (mem_uc main_arg5 (by decide))).trans (E2_main_arg5 m c),
      (h c _ (mem_uc main_arg6 (by decide))).trans (E2_main_arg6 m c),
      (h c _ (mem_uc main_arg7 (by decide))).trans (E2_main_arg7 m c),
      (h c _ (mem_uc main_arg8 (by decide))).trans (E2_main_arg8 m c),
      (h c _ (mem_uc main_arg9 (by decide))).trans (E2_main_arg9 m c),
      (h c _ (mem_uc main_arg10 (by decide))).trans (E2_main_arg10 m c),
      (h c _ (mem_uc main_arg11 (by decide))).trans (E2_main_arg11 m c),
      (h c _ (mem_uc main_arg12 (by decide))).trans (E2_main_arg12 m c)⟩) (run_all m ρ)

/-- The two results in the end, with the arguments: the output array at what the second region's write-back leaves, the
    hidden-state array at what the first region's write-backs leave. -/
theorem run_results : θ_run defs (onTc (τ := τ) (main (F := F))) ⟨m, fun _ => 0, ρ⟩ (fun r => ∀ c : Dev nD,
      r.2.mem ((c.tc : Thread nD τ).loc main_v1) = (Dense.dat (V1 m) c).arrAt 3 cfg1.N
      ∧ r.2.mem ((c.tc : Thread nD τ).loc main_v0_1) = (Tile.dat (V0 m) c).arrAt 12 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_v1 (by decide))).trans (E2_main_v1 m c),
      (h c _ (mem_uc main_v0_1 (by decide))).trans (E2_main_v0_1 m c),
      (h c _ (mem_uc main_arg0 (by decide))).trans (E2_main_arg0 m c),
      (h c _ (mem_uc main_arg1 (by decide))).trans (E2_main_arg1 m c),
      (h c _ (mem_uc main_arg2 (by decide))).trans (E2_main_arg2 m c),
      (h c _ (mem_uc main_arg3 (by decide))).trans (E2_main_arg3 m c),
      (h c _ (mem_uc main_arg4 (by decide))).trans (E2_main_arg4 m c),
      (h c _ (mem_uc main_arg5 (by decide))).trans (E2_main_arg5 m c),
      (h c _ (mem_uc main_arg6 (by decide))).trans (E2_main_arg6 m c),
      (h c _ (mem_uc main_arg7 (by decide))).trans (E2_main_arg7 m c),
      (h c _ (mem_uc main_arg8 (by decide))).trans (E2_main_arg8 m c),
      (h c _ (mem_uc main_arg9 (by decide))).trans (E2_main_arg9 m c),
      (h c _ (mem_uc main_arg10 (by decide))).trans (E2_main_arg10 m c),
      (h c _ (mem_uc main_arg11 (by decide))).trans (E2_main_arg11 m c),
      (h c _ (mem_uc main_arg12 (by decide))).trans (E2_main_arg12 m c)⟩) (run_all m ρ)

end Cert.Kernel.Run

end
-- ==== Proof.TermsIdeal.lean ====
/-
  What one grid point of the first kernel computes, as terms over the blocks it loads.

  The kernel's body is printed in four parts that hand named intermediate values to one another. Threading those
  values through gives, for the eleven loaded blocks of a point — four (sample, output) signals, the weight tile, the
  hidden-state and previous-input blocks, and the small network's two layers —:
  * `updT`: the network's six outputs at every (sample, output, input) of the tile;
  * `weightT`: the tile of the new weight (the old tile plus the sample mean of the sixth output);
  * `carryT prev`: the running sum over inputs of the first five outputs, continued from `prev`;
  * `clearedT`: the zeros that running sum starts from at the first tile of a row of tiles;
  * `meanT s`: the running sum `s` divided by the number of inputs, stored once a row of tiles is complete.
-/
import proofs.«167862_j23304492548723_1_alg».proof.Proof.Gen.KernelIdeal.Skeleton

noncomputable section

namespace Cert.KernelIdeal.Terms

open Idealize.ShloMosaic Idealize.SL.Sem Cert.KernelIdeal Cert.KernelIdeal.Gen

variable {F : FTy → Type} [FloatOps F]

variable (v3 v4 v5 v6 : Vec F S16x128 .f32) (v7 : Vec F S128x128 .f32) (v8 : Vec F S16x128x5 .f32) (v9 : Vec F S16x128 .f32)
  (v10 : Vec F S32x11 .f32) (v11 : Vec F S32 .f32) (v12 : Vec F S6x32 .f32) (v13 : Vec F S6 .f32)

/-- The accumulator after the first group of eight hidden units. -/
def acc1 : FVec F S16x128x128x6 .f32 :=
  k0_pay14 v7 v12 (k0_pay7 v3 v4 v5 v6) (k0_pay8 v8 v9) (k0_pay9 (F := F)) (k0_pay10 v10) (k0_pay11 v10) (k0_pay12 v10) (k0_pay13 v11)

/-- The accumulator after the third group. -/
def acc3 : FVec F S16x128x128x6 .f32 :=
  k0_pay20 v7 v11 v12 (k0_pay4 v10) (k0_pay5 v10) (k0_pay6 v10) (k0_pay7 v3 v4 v5 v6) (k0_pay8 v8 v9)
    (acc1 v3 v4 v5 v6 v7 v8 v9 v10 v11 v12) (k0_pay15 v11) (k0_pay16 v12) (k0_pay17 (k0_pay6 v10) (k0_pay8 v8 v9))
    (k0_pay18 (k0_pay4 v10) (k0_pay7 v3 v4 v5 v6)) (k0_pay19 v7 (k0_pay5 v10))

/-- The network's six outputs over the tile: the fourth group added, then the second layer's bias. -/
def updT : FVec F S16x128x128x6 .f32 :=
  k0_pay27 v7 v13 (k0_pay8 v8 v9) (acc3 v3 v4 v5 v6 v7 v8 v9 v10 v11 v12) (k0_pay21 (k0_pay5 v10)) (k0_pay22 (k0_pay6 v10))
    (k0_pay23 v11) (k0_pay24 v12) (k0_pay25 (k0_pay7 v3 v4 v5 v6)) (k0_pay26 (k0_pay4 v10))

/-- The new weight's tile. -/
def weightT : FVec F S128x128 .f32 :=
  k0_pay28 v7 v13 (k0_pay8 v8 v9) (acc3 v3 v4 v5 v6 v7 v8 v9 v10 v11 v12) (k0_pay21 (k0_pay5 v10)) (k0_pay22 (k0_pay6 v10))
    (k0_pay23 v11) (k0_pay24 v12) (k0_pay25 (k0_pay7 v3 v4 v5 v6)) (k0_pay26 (k0_pay4 v10))

/-- The running sum over inputs of the first five outputs, continued from `prev`. -/
def carryT (prev : Vec F S16x128x5 .f32) : FVec F S16x128x5 .f32 :=
  k0_pay1 (k0_pay29 v7 v13 (k0_pay8 v8 v9) (acc3 v3 v4 v5 v6 v7 v8 v9 v10 v11 v12) (k0_pay21 (k0_pay5 v10)) (k0_pay22 (k0_pay6 v10))
    (k0_pay23 v11) (k0_pay24 v12) (k0_pay25 (k0_pay7 v3 v4 v5 v6)) (k0_pay26 (k0_pay4 v10)) prev)

/-- The zeros the running sum starts from. -/
def clearedT : FVec F S16x128x5 .f32 := k0_pay3 (F := F)

/-- A completed running sum divided by the number of inputs. -/
def meanT (s : Vec F S16x128x5 .f32) : FVec F S16x128x5 .f32 := k0_pay2 s

/-- The second kernel's one value: the sample block times the transposed new weight, plus the bias row. -/
def denseT (x : Vec F S16x512 .f32) (w : Vec F S512x512 .f32) (b : Vec F S512 .f32) : FVec F S16x512 .f32 := k1_pay1 x w b

end Cert.KernelIdeal.Terms

end
-- ==== Proof.TileBodyIdeal.lean ====
/-
  One grid point of the first kernel, run on whole staging buffers.

  The body clears its running sum at the first input tile of a row, loads its eleven blocks, stores the new weight's
  tile, adds the tile's sums to the running sum, and at the last input tile of the row stores the mean. Three runs
  cover the grid: at a row's first tile, at a middle tile, and at its last tile. Each says what every buffer holds
  afterwards, as the terms of the blocks loaded: the inputs as they were, the weight tile, the running sum continued
  from what it held (from zero at a first tile), the hidden-state block either untouched or at the mean.
-/
import proofs.«167862_j23304492548723_1_alg».proof.Proof.Gen.KernelIdeal.Launch
import proofs.«167862_j23304492548723_1_alg».proof.Proof.Gen.KernelIdeal.Skeleton
import proofs.«167862_j23304492548723_1_alg».proof.Proof.Gen.KernelIdeal.Points
import proofs.«167862_j23304492548723_1_alg».proof.Proof.TermsIdeal
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- A list of stores whose last (head) one goes through the whole rectangle at zero offsets covers the shape. -/
theorem cover_head {S : Shape} {e : EltTy} {Val : EltTy → Type} {off : Fin S.rank → Nat} (h : off = fun _ => 0)
    (inb : ∀ a, off a + S.size a ≤ S.size a) (w : S.Idx → Val e) (L : List (View.Piece Val S e)) :
    ∀ y : S.Idx, ∃ p ∈ ((⟨Rect.unit off S.size inb, w⟩ : View.Piece Val S e) :: L), y ∈ p.1.set :=
  fun y => ⟨_, List.mem_cons_self, View.mem_set_unit_zero h inb y⟩

/-- Zero offsets, however many axes. -/
theorem hz1 : (![0] : Fin 1 → Nat) = fun _ => 0 := by funext a; fin_cases a; rfl
theorem hz2 : (![0, 0] : Fin 2 → Nat) = fun _ => 0 := by funext a; fin_cases a <;> rfl
theorem hz3 : (![0, 0, 0] : Fin 3 → Nat) = fun _ => 0 := by funext a; fin_cases a <;> rfl

/-- The body's first branch: the point is at the first input tile of its row (its second coordinate is 0). -/
abbrev atFirst (i : grid0.Coords) : Prop :=
  (Scalar.cmpi .ne (Scalar.extui (Scalar.cmpi .eq (BitVec.ofNat 32 (i 1).val) 0#32)) 0#32) = 1#1
/-- The body's second branch: the point is at the last input tile of its row (its second coordinate is 3). -/
abbrev atLast (i : grid0.Coords) : Prop := k0_cond2 i = 1#1

set_option maxHeartbeats 4000000 in
/-- At a row's FIRST tile: the running sum is cleared, then holds the tile's sums from zero; the hidden-state block is not touched. -/
theorem run_first (c : Dev nD) (E : Set ℕ) (i : grid0.Coords) (arg2 : Memref sig .tc .vmem S16x128 .f32) (harg2 : arg2.IsWhole) (arg3 : Memref sig .tc .vmem S16x128 .f32) (harg3 : arg3.IsWhole) (arg4 : Memref sig .tc .vmem S16x128 .f32) (harg4 : arg4.IsWhole) (arg5 : Memref sig .tc .vmem S16x128 .f32) (harg5 : arg5.IsWhole) (arg6 : Memref sig .tc .vmem S128x128 .f32) (harg6 : arg6.IsWhole) (arg7 : Memref sig .tc .vmem S16x128x5 .f32) (harg7 : arg7.IsWhole) (arg8 : Memref sig .tc .vmem S16x128 .f32) (harg8 : arg8.IsWhole) (arg9 : Memref sig .tc .vmem S32x11 .f32) (harg9 : arg9.IsWhole) (arg10 : Memref sig .tc .vmem S32 .f32) (harg10 : arg10.IsWhole) (arg11 : Memref sig .tc .vmem S6x32 .f32) (harg11 : arg11.IsWhole) (arg12 : Memref sig .tc .vmem S6 .f32) (harg12 : arg12.IsWhole) (arg13 : Memref sig .tc .vmem S128x128 .f32) (harg13 : arg13.IsWhole) (arg14 : Memref sig .tc .vmem S16x128x5 .f32) (harg14 : arg14.IsWhole) (arg15 : Memref sig .tc .vmem S16x128x5 .f32) (harg15 : arg15.IsWhole)
    (hF : atFirst i) (hL : ¬atLast i) (x3 x4 x5 x6 : Vec F S16x128 .f32) (x7 : Vec F S128x128 .f32) (x8 : Vec F S16x128x5 .f32) (x9 : Vec F S16x128 .f32) (x10 : Vec F S32x11 .f32) (x11 : Vec F S32 .f32) (x12 : Vec F S6x32 .f32) (x13 : Vec F S6 .f32) (keep : Vec F S16x128x5 .f32) (K : PUnit → sProp 𝕄) :
    iprop(owns (c : Thread nD τ) arg2 fullShare x3 ∗ owns (c : Thread nD τ) arg3 fullShare x4 ∗ owns (c : Thread nD τ) arg4 fullShare x5 ∗ owns (c : Thread nD τ) arg5 fullShare x6 ∗ owns (c : Thread nD τ) arg6 fullShare x7 ∗ owns (c : Thread nD τ) arg7 fullShare x8 ∗ owns (c : Thread nD τ) arg8 fullShare x9 ∗ owns (c : Thread nD τ) arg9 fullShare x10 ∗ owns (c : Thread nD τ) arg10 fullShare x11 ∗ owns (c : Thread nD τ) arg11 fullShare x12 ∗ owns (c : Thread nD τ) arg12 fullShare x13
        ∗ (∃ d, owns (c : Thread nD τ) arg13 fullShare d) ∗ owns (c : Thread nD τ) arg14 fullShare keep ∗ (∃ d, owns (c : Thread nD τ) arg15 fullShare d)
        ∗ (iprop(owns (c : Thread nD τ) arg2 fullShare x3 ∗ owns (c : Thread nD τ) arg3 fullShare x4 ∗ owns (c : Thread nD τ) arg4 fullShare x5 ∗ owns (c : Thread nD τ) arg5 fullShare x6 ∗ owns (c : Thread nD τ) arg6 fullShare x7 ∗ owns (c : Thread nD τ) arg7 fullShare x8 ∗ owns (c : Thread nD τ) arg8 fullShare x9 ∗ owns (c : Thread nD τ) arg9 fullShare x10 ∗ owns (c : Thread nD τ) arg10 fullShare x11 ∗ owns (c : Thread nD τ) arg11 fullShare x12 ∗ owns (c : Thread nD τ) arg12 fullShare x13
            ∗ owns (c : Thread nD τ) arg13 fullShare (Terms.weightT x3 x4 x5 x6 x7 x8 x9 x10 x11 x12 x13) ∗ owns (c : Thread nD τ) arg14 fullShare keep ∗ owns (c : Thread nD τ) arg15 fullShare (Terms.carryT x3 x4 x5 x6 x7 x8 x9 x10 x11 x12 x13 (Terms.clearedT (F := F)))) -∗ K ⟨⟩))
      ⊢ wp frame (wpE (defs₀ (F := F)) Variants.none c none) E (cc0__kernel1 i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__kernel1_eq_skeleton]; unfold cc0__kernel1_skel
  unfold owns
  iintro ⟨⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%do13, %fo13, -, Ho13⟩, ⟨%fo14, %ho14, Ho14⟩, ⟨%ds15, %fs15, -, Hs15⟩, Hk⟩
  subst h3; subst h4; subst h5; subst h6; subst h7; subst h8; subst h9; subst h10; subst h11; subst h12; subst h13; subst ho14
  sl_exec (disch := first | exact hF | exact hL)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [Ho13]
  · iexists _; isplitr
    swap; · iexact Ho13
    ipureintro
    (try sl_unfold_words)
    rw [View.read_writes_eq_canon _ _ _ (cover_head hz2 _ _ _), View.canon_cons_unit_zero (S := S128x128) hz2]
    simp only [View.readAt_eq_ld, View.ld_unit_zero (S := S16x128) hz2, View.ld_unit_zero (S := S128x128) hz2, View.ld_unit_zero (S := S16x128x5) hz3, View.ld_unit_zero (S := S32x11) hz2, View.ld_unit_zero (S := S32) hz1, View.ld_unit_zero (S := S6x32) hz2, View.ld_unit_zero (S := S6) hz1, View.readCov_unit_zero (S := S16x128x5) _ hz3]
    rfl
  isplitl [Ho14]
  · iexists fo14; isplitr; · ipureintro; rfl
    iexact Ho14
  iexists _; isplitr
  swap; · iexact Hs15
  ipureintro
  (try sl_unfold_words)
  rw [View.read_writes_eq_canon _ _ _ (cover_head hz3 _ _ _), View.canon_cons_unit_zero (S := S16x128x5) hz3]
  simp only [View.readAt_eq_ld, View.ld_unit_zero (S := S16x128) hz2, View.ld_unit_zero (S := S128x128) hz2, View.ld_unit_zero (S := S16x128x5) hz3, View.ld_unit_zero (S := S32x11) hz2, View.ld_unit_zero (S := S32) hz1, View.ld_unit_zero (S := S6x32) hz2, View.ld_unit_zero (S := S6) hz1, View.readCov_unit_zero (S := S16x128x5) _ hz3]
  rfl

set_option maxHeartbeats 4000000 in
/-- At a MIDDLE tile: the running sum is continued from what it held; the hidden-state block is not touched. -/
theorem run_mid (c : Dev nD) (E : Set ℕ) (i : grid0.Coords) (arg2 : Memref sig .tc .vmem S16x128 .f32) (harg2 : arg2.IsWhole) (arg3 : Memref sig .tc .vmem S16x128 .f32) (harg3 : arg3.IsWhole) (arg4 : Memref sig .tc .vmem S16x128 .f32) (harg4 : arg4.IsWhole) (arg5 : Memref sig .tc .vmem S16x128 .f32) (harg5 : arg5.IsWhole) (arg6 : Memref sig .tc .vmem S128x128 .f32) (harg6 : arg6.IsWhole) (arg7 : Memref sig .tc .vmem S16x128x5 .f32) (harg7 : arg7.IsWhole) (arg8 : Memref sig .tc .vmem S16x128 .f32) (harg8 : arg8.IsWhole) (arg9 : Memref sig .tc .vmem S32x11 .f32) (harg9 : arg9.IsWhole) (arg10 : Memref sig .tc .vmem S32 .f32) (harg10 : arg10.IsWhole) (arg11 : Memref sig .tc .vmem S6x32 .f32) (harg11 : arg11.IsWhole) (arg12 : Memref sig .tc .vmem S6 .f32) (harg12 : arg12.IsWhole) (arg13 : Memref sig .tc .vmem S128x128 .f32) (harg13 : arg13.IsWhole) (arg14 : Memref sig .tc .vmem S16x128x5 .f32) (harg14 : arg14.IsWhole) (arg15 : Memref sig .tc .vmem S16x128x5 .f32) (harg15 : arg15.IsWhole)
    (hF : ¬atFirst i) (hL : ¬atLast i) (x3 x4 x5 x6 : Vec F S16x128 .f32) (x7 : Vec F S128x128 .f32) (x8 : Vec F S16x128x5 .f32) (x9 : Vec F S16x128 .f32) (x10 : Vec F S32x11 .f32) (x11 : Vec F S32 .f32) (x12 : Vec F S6x32 .f32) (x13 : Vec F S6 .f32) (keep prev : Vec F S16x128x5 .f32) (K : PUnit → sProp 𝕄) :
    iprop(owns (c : Thread nD τ) arg2 fullShare x3 ∗ owns (c : Thread nD τ) arg3 fullShare x4 ∗ owns (c : Thread nD τ) arg4 fullShare x5 ∗ owns (c : Thread nD τ) arg5 fullShare x6 ∗ owns (c : Thread nD τ) arg6 fullShare x7 ∗ owns (c : Thread nD τ) arg7 fullShare x8 ∗ owns (c : Thread nD τ) arg8 fullShare x9 ∗ owns (c : Thread nD τ) arg9 fullShare x10 ∗ owns (c : Thread nD τ) arg10 fullShare x11 ∗ owns (c : Thread nD τ) arg11 fullShare x12 ∗ owns (c : Thread nD τ) arg12 fullShare x13
        ∗ (∃ d, owns (c : Thread nD τ) arg13 fullShare d) ∗ owns (c : Thread nD τ) arg14 fullShare keep ∗ owns (c : Thread nD τ) arg15 fullShare prev
        ∗ (iprop(owns (c : Thread nD τ) arg2 fullShare x3 ∗ owns (c : Thread nD τ) arg3 fullShare x4 ∗ owns (c : Thread nD τ) arg4 fullShare x5 ∗ owns (c : Thread nD τ) arg5 fullShare x6 ∗ owns (c : Thread nD τ) arg6 fullShare x7 ∗ owns (c : Thread nD τ) arg7 fullShare x8 ∗ owns (c : Thread nD τ) arg8 fullShare x9 ∗ owns (c : Thread nD τ) arg9 fullShare x10 ∗ owns (c : Thread nD τ) arg10 fullShare x11 ∗ owns (c : Thread nD τ) arg11 fullShare x12 ∗ owns (c : Thread nD τ) arg12 fullShare x13
            ∗ owns (c : Thread nD τ) arg13 fullShare (Terms.weightT x3 x4 x5 x6 x7 x8 x9 x10 x11 x12 x13) ∗ owns (c : Thread nD τ) arg14 fullShare keep ∗ owns (c : Thread nD τ) arg15 fullShare (Terms.carryT x3 x4 x5 x6 x7 x8 x9 x10 x11 x12 x13 prev)) -∗ K ⟨⟩))
      ⊢ wp frame (wpE (defs₀ (F := F)) Variants.none c none) E (cc0__kernel1 i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__kernel1_eq_skeleton]; unfold cc0__kernel1_skel
  unfold owns
  iintro ⟨⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%do13, %fo13, -, Ho13⟩, ⟨%fo14, %ho14, Ho14⟩, ⟨%fs15, %hs15, Hs15⟩, Hk⟩
  subst h3; subst h4; subst h5; subst h6; subst h7; subst h8; subst h9; subst h10; subst h11; subst h12; subst h13; subst ho14; subst hs15
  sl_exec (disch := first | exact hF | exact hL)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [Ho13]
  · iexists _; isplitr
    swap; · iexact Ho13
    ipureintro
    (try sl_unfold_words)
    rw [View.read_writes_eq_canon _ _ _ (cover_head hz2 _ _ _), View.canon_cons_unit_zero (S := S128x128) hz2]
    simp only [View.readAt_eq_ld, View.ld_unit_zero (S := S16x128) hz2, View.ld_unit_zero (S := S128x128) hz2, View.ld_unit_zero (S := S16x128x5) hz3, View.ld_unit_zero (S := S32x11) hz2, View.ld_unit_zero (S := S32) hz1, View.ld_unit_zero (S := S6x32) hz2, View.ld_unit_zero (S := S6) hz1, View.readCov_unit_zero (S := S16x128x5) _ hz3]
    rfl
  isplitl [Ho14]
  · iexists fo14; isplitr; · ipureintro; rfl
    iexact Ho14
  iexists _; isplitr
  swap; · iexact Hs15
  ipureintro
  (try sl_unfold_words)
  rw [View.read_writes_eq_canon _ _ _ (cover_head hz3 _ _ _), View.canon_cons_unit_zero (S := S16x128x5) hz3]
  simp only [View.readAt_eq_ld, View.ld_unit_zero (S := S16x128) hz2, View.ld_unit_zero (S := S128x128) hz2, View.ld_unit_zero (S := S16x128x5) hz3, View.ld_unit_zero (S := S32x11) hz2, View.ld_unit_zero (S := S32) hz1, View.ld_unit_zero (S := S6x32) hz2, View.ld_unit_zero (S := S6) hz1, View.readCov_unit_zero (S := S16x128x5) _ hz3]
  rfl

set_option maxHeartbeats 4000000 in
/-- At a row's LAST tile: the running sum is continued, and its mean is stored into the hidden-state block. -/
theorem run_last (c : Dev nD) (E : Set ℕ) (i : grid0.Coords) (arg2 : Memref sig .tc .vmem S16x128 .f32) (harg2 : arg2.IsWhole) (arg3 : Memref sig .tc .vmem S16x128 .f32) (harg3 : arg3.IsWhole) (arg4 : Memref sig .tc .vmem S16x128 .f32) (harg4 : arg4.IsWhole) (arg5 : Memref sig .tc .vmem S16x128 .f32) (harg5 : arg5.IsWhole) (arg6 : Memref sig .tc .vmem S128x128 .f32) (harg6 : arg6.IsWhole) (arg7 : Memref sig .tc .vmem S16x128x5 .f32) (harg7 : arg7.IsWhole) (arg8 : Memref sig .tc .vmem S16x128 .f32) (harg8 : arg8.IsWhole) (arg9 : Memref sig .tc .vmem S32x11 .f32) (harg9 : arg9.IsWhole) (arg10 : Memref sig .tc .vmem S32 .f32) (harg10 : arg10.IsWhole) (arg11 : Memref sig .tc .vmem S6x32 .f32) (harg11 : arg11.IsWhole) (arg12 : Memref sig .tc .vmem S6 .f32) (harg12 : arg12.IsWhole) (arg13 : Memref sig .tc .vmem S128x128 .f32) (harg13 : arg13.IsWhole) (arg14 : Memref sig .tc .vmem S16x128x5 .f32) (harg14 : arg14.IsWhole) (arg15 : Memref sig .tc .vmem S16x128x5 .f32) (harg15 : arg15.IsWhole)
    (hF : ¬atFirst i) (hL : atLast i) (x3 x4 x5 x6 : Vec F S16x128 .f32) (x7 : Vec F S128x128 .f32) (x8 : Vec F S16x128x5 .f32) (x9 : Vec F S16x128 .f32) (x10 : Vec F S32x11 .f32) (x11 : Vec F S32 .f32) (x12 : Vec F S6x32 .f32) (x13 : Vec F S6 .f32) (prev : Vec F S16x128x5 .f32) (K : PUnit → sProp 𝕄) :
    iprop(owns (c : Thread nD τ) arg2 fullShare x3 ∗ owns (c : Thread nD τ) arg3 fullShare x4 ∗ owns (c : Thread nD τ) arg4 fullShare x5 ∗ owns (c : Thread nD τ) arg5 fullShare x6 ∗ owns (c : Thread nD τ) arg6 fullShare x7 ∗ owns (c : Thread nD τ) arg7 fullShare x8 ∗ owns (c : Thread nD τ) arg8 fullShare x9 ∗ owns (c : Thread nD τ) arg9 fullShare x10 ∗ owns (c : Thread nD τ) arg10 fullShare x11 ∗ owns (c : Thread nD τ) arg11 fullShare x12 ∗ owns (c : Thread nD τ) arg12 fullShare x13
        ∗ (∃ d, owns (c : Thread nD τ) arg13 fullShare d) ∗ (∃ d, owns (c : Thread nD τ) arg14 fullShare d) ∗ owns (c : Thread nD τ) arg15 fullShare prev
        ∗ (iprop(owns (c : Thread nD τ) arg2 fullShare x3 ∗ owns (c : Thread nD τ) arg3 fullShare x4 ∗ owns (c : Thread nD τ) arg4 fullShare x5 ∗ owns (c : Thread nD τ) arg5 fullShare x6 ∗ owns (c : Thread nD τ) arg6 fullShare x7 ∗ owns (c : Thread nD τ) arg7 fullShare x8 ∗ owns (c : Thread nD τ) arg8 fullShare x9 ∗ owns (c : Thread nD τ) arg9 fullShare x10 ∗ owns (c : Thread nD τ) arg10 fullShare x11 ∗ owns (c : Thread nD τ) arg11 fullShare x12 ∗ owns (c : Thread nD τ) arg12 fullShare x13
            ∗ owns (c : Thread nD τ) arg13 fullShare (Terms.weightT x3 x4 x5 x6 x7 x8 x9 x10 x11 x12 x13) ∗ owns (c : Thread nD τ) arg14 fullShare (Terms.meanT (Terms.carryT x3 x4 x5 x6 x7 x8 x9 x10 x11 x12 x13 prev)) ∗ owns (c : Thread nD τ) arg15 fullShare (Terms.carryT x3 x4 x5 x6 x7 x8 x9 x10 x11 x12 x13 prev)) -∗ K ⟨⟩))
      ⊢ wp frame (wpE (defs₀ (F := F)) Variants.none c none) E (cc0__kernel1 i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__kernel1_eq_skeleton]; unfold cc0__kernel1_skel
  unfold owns
  iintro ⟨⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%do13, %fo13, -, Ho13⟩, ⟨%do14, %fo14, -, Ho14⟩, ⟨%fs15, %hs15, Hs15⟩, Hk⟩
  subst h3; subst h4; subst h5; subst h6; subst h7; subst h8; subst h9; subst h10; subst h11; subst h12; subst h13; subst hs15
  sl_exec (disch := first | exact hF | exact hL)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [Ho13]
  · iexists _; isplitr
    swap; · iexact Ho13
    ipureintro
    (try sl_unfold_words)
    rw [View.read_writes_eq_canon _ _ _ (cover_head hz2 _ _ _), View.canon_cons_unit_zero (S := S128x128) hz2]
    simp only [View.readAt_eq_ld, View.ld_unit_zero (S := S16x128) hz2, View.ld_unit_zero (S := S128x128) hz2, View.ld_unit_zero (S := S16x128x5) hz3, View.ld_unit_zero (S := S32x11) hz2, View.ld_unit_zero (S := S32) hz1, View.ld_unit_zero (S := S6x32) hz2, View.ld_unit_zero (S := S6) hz1, View.readCov_unit_zero (S := S16x128x5) _ hz3]
    rfl
  isplitl [Ho14]
  · iexists _; isplitr
    swap; · iexact Ho14
    ipureintro
    (try sl_unfold_words)
    rw [View.read_writes_eq_canon _ _ _ (cover_head hz3 _ _ _), View.canon_cons_unit_zero (S := S16x128x5) hz3]
    simp only [View.readAt_eq_ld, View.ld_unit_zero (S := S16x128) hz2, View.ld_unit_zero (S := S128x128) hz2, View.ld_unit_zero (S := S16x128x5) hz3, View.ld_unit_zero (S := S32x11) hz2, View.ld_unit_zero (S := S32) hz1, View.ld_unit_zero (S := S6x32) hz2, View.ld_unit_zero (S := S6) hz1, View.readCov_unit_zero (S := S16x128x5) _ hz3]
    rfl
  iexists _; isplitr
  swap; · iexact Hs15
  ipureintro
  (try sl_unfold_words)
  rw [View.read_writes_eq_canon _ _ _ (cover_head hz3 _ _ _), View.canon_cons_unit_zero (S := S16x128x5) hz3]
  simp only [View.readAt_eq_ld, View.ld_unit_zero (S := S16x128) hz2, View.ld_unit_zero (S := S128x128) hz2, View.ld_unit_zero (S := S16x128x5) hz3, View.ld_unit_zero (S := S32x11) hz2, View.ld_unit_zero (S := S32) hz1, View.ld_unit_zero (S := S6x32) hz2, View.ld_unit_zero (S := S6) hz1, View.readCov_unit_zero (S := S16x128x5) _ hz3]
  rfl

end Cert.KernelIdeal.Tile

end
-- ==== Proof.TileDataIdeal.lean ====
/-
  The first kernel's region, point by point: the data.

  The grid is four rows of four tiles; point `t` is tile `t % 4` of row `t / 4`. The hidden-state block is stored only at
  a row's last tile (remainder 3) and written back only there; at the other points its buffer is left alone. What the
  running sum holds after point `t` is defined by recursion on the point (`sumAt`): the tile's sums from zero at a row's
  first tile (remainder 0), added to what the point before left otherwise. The region's invariant carries it from point
  to point beside the rest of the core's scoped state. Everything is stated at any contents `V` of the core's buffers
  when the region is entered.
-/
import proofs.«167862_j23304492548723_1_alg».proof.Proof.Gen.KernelIdeal.Launch
import proofs.«167862_j23304492548723_1_alg».proof.Proof.Gen.KernelIdeal.Skeleton
import proofs.«167862_j23304492548723_1_alg».proof.Proof.Gen.KernelIdeal.Points
import proofs.«167862_j23304492548723_1_alg».proof.Proof.TermsIdeal
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Where a window is left alone -/

theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel
theorem live_4 : ∀ t : Fin cfg0.N, cfg0.idle 4 (grid0.coords t) = false := by decide +kernel
theorem live_5 : ∀ t : Fin cfg0.N, cfg0.idle 5 (grid0.coords t) = false := by decide +kernel
theorem live_6 : ∀ t : Fin cfg0.N, cfg0.idle 6 (grid0.coords t) = false := by decide +kernel
theorem live_7 : ∀ t : Fin cfg0.N, cfg0.idle 7 (grid0.coords t) = false := by decide +kernel
theorem live_8 : ∀ t : Fin cfg0.N, cfg0.idle 8 (grid0.coords t) = false := by decide +kernel
theorem live_9 : ∀ t : Fin cfg0.N, cfg0.idle 9 (grid0.coords t) = false := by decide +kernel
theorem live_10 : ∀ t : Fin cfg0.N, cfg0.idle 10 (grid0.coords t) = false := by decide +kernel
theorem live_11 : ∀ t : Fin cfg0.N, cfg0.idle 11 (grid0.coords t) = false := by decide +kernel
/-- Away from a row's last tile the body stores nothing into the hidden-state block, -/
theorem idle_12 : ∀ t : Fin cfg0.N, ¬t.val % 4 = 3 → cfg0.idle 12 (grid0.coords t) = true := by decide +kernel
/-- and the block is not written back there; -/
theorem noflush_12 : ∀ t : Fin cfg0.N, ¬t.val % 4 = 3 → (cfg0.win 12).flush t = false := by decide +kernel
/-- at a row's last tile it is stored. -/
theorem live_12 : ∀ t : Fin cfg0.N, t.val % 4 = 3 → cfg0.idle 12 (grid0.coords t) = false := by decide +kernel

/-! ## The scoped state the body does not describe -/

/-- The running sum's buffer, whole. -/
abbrev scM : Memref sig .tc .vmem S16x128x5 .f32 := Memref.whole cc0_scratch0

/-- The other region's staging buffers, each at some contents: scoped state this region never touches. -/
def others (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f))

/-- The class invariant with the running sum's buffer split off as a memref owned at some contents. -/
theorem PhiA0_eq (c : Dev nD) :
    (Pipeline.ΦA spec0 c : sProp 𝕄)
      = iprop(((∃ d, owns (c : Thread nD τ) scM fullShare d) ∗ others c) ∗ (∃ r, prngReg c r)) := by
  unfold Pipeline.ΦA others; rw [scopedRest0_eq]; simp only [scM, owns_whole]; try rfl

section AtEntry

-- the core's buffer contents when the region is entered
variable (V : (c : Dev nD) → (b : Ref sig .tc) → Buf (Elt F) ((c : Thread nD τ).loc b))

/-- Window `w`'s block at point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of window 0 at point `t`, at its literal type. -/
abbrev b0 (c : Dev nD) (t : Fin cfg0.N) : Vec F S16x128 .f32 := blk V c 0 t
/-- The block of window 1 at point `t`, at its literal type. -/
abbrev b1 (c : Dev nD) (t : Fin cfg0.N) : Vec F S16x128 .f32 := blk V c 1 t
/-- The block of window 2 at point `t`, at its literal type. -/
abbrev b2 (c : Dev nD) (t : Fin cfg0.N) : Vec F S16x128 .f32 := blk V c 2 t
/-- The block of window 3 at point `t`, at its literal type. -/
abbrev b3 (c : Dev nD) (t : Fin cfg0.N) : Vec F S16x128 .f32 := blk V c 3 t
/-- The block of window 4 at point `t`, at its literal type. -/
abbrev b4 (c : Dev nD) (t : Fin cfg0.N) : Vec F S128x128 .f32 := blk V c 4 t
/-- The block of window 5 at point `t`, at its literal type. -/
abbrev b5 (c : Dev nD) (t : Fin cfg0.N) : Vec F S16x128x5 .f32 := blk V c 5 t
/-- The block of window 6 at point `t`, at its literal type. -/
abbrev b6 (c : Dev nD) (t : Fin cfg0.N) : Vec F S16x128 .f32 := blk V c 6 t
/-- The block of window 7 at point `t`, at its literal type. -/
abbrev b7 (c : Dev nD) (t : Fin cfg0.N) : Vec F S32x11 .f32 := blk V c 7 t
/-- The block of window 8 at point `t`, at its literal type. -/
abbrev b8 (c : Dev nD) (t : Fin cfg0.N) : Vec F S32 .f32 := blk V c 8 t
/-- The block of window 9 at point `t`, at its literal type. -/
abbrev b9 (c : Dev nD) (t : Fin cfg0.N) : Vec F S6x32 .f32 := blk V c 9 t
/-- The block of window 10 at point `t`, at its literal type. -/
abbrev b10 (c : Dev nD) (t : Fin cfg0.N) : Vec F S6 .f32 := blk V c 10 t

/-! ## The running sum after each point -/

/-- What the running sum holds after point `n`: at a row's first tile the tile's sums from zero; otherwise the tile's
    sums added to what point `n - 1` left. -/
def sumAt (c : Dev nD) : (n : ℕ) → n < cfg0.N → Vec F S16x128x5 .f32
  | 0, hn => Terms.carryT (b0 V c ⟨0, hn⟩) (b1 V c ⟨0, hn⟩) (b2 V c ⟨0, hn⟩) (b3 V c ⟨0, hn⟩) (b4 V c ⟨0, hn⟩) (b5 V c ⟨0, hn⟩) (b6 V c ⟨0, hn⟩) (b7 V c ⟨0, hn⟩) (b8 V c ⟨0, hn⟩) (b9 V c ⟨0, hn⟩) (b10 V c ⟨0, hn⟩) (Terms.clearedT (F := F))
  | n + 1, hn =>
    if (n + 1) % 4 = 0 then Terms.carryT (b0 V c ⟨n + 1, hn⟩) (b1 V c ⟨n + 1, hn⟩) (b2 V c ⟨n + 1, hn⟩) (b3 V c ⟨n + 1, hn⟩) (b4 V c ⟨n + 1, hn⟩) (b5 V c ⟨n + 1, hn⟩) (b6 V c ⟨n + 1, hn⟩) (b7 V c ⟨n + 1, hn⟩) (b8 V c ⟨n + 1, hn⟩) (b9 V c ⟨n + 1, hn⟩) (b10 V c ⟨n + 1, hn⟩) (Terms.clearedT (F := F))
    else Terms.carryT (b0 V c ⟨n + 1, hn⟩) (b1 V c ⟨n + 1, hn⟩) (b2 V c ⟨n + 1, hn⟩) (b3 V c ⟨n + 1, hn⟩) (b4 V c ⟨n + 1, hn⟩) (b5 V c ⟨n + 1, hn⟩) (b6 V c ⟨n + 1, hn⟩) (b7 V c ⟨n + 1, hn⟩) (b8 V c ⟨n + 1, hn⟩) (b9 V c ⟨n + 1, hn⟩) (b10 V c ⟨n + 1, hn⟩) (sumAt c n (Nat.lt_of_succ_lt hn))

theorem sumAt_first (c : Dev nD) (t : Fin cfg0.N) (h : t.val % 4 = 0) :
    sumAt V c t.val t.isLt = Terms.carryT (b0 V c t) (b1 V c t) (b2 V c t) (b3 V c t) (b4 V c t) (b5 V c t) (b6 V c t) (b7 V c t) (b8 V c t) (b9 V c t) (b10 V c t) (Terms.clearedT (F := F)) := by
  obtain ⟨n, hn⟩ := t
  cases n with
  | zero => rfl
  | succ n => exact if_pos h

theorem sumAt_later (c : Dev nD) (t : Fin cfg0.N) (h : ¬t.val % 4 = 0) :
    sumAt V c t.val t.isLt = Terms.carryT (b0 V c t) (b1 V c t) (b2 V c t) (b3 V c t) (b4 V c t) (b5 V c t) (b6 V c t) (b7 V c t) (b8 V c t) (b9 V c t) (b10 V c t) (sumAt V c (t.val - 1) (Nat.lt_of_le_of_lt (Nat.sub_le _ _) t.isLt)) := by
  obtain ⟨n, hn⟩ := t
  cases n with
  | zero => exact absurd (Nat.zero_mod _) h
  | succ n => exact if_neg h

/-! ## The invariant -/

/-- Before point `n`: at the region's entry the class invariant (the running sum's buffer at anything); afterwards the
    running sum at what point `n - 1` left, the other scoped buffers at anything, the generator register at some state. -/
def PhiT (c : Dev nD) : (n : ℕ) → n ≤ cfg0.N → sProp 𝕄
  | 0, _ => Pipeline.ΦA spec0 c
  | n + 1, hn => iprop((owns (c : Thread nD τ) scM fullShare (sumAt V c n hn) ∗ others c) ∗ (∃ r, prngReg c r))

theorem PhiT_zero (c : Dev nD) (n : ℕ) (h : n ≤ cfg0.N) (hz : n = 0) : PhiT V c n h = Pipeline.ΦA spec0 c := by
  subst hz; rfl
theorem PhiT_succ (c : Dev nD) (n : ℕ) (hn : n < cfg0.N) :
    PhiT V c (n + 1) hn = iprop((owns (c : Thread nD τ) scM fullShare (sumAt V c n hn) ∗ others c) ∗ (∃ r, prngReg c r)) := rfl
theorem PhiT_pos (c : Dev nD) (n : ℕ) (h : n ≤ cfg0.N) (hz : n ≠ 0) :
    PhiT V c n h = iprop((owns (c : Thread nD τ) scM fullShare (sumAt V c (n - 1) (by omega)) ∗ others c) ∗ (∃ r, prngReg c r)) := by
  cases n with
  | zero => exact absurd rfl hz
  | succ n => rfl

/-! ## The proof data -/

/-- The region's proof data: the arrays as found; after the body at point `t` each input's buffer at its block, the
    weight window's at the new weight's tile, the hidden-state window's at the mean of the running sum (consulted only at
    a row's last tile); the invariant `PhiT`; nothing owed; full shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => blk V c 7 t
    | ⟨8, _⟩ => blk V c 8 t
    | ⟨9, _⟩ => blk V c 9 t
    | ⟨10, _⟩ => blk V c 10 t
    | ⟨11, _⟩ => Terms.weightT (b0 V c t) (b1 V c t) (b2 V c t) (b3 V c t) (b4 V c t) (b5 V c t) (b6 V c t) (b7 V c t) (b8 V c t) (b9 V c t) (b10 V c t)
    | ⟨12, _⟩ => Terms.meanT (sumAt V c t.val t.isLt)
  Φ t := PhiT V c t.val (Nat.le_of_lt_succ t.isLt)
  q _ := fullShare
  owed _ := 0

theorem A_eq (c : Dev nD) (w : Fin cfg0.W) : (dat V c).A w = V c (Pipeline.arrRef spec0 w) := by dsimp only [dat]
theorem PhiT_castSucc (c : Dev nD) (t : Fin cfg0.N) : (dat V c).Φ t.castSucc = PhiT V c t.val (Nat.le_of_lt t.isLt) := by
  dsimp only [dat]; simp only [Fin.coe_castSucc]
theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = blk V c 2 t := by dsimp only [dat]
theorem after_3 (c : Dev nD) (t : Fin cfg0.N) : (dat V c).after 3 t = blk V c 3 t := by dsimp only [dat]
theorem after_4 (c : Dev nD) (t : Fin cfg0.N) : (dat V c).after 4 t = blk V c 4 t := by dsimp only [dat]
theorem after_5 (c : Dev nD) (t : Fin cfg0.N) : (dat V c).after 5 t = blk V c 5 t := by dsimp only [dat]
theorem after_6 (c : Dev nD) (t : Fin cfg0.N) : (dat V c).after 6 t = blk V c 6 t := by dsimp only [dat]
theorem after_7 (c : Dev nD) (t : Fin cfg0.N) : (dat V c).after 7 t = blk V c 7 t := by dsimp only [dat]
theorem after_8 (c : Dev nD) (t : Fin cfg0.N) : (dat V c).after 8 t = blk V c 8 t := by dsimp only [dat]
theorem after_9 (c : Dev nD) (t : Fin cfg0.N) : (dat V c).after 9 t = blk V c 9 t := by dsimp only [dat]
theorem after_10 (c : Dev nD) (t : Fin cfg0.N) : (dat V c).after 10 t = blk V c 10 t := by dsimp only [dat]
theorem after_11 (c : Dev nD) (t : Fin cfg0.N) : (dat V c).after 11 t = Terms.weightT (b0 V c t) (b1 V c t) (b2 V c t) (b3 V c t) (b4 V c t) (b5 V c t) (b6 V c t) (b7 V c t) (b8 V c t) (b9 V c t) (b10 V c t) := by dsimp only [dat]
theorem after_12 (c : Dev nD) (t : Fin cfg0.N) : (dat V c).after 12 t = Terms.meanT (sumAt V c t.val t.isLt) := by dsimp only [dat]

/-- An input's staging buffer holds its block when the body starts, fetched at this point or not. -/
theorem before_0 (c : Dev nD) (t : Fin cfg0.N) (d) : (dat V c).before 0 t d = blk V c 0 t :=
  ((dat V c).before_in_eq_fetched 0 rfl (fun _ => rfl) (fun _ _ _ => rfl) (fun t => by rw [after_0]; unfold Dat.blockOf blk; rw [A_eq]; try rfl) t d).trans
    (by unfold Dat.fetched Dat.blockOf blk; rw [A_eq]; try rfl)
theorem before_1 (c : Dev nD) (t : Fin cfg0.N) (d) : (dat V c).before 1 t d = blk V c 1 t :=
  ((dat V c).before_in_eq_fetched 1 rfl (fun _ => rfl) (fun _ _ _ => rfl) (fun t => by rw [after_1]; unfold Dat.blockOf blk; rw [A_eq]; try rfl) t d).trans
    (by unfold Dat.fetched Dat.blockOf blk; rw [A_eq]; try rfl)
theorem before_2 (c : Dev nD) (t : Fin cfg0.N) (d) : (dat V c).before 2 t d = blk V c 2 t :=
  ((dat V c).before_in_eq_fetched 2 rfl (fun _ => rfl) (fun _ _ _ => rfl) (fun t => by rw [after_2]; unfold Dat.blockOf blk; rw [A_eq]; try rfl) t d).trans
    (by unfold Dat.fetched Dat.blockOf blk; rw [A_eq]; try rfl)
theorem before_3 (c : Dev nD) (t : Fin cfg0.N) (d) : (dat V c).before 3 t d = blk V c 3 t :=
  ((dat V c).before_in_eq_fetched 3 rfl (fun _ => rfl) (fun _ _ _ => rfl) (fun t => by rw [after_3]; unfold Dat.blockOf blk; rw [A_eq]; try rfl) t d).trans
    (by unfold Dat.fetched Dat.blockOf blk; rw [A_eq]; try rfl)
theorem before_4 (c : Dev nD) (t : Fin cfg0.N) (d) : (dat V c).before 4 t d = blk V c 4 t :=
  ((dat V c).before_in_eq_fetched 4 rfl (fun _ => rfl) (fun _ _ _ => rfl) (fun t => by rw [after_4]; unfold Dat.blockOf blk; rw [A_eq]; try rfl) t d).trans
    (by unfold Dat.fetched Dat.blockOf blk; rw [A_eq]; try rfl)
theorem before_5 (c : Dev nD) (t : Fin cfg0.N) (d) : (dat V c).before 5 t d = blk V c 5 t :=
  ((dat V c).before_in_eq_fetched 5 rfl (fun _ => rfl) (fun _ _ _ => rfl) (fun t => by rw [after_5]; unfold Dat.blockOf blk; rw [A_eq]; try rfl) t d).trans
    (by unfold Dat.fetched Dat.blockOf blk; rw [A_eq]; try rfl)
theorem before_6 (c : Dev nD) (t : Fin cfg0.N) (d) : (dat V c).before 6 t d = blk V c 6 t :=
  ((dat V c).before_in_eq_fetched 6 rfl (fun _ => rfl) (fun _ _ _ => rfl) (fun t => by rw [after_6]; unfold Dat.blockOf blk; rw [A_eq]; try rfl) t d).trans
    (by unfold Dat.fetched Dat.blockOf blk; rw [A_eq]; try rfl)
theorem before_7 (c : Dev nD) (t : Fin cfg0.N) (d) : (dat V c).before 7 t d = blk V c 7 t :=
  ((dat V c).before_in_eq_fetched 7 rfl (fun _ => rfl) (fun _ _ _ => rfl) (fun t => by rw [after_7]; unfold Dat.blockOf blk; rw [A_eq]; try rfl) t d).trans
    (by unfold Dat.fetched Dat.blockOf blk; rw [A_eq]; try rfl)
theorem before_8 (c : Dev nD) (t : Fin cfg0.N) (d) : (dat V c).before 8 t d = blk V c 8 t :=
  ((dat V c).before_in_eq_fetched 8 rfl (fun _ => rfl) (fun _ _ _ => rfl) (fun t => by rw [after_8]; unfold Dat.blockOf blk; rw [A_eq]; try rfl) t d).trans
    (by unfold Dat.fetched Dat.blockOf blk; rw [A_eq]; try rfl)
theorem before_9 (c : Dev nD) (t : Fin cfg0.N) (d) : (dat V c).before 9 t d = blk V c 9 t :=
  ((dat V c).before_in_eq_fetched 9 rfl (fun _ => rfl) (fun _ _ _ => rfl) (fun t => by rw [after_9]; unfold Dat.blockOf blk; rw [A_eq]; try rfl) t d).trans
    (by unfold Dat.fetched Dat.blockOf blk; rw [A_eq]; try rfl)
theorem before_10 (c : Dev nD) (t : Fin cfg0.N) (d) : (dat V c).before 10 t d = blk V c 10 t :=
  ((dat V c).before_in_eq_fetched 10 rfl (fun _ => rfl) (fun _ _ _ => rfl) (fun t => by rw [after_10]; unfold Dat.blockOf blk; rw [A_eq]; try rfl) t d).trans
    (by unfold Dat.fetched Dat.blockOf blk; rw [A_eq]; try rfl)

theorem leaves_0 (c : Dev nD) (t : Fin cfg0.N) :
    (dat V c).leavesExact 0 t = owns (c : Thread nD τ) (st0_0 t) fullShare ((dat V c).after 0 t) := by
  unfold Dat.leavesExact; rw [live_0 t]
theorem leaves_1 (c : Dev nD) (t : Fin cfg0.N) :
    (dat V c).leavesExact 1 t = owns (c : Thread nD τ) (st0_1 t) fullShare ((dat V c).after 1 t) := by
  unfold Dat.leavesExact; rw [live_1 t]
theorem leaves_2 (c : Dev nD) (t : Fin cfg0.N) :
    (dat V c).leavesExact 2 t = owns (c : Thread nD τ) (st0_2 t) fullShare ((dat V c).after 2 t) := by
  unfold Dat.leavesExact; rw [live_2 t]
theorem leaves_3 (c : Dev nD) (t : Fin cfg0.N) :
    (dat V c).leavesExact 3 t = owns (c : Thread nD τ) (st0_3 t) fullShare ((dat V c).after 3 t) := by
  unfold Dat.leavesExact; rw [live_3 t]
theorem leaves_4 (c : Dev nD) (t : Fin cfg0.N) :
    (dat V c).leavesExact 4 t = owns (c : Thread nD τ) (st0_4 t) fullShare ((dat V c).after 4 t) := by
  unfold Dat.leavesExact; rw [live_4 t]
theorem leaves_5 (c : Dev nD) (t : Fin cfg0.N) :
    (dat V c).leavesExact 5 t = owns (c : Thread nD τ) (st0_5 t) fullShare ((dat V c).after 5 t) := by
  unfold Dat.leavesExact; rw [live_5 t]
theorem leaves_6 (c : Dev nD) (t : Fin cfg0.N) :
    (dat V c).leavesExact 6 t = owns (c : Thread nD τ) (st0_6 t) fullShare ((dat V c).after 6 t) := by
  unfold Dat.leavesExact; rw [live_6 t]
theorem leaves_7 (c : Dev nD) (t : Fin cfg0.N) :
    (dat V c).leavesExact 7 t = owns (c : Thread nD τ) (st0_7 t) fullShare ((dat V c).after 7 t) := by
  unfold Dat.leavesExact; rw [live_7 t]
theorem leaves_8 (c : Dev nD) (t : Fin cfg0.N) :
    (dat V c).leavesExact 8 t = owns (c : Thread nD τ) (st0_8 t) fullShare ((dat V c).after 8 t) := by
  unfold Dat.leavesExact; rw [live_8 t]
theorem leaves_9 (c : Dev nD) (t : Fin cfg0.N) :
    (dat V c).leavesExact 9 t = owns (c : Thread nD τ) (st0_9 t) fullShare ((dat V c).after 9 t) := by
  unfold Dat.leavesExact; rw [live_9 t]
theorem leaves_10 (c : Dev nD) (t : Fin cfg0.N) :
    (dat V c).leavesExact 10 t = owns (c : Thread nD τ) (st0_10 t) fullShare ((dat V c).after 10 t) := by
  unfold Dat.leavesExact; rw [live_10 t]
theorem leaves_11 (c : Dev nD) (t : Fin cfg0.N) :
    (dat V c).leavesExact 11 t = owns (c : Thread nD τ) (st0_11 t) fullShare ((dat V c).after 11 t) := by
  unfold Dat.leavesExact; rw [live_11 t]

end AtEntry

end Cert.KernelIdeal.Tile

end
-- ==== Proof.TileFrameIdeal.lean ====
/-
  The first kernel's region, point by point: the body obligation.

  The body's two branches are decided by the remainder of the point's number modulo 4: it clears its running sum where
  the remainder is 0 and stores the mean where it is 3. At every point one of the three runs of the body applies; the
  invariant hands over the running sum at what the point before left and takes it back at this point's.
-/
import proofs.«167862_j23304492548723_1_alg».proof.Proof.TileBodyIdeal
import proofs.«167862_j23304492548723_1_alg».proof.Proof.TileDataIdeal

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The branches over the grid -/

/-- A point is at its row's first tile exactly when its number is a multiple of 4. -/
theorem hFirst : ∀ t : Fin cfg0.N, atFirst (grid0.coords t) ↔ t.val % 4 = 0 :=
  (by decide +kernel : ∀ t : Fin grid0.N, atFirst (grid0.coords t) ↔ t.val % 4 = 0)
/-- A point is at its row's last tile exactly when its number is 3 more than a multiple of 4. -/
theorem hLast : ∀ t : Fin cfg0.N, atLast (grid0.coords t) ↔ t.val % 4 = 3 :=
  (by decide +kernel : ∀ t : Fin grid0.N, atLast (grid0.coords t) ↔ t.val % 4 = 3)

section AtEntry

-- the core's buffer contents when the region is entered
variable (V : (c : Dev nD) → (b : Ref sig .tc) → Buf (Elt F) ((c : Thread nD τ).loc b))

/-! ## The body obligation -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d))
    ∗ (∃ d, owns (c : Thread nD τ) (st0_8 t) fullShare ((dat V c).before 8 t d))
    ∗ (∃ d, owns (c : Thread nD τ) (st0_9 t) fullShare ((dat V c).before 9 t d))
    ∗ (∃ d, owns (c : Thread nD τ) (st0_10 t) fullShare ((dat V c).before 10 t d))
    ∗ (∃ d, owns (c : Thread nD τ) (st0_11 t) fullShare ((dat V c).before 11 t d))
    ∗ (∃ d, owns (c : Thread nD τ) (st0_12 t) fullShare ((dat V c).before 12 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t
    ∗ (dat V c).leavesExact 10 t
    ∗ (dat V c).leavesExact 11 t
    ∗ (dat V c).leavesExact 12 t)

set_option maxHeartbeats 8000000 in
/-- The body at any point: the inputs' buffers hold their blocks; the remainder of the point's number modulo 4 says
    which of the three runs applies; the invariant hands over the running sum at what the point before left (at anything
    at the very first point, and at a later row's first tile, where it is cleared) and takes it back at this point's. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5, before_6, before_7, before_8, before_9, before_10]
  rw [show (dat V c).owesAt () t.succ = (dat V c).owesAt () t.castSucc from rfl]
  rw [show (dat V c).Φ t.succ = PhiT V c (t.val + 1) t.isLt from rfl, PhiT_succ]
  rw [leaves_0, leaves_1, leaves_2, leaves_3, leaves_4, leaves_5, leaves_6, leaves_7, leaves_8, leaves_9, leaves_10, leaves_11,
    after_0, after_1, after_2, after_3, after_4, after_5, after_6, after_7, after_8, after_9, after_10, after_11]
  have hN : t.val < 16 := lt_of_lt_of_eq t.isLt N_0
  by_cases h0 : t.val % 4 = 0
  · have hF : atFirst (grid0.coords t) := (hFirst t).mpr h0
    have h3 : ¬t.val % 4 = 3 := by omega
    have hL : ¬atLast (grid0.coords t) := fun h => h3 ((hLast t).mp h)
    rw [Dat.leavesExact_idle (dat V c) 12 t (idle_12 t h3) (noflush_12 t h3), sumAt_first V c t h0]
    by_cases hz : t.val = 0
    ·
      rw [PhiT_castSucc V c t, PhiT_zero V c _ _ hz, PhiA0_eq]
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (run_first c Set.univ (grid0.coords t) _ _ _ _ _ _ _ _ _ _ _ _ _ _ _ _ _ _ _ _ _ _ _ _ _ _ _ _ hF hL (b0 V c t) (b1 V c t) (b2 V c t) (b3 V c t) (b4 V c t) (b5 V c t) (b6 V c t) (b7 V c t) (b8 V c t) (b9 V c t) (b10 V c t) ((dat V c).before 12 t d12) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexact H12
      isplitl [HS]; · iexact HS
      iintro ⟨H0, H1, H2, H3, H4, H5, H6, H7, H8, H9, H10, H11, H12, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexists _; iexact H12
    ·
      rw [PhiT_castSucc V c t, PhiT_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (run_first c Set.univ (grid0.coords t) _ _ _ _ _ _ _ _ _ _ _ _ _ _ _ _ _ _ _ _ _ _ _ _ _ _ _ _ hF hL (b0 V c t) (b1 V c t) (b2 V c t) (b3 V c t) (b4 V c t) (b5 V c t) (b6 V c t) (b7 V c t) (b8 V c t) (b9 V c t) (b10 V c t) ((dat V c).before 12 t d12) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexact H12
      isplitl [HS]; · iexists _; iexact HS
      iintro ⟨H0, H1, H2, H3, H4, H5, H6, H7, H8, H9, H10, H11, H12, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexists _; iexact H12
  · have hF : ¬atFirst (grid0.coords t) := fun h => h0 ((hFirst t).mp h)
    have hz : t.val ≠ 0 := fun h => h0 (by rw [h])
    rw [sumAt_later V c t h0]
    by_cases h3 : t.val % 4 = 3
    · have hL : atLast (grid0.coords t) := (hLast t).mpr h3
      rw [show (dat V c).leavesExact 12 t = owns (c : Thread nD τ) (st0_12 t) fullShare ((dat V c).after 12 t) from by
        unfold Dat.leavesExact; rw [live_12 t h3], after_12, sumAt_later V c t h0]
      rw [PhiT_castSucc V c t, PhiT_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (run_last c Set.univ (grid0.coords t) _ _ _ _ _ _ _ _ _ _ _ _ _ _ _ _ _ _ _ _ _ _ _ _ _ _ _ _ hF hL (b0 V c t) (b1 V c t) (b2 V c t) (b3 V c t) (b4 V c t) (b5 V c t) (b6 V c t) (b7 V c t) (b8 V c t) (b9 V c t) (b10 V c t) (sumAt V c (t.val - 1) (by omega)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      isplitl [HS]; · iexact HS
      iintro ⟨H0, H1, H2, H3, H4, H5, H6, H7, H8, H9, H10, H11, H12, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    · have hL : ¬atLast (grid0.coords t) := fun h => h3 ((hLast t).mp h)
      rw [Dat.leavesExact_idle (dat V c) 12 t (idle_12 t h3) (noflush_12 t h3)]
      rw [PhiT_castSucc V c t, PhiT_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (run_mid c Set.univ (grid0.coords t) _ _ _ _ _ _ _ _ _ _ _ _ _ _ _ _ _ _ _ _ _ _ _ _ _ _ _ _ hF hL (b0 V c t) (b1 V c t) (b2 V c t) (b3 V c t) (b4 V c t) (b5 V c t) (b6 V c t) (b7 V c t) (b8 V c t) (b9 V c t) (b10 V c t) ((dat V c).before 12 t d12) (sumAt V c (t.val - 1) (by omega)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexact H12
      isplitl [HS]; · iexact HS
      iintro ⟨H0, H1, H2, H3, H4, H5, H6, H7, H8, H9, H10, H11, H12, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexists _; iexact H12

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiT V c 0 (Nat.zero_le _) from rfl, PhiT_zero V c 0 _ rfl]
  try exact Idealize.SL.BI.Entails.refl _

/-- After the last point the invariant gives the class invariant back: what the running sum holds is forgotten. -/
theorem hout (c : Dev nD) : (dat V c).Φ (Fin.last cfg0.N) ⊢ Pipeline.ΦA spec0 c := by
  rw [show (dat V c).Φ (Fin.last cfg0.N) = PhiT V c (Fin.last cfg0.N).val (Nat.le_of_lt_succ (Fin.last cfg0.N).isLt) from rfl,
    PhiT_pos V c _ _ (by rw [Fin.val_last]; have : cfg0.N = 16 := N_0; omega), PhiA0_eq]
  iintro ⟨⟨HS, Hoth⟩, Hg⟩
  isplitl [HS Hoth]
  · isplitl [HS]
    · iexists _; iexact HS
    iexact Hoth
  iexact Hg

end AtEntry

end Cert.KernelIdeal.Tile

end
-- ==== Proof.DenseFrameIdeal.lean ====
/-
  The second kernel's region: one grid point that loads the whole sample block, the whole new weight and the bias,
  and stores the product of the first with the transposed second plus the bias row.

  Stated at any contents `V` of the core's buffers when the region is entered: each window's block read off its
  array, what the body leaves in every staging buffer (the inputs as loaded, the output at the term of the loaded
  blocks), and that the body, run on those buffers, leaves exactly that.
-/
import proofs.«167862_j23304492548723_1_alg».proof.Proof.Gen.KernelIdeal.Launch
import proofs.«167862_j23304492548723_1_alg».proof.Proof.Gen.KernelIdeal.Skeleton
import proofs.«167862_j23304492548723_1_alg».proof.Proof.Gen.KernelIdeal.Points
import proofs.«167862_j23304492548723_1_alg».proof.Proof.TermsIdeal
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Dense

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz1 : (![0] : Fin 1 → Nat) = fun _ => 0 := by funext a; fin_cases a; rfl
theorem hz2 : (![0, 0] : Fin 2 → Nat) = fun _ => 0 := by funext a; fin_cases a <;> rfl

/-! ## The body on whole staging buffers -/

set_option maxHeartbeats 1000000 in
/-- The body loads its three inputs and stores the one value: afterwards the inputs are as they were and the output
    buffer holds the term of what was loaded, whatever it held before. -/
theorem sound_kernel (c : Dev nD) (E : Set ℕ) (i : grid1.Coords)
    (arg1 : Memref sig .tc .vmem S16x512 .f32) (harg1 : arg1.IsWhole) (arg2 : Memref sig .tc .vmem S512x512 .f32) (harg2 : arg2.IsWhole)
    (arg3 : Memref sig .tc .vmem S512 .f32) (harg3 : arg3.IsWhole) (arg4 : Memref sig .tc .vmem S16x512 .f32) (harg4 : arg4.IsWhole)
    (x0 : Vec F S16x512 .f32) (x1 : Vec F S512x512 .f32) (x2 : Vec F S512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (Terms.denseT x0 x1 x2)) -∗ K ⟨⟩))
      ⊢ wp frame (wpE (defs₀ (F := F)) Variants.none c none) E (cc1__kernel2 i arg1 harg1 arg2 harg2 arg3 harg3 arg4 harg4) K := by
  simp only [cc1__kernel2_eq_skeleton]; unfold cc1__kernel2_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (View.cover_of_tiled _ S16x512.size (by rfl)), View.canon_unit_zero (S := S16x512) hz2]
  simp only [View.readAt_eq_ld, Rect.toLoadRect, View.ld_unit_zero (S := S16x512) hz2, View.ld_unit_zero (S := S512x512) hz2, View.ld_unit_zero (S := S512) hz1]
  rfl

section AtEntry

-- the core's buffer contents when the region is entered
variable (V : (c : Dev nD) → (b : Ref sig .tc) → Buf (Elt F) ((c : Thread nD τ).loc b))

/-- Window `w`'s block at the point, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The region's proof data: the arrays as found; after the body each input's buffer at its block and the output's at
    the body's value of the three blocks; the invariant the untouched rest of the core's scoped state; nothing owed. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => Terms.denseT (blk V c 0 t) (blk V c 1 t) (blk V c 2 t)
  Φ _ := Pipeline.ΦA spec1 c
  q _ := fullShare
  owed _ := 0

theorem A_eq (c : Dev nD) (w : Fin cfg1.W) : (dat V c).A w = V c (Pipeline.arrRef spec1 w) := by dsimp only [dat]
theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) :
    (dat V c).after 3 t = Terms.denseT (blk V c 0 t) (blk V c 1 t) (blk V c 2 t) := by dsimp only [dat]

/-- An input's staging buffer holds its block when the body starts, fetched at this point or not. -/
theorem before_0 (c : Dev nD) (t : Fin cfg1.N) (d) : (dat V c).before 0 t d = blk V c 0 t :=
  ((dat V c).before_in_eq_fetched 0 rfl (fun _ => rfl) (fun _ _ _ => rfl) (fun t => by rw [after_0]; unfold Dat.blockOf blk; rw [A_eq]; try rfl) t d).trans
    (by unfold Dat.fetched Dat.blockOf blk; rw [A_eq]; try rfl)
theorem before_1 (c : Dev nD) (t : Fin cfg1.N) (d) : (dat V c).before 1 t d = blk V c 1 t :=
  ((dat V c).before_in_eq_fetched 1 rfl (fun _ => rfl) (fun _ _ _ => rfl) (fun t => by rw [after_1]; unfold Dat.blockOf blk; rw [A_eq]; try rfl) t d).trans
    (by unfold Dat.fetched Dat.blockOf blk; rw [A_eq]; try rfl)
theorem before_2 (c : Dev nD) (t : Fin cfg1.N) (d) : (dat V c).before 2 t d = blk V c 2 t :=
  ((dat V c).before_in_eq_fetched 2 rfl (fun _ => rfl) (fun _ _ _ => rfl) (fun t => by rw [after_2]; unfold Dat.blockOf blk; rw [A_eq]; try rfl) t d).trans
    (by unfold Dat.fetched Dat.blockOf blk; rw [A_eq]; try rfl)

/-- What the body is called with at the point, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t))

theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at the region's one point. -/
theorem body_obligation (c : Dev nD) : BodyObligation (dat (F := F) V c) (defs₀ (F := F)) Variants.none () Set.univ := fun t => by
  rw [bigSep_W1, bigSep_W1]
  exact sound_body V c t

end AtEntry

end Cert.KernelIdeal.Dense

end
-- ==== Proof.RunIdeal.lean ====
/-
  The whole program: the first kernel's region, then the second's.

  Between the items every unscoped buffer of a core is held whole at contents that are named here: as launched before the
  first region; after it, the two arrays it writes at what its write-backs leave (the new weight and the new hidden
  state) and every other buffer as it was; after the second region, the output array at what its one write-back leaves.
  The launch theorem for a list of regions then says that every weakly fair execution ends, and that in the end every
  unscoped buffer holds those last contents. Reading that at the arguments gives the frame; reading it at the two results
  gives their values in terms of the regions' proof data.
-/
import proofs.«167862_j23304492548723_1_alg».proof.Proof.TileFrameIdeal
import proofs.«167862_j23304492548723_1_alg».proof.Proof.DenseFrameIdeal
import Idealize.ShloMosaic.Lib.Pipeline.RegionsLoop
import Idealize.ShloMosaic.Lib.Pipeline.FrameSuffix

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the boundaries -/

/-- At launch, which is the first region's entry. -/
abbrev E0 : Dev nD → Valuation τ sig (Elt F) := fun c b => m ((c : Dev nD), b)
/-- The same read at the TensorCore's references. -/
abbrev V0 : (c : Dev nD) → (b : Ref sig .tc) → Buf (Elt F) ((c : Thread nD τ).loc b) := fun c b => E0 m c b

/-- After the first region: its arrays at what the pipeline leaves, every other buffer as before. -/
def E1 (c : Dev nD) : Valuation τ sig (Elt F) :=
  Pipeline.withArrays spec0 c (E0 m c) fun w => (Tile.dat (V0 m) c).arrAt w cfg0.N
theorem E1_arr (c : Dev nD) (w : Fin cfg0.W) :
    E1 m c (Proc.devRef .tc (Pipeline.arrRef spec0 w)) = (Tile.dat (V0 m) c).arrAt w cfg0.N := by
  unfold E1; exact Pipeline.withArrays_arr spec0 launch0.win.arr_inj c _ _ w
theorem E1_of_ne (c : Dev nD) (b : Ref sig .tc) (hb : ∀ w, Pipeline.arrRef spec0 w ≠ b) :
    E1 m c (Proc.devRef .tc b) = E0 m c (Proc.devRef .tc b) := by
  unfold E1; exact Pipeline.withArrays_of_ne spec0 c _ _ b hb
abbrev V1 : (c : Dev nD) → (b : Ref sig .tc) → Buf (Elt F) ((c : Thread nD τ).loc b) := fun c b => E1 m c b
theorem hF0 (c : Dev nD) (w : Fin cfg0.W) : (Tile.dat (V0 m) c).arrAt w cfg0.N = V1 m c (Pipeline.arrRef spec0 w) :=
  (E1_arr m c w).symm
theorem hrest0 (c : Dev nD) : ∀ b, b ∉ Finset.univ.image (Pipeline.arrRef spec0) → V1 m c b = V0 m c b :=
  fun b hb => E1_of_ne m c b fun w e => hb (Finset.mem_image.mpr ⟨w, Finset.mem_univ _, e⟩)

/-- After the second region: its arrays at what its pipeline leaves, every other buffer as before. -/
def E2 (c : Dev nD) : Valuation τ sig (Elt F) :=
  Pipeline.withArrays spec1 c (E1 m c) fun w => (Dense.dat (V1 m) c).arrAt w cfg1.N
theorem E2_arr (c : Dev nD) (w : Fin cfg1.W) :
    E2 m c (Proc.devRef .tc (Pipeline.arrRef spec1 w)) = (Dense.dat (V1 m) c).arrAt w cfg1.N := by
  unfold E2; exact Pipeline.withArrays_arr spec1 launch1.win.arr_inj c _ _ w
theorem E2_of_ne (c : Dev nD) (b : Ref sig .tc) (hb : ∀ w, Pipeline.arrRef spec1 w ≠ b) :
    E2 m c (Proc.devRef .tc b) = E1 m c (Proc.devRef .tc b) := by
  unfold E2; exact Pipeline.withArrays_of_ne spec1 c _ _ b hb
abbrev V2 : (c : Dev nD) → (b : Ref sig .tc) → Buf (Elt F) ((c : Thread nD τ).loc b) := fun c b => E2 m c b
theorem hF1 (c : Dev nD) (w : Fin cfg1.W) : (Dense.dat (V1 m) c).arrAt w cfg1.N = V2 m c (Pipeline.arrRef spec1 w) :=
  (E2_arr m c w).symm
theorem hrest1 (c : Dev nD) : ∀ b, b ∉ Finset.univ.image (Pipeline.arrRef spec1) → V2 m c b = V1 m c b :=
  fun b hb => E2_of_ne m c b fun w e => hb (Finset.mem_image.mpr ⟨w, Finset.mem_univ _, e⟩)

/-! ## No region writes an argument: a region reads it through an input window or passes it by -/

theorem E2_main_arg0 (c : Dev nD) : E2 m c (Proc.devRef .tc main_arg0) = m ((c : Thread nD τ).loc main_arg0) :=
  ((E2_arr m c 0).trans (((Dense.dat (V1 m) c).arrAt_in 0 rfl _).trans (Dense.A_eq (V1 m) c 0))).trans ((E1_of_ne m c main_arg0 (by decide)).trans rfl)
theorem E2_main_arg1 (c : Dev nD) : E2 m c (Proc.devRef .tc main_arg1) = m ((c : Thread nD τ).loc main_arg1) :=
  (E2_of_ne m c main_arg1 (by decide)).trans (((E1_arr m c 0).trans (((Tile.dat (V0 m) c).arrAt_in 0 rfl _).trans (Tile.A_eq (V0 m) c 0))).trans rfl)
theorem E2_main_arg2 (c : Dev nD) : E2 m c (Proc.devRef .tc main_arg2) = m ((c : Thread nD τ).loc main_arg2) :=
  (E2_of_ne m c main_arg2 (by decide)).trans (((E1_arr m c 1).trans (((Tile.dat (V0 m) c).arrAt_in 1 rfl _).trans (Tile.A_eq (V0 m) c 1))).trans rfl)
theorem E2_main_arg3 (c : Dev nD) : E2 m c (Proc.devRef .tc main_arg3) = m ((c : Thread nD τ).loc main_arg3) :=
  (E2_of_ne m c main_arg3 (by decide)).trans (((E1_arr m c 2).trans (((Tile.dat (V0 m) c).arrAt_in 2 rfl _).trans (Tile.A_eq (V0 m) c 2))).trans rfl)
theorem E2_main_arg4 (c : Dev nD) : E2 m c (Proc.devRef .tc main_arg4) = m ((c : Thread nD τ).loc main_arg4) :=
  (E2_of_ne m c main_arg4 (by decide)).trans (((E1_arr m c 6).trans (((Tile.dat (V0 m) c).arrAt_in 6 rfl _).trans (Tile.A_eq (V0 m) c 6))).trans rfl)
theorem E2_main_arg5 (c : Dev nD) : E2 m c (Proc.devRef .tc main_arg5) = m ((c : Thread nD τ).loc main_arg5) :=
  (E2_of_ne m c main_arg5 (by decide)).trans (((E1_arr m c 3).trans (((Tile.dat (V0 m) c).arrAt_in 3 rfl _).trans (Tile.A_eq (V0 m) c 3))).trans rfl)
theorem E2_main_arg6 (c : Dev nD) : E2 m c (Proc.devRef .tc main_arg6) = m ((c : Thread nD τ).loc main_arg6) :=
  (E2_of_ne m c main_arg6 (by decide)).trans (((E1_arr m c 5).trans (((Tile.dat (V0 m) c).arrAt_in 5 rfl _).trans (Tile.A_eq (V0 m) c 5))).trans rfl)
theorem E2_main_arg7 (c : Dev nD) : E2 m c (Proc.devRef .tc main_arg7) = m ((c : Thread nD τ).loc main_arg7) :=
  (E2_of_ne m c main_arg7 (by decide)).trans (((E1_arr m c 4).trans (((Tile.dat (V0 m) c).arrAt_in 4 rfl _).trans (Tile.A_eq (V0 m) c 4))).trans rfl)
theorem E2_main_arg8 (c : Dev nD) : E2 m c (Proc.devRef .tc main_arg8) = m ((c : Thread nD τ).loc main_arg8) :=
  ((E2_arr m c 2).trans (((Dense.dat (V1 m) c).arrAt_in 2 rfl _).trans (Dense.A_eq (V1 m) c 2))).trans ((E1_of_ne m c main_arg8 (by decide)).trans rfl)
theorem E2_main_arg9 (c : Dev nD) : E2 m c (Proc.devRef .tc main_arg9) = m ((c : Thread nD τ).loc main_arg9) :=
  (E2_of_ne m c main_arg9 (by decide)).trans (((E1_arr m c 7).trans (((Tile.dat (V0 m) c).arrAt_in 7 rfl _).trans (Tile.A_eq (V0 m) c 7))).trans rfl)
theorem E2_main_arg10 (c : Dev nD) : E2 m c (Proc.devRef .tc main_arg10) = m ((c : Thread nD τ).loc main_arg10) :=
  (E2_of_ne m c main_arg10 (by decide)).trans (((E1_arr m c 8).trans (((Tile.dat (V0 m) c).arrAt_in 8 rfl _).trans (Tile.A_eq (V0 m) c 8))).trans rfl)
theorem E2_main_arg11 (c : Dev nD) : E2 m c (Proc.devRef .tc main_arg11) = m ((c : Thread nD τ).loc main_arg11) :=
  (E2_of_ne m c main_arg11 (by decide)).trans (((E1_arr m c 9).trans (((Tile.dat (V0 m) c).arrAt_in 9 rfl _).trans (Tile.A_eq (V0 m) c 9))).trans rfl)
theorem E2_main_arg12 (c : Dev nD) : E2 m c (Proc.devRef .tc main_arg12) = m ((c : Thread nD τ).loc main_arg12) :=
  (E2_of_ne m c main_arg12 (by decide)).trans (((E1_arr m c 10).trans (((Tile.dat (V0 m) c).arrAt_in 10 rfl _).trans (Tile.A_eq (V0 m) c 10))).trans rfl)

/-- The output array in the end: what the second region's write-back leaves. -/
theorem E2_main_v1 (c : Dev nD) : E2 m c (Proc.devRef .tc main_v1) = (Dense.dat (V1 m) c).arrAt 3 cfg1.N := E2_arr m c 3
/-- The hidden-state array in the end: what the first region's write-backs leave (the second region passes it by). -/
theorem E2_main_v0_1 (c : Dev nD) : E2 m c (Proc.devRef .tc main_v0_1) = (Tile.dat (V0 m) c).arrAt 12 cfg0.N :=
  (E2_of_ne m c main_v0_1 (by decide)).trans (E1_arr m c 12)
/-- The new weight as the second region finds it: what the first region's write-backs leave. -/
theorem V1_main_v0_0 (c : Dev nD) : V1 m c main_v0_0 = (Tile.dat (V0 m) c).arrAt 11 cfg0.N := E1_arr m c 11
/-- The sample block and the bias as the second region finds them: as launched. -/
theorem V1_main_arg0 (c : Dev nD) : V1 m c main_arg0 = m ((c : Thread nD τ).loc main_arg0) := E1_of_ne m c main_arg0 (by decide)
theorem V1_main_arg8 (c : Dev nD) : V1 m c main_arg8 = m ((c : Thread nD τ).loc main_arg8) := E1_of_ne m c main_arg8 (by decide)

/-! ## The proof data of both pipelines, and the thread state -/

/-- No pipeline has a prefetched table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => Tile.dat (V0 m) c
  | ⟨1, _⟩ => fun c => Dense.dat (V1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (E2 m c) ∗ ∃ r, prngReg c r)

/-! ## The regions as segments -/

set_option backward.isDefEq.respectTransparency.types false in
/-- The first region: entered with every unscoped buffer as launched, left with them at `E1`. Its arrays are split out of
    the unscoped buffers and put back at the exit contents; the generator register goes into the invariant and comes back;
    the running sum's contents are forgotten at the exit. -/
def regTile : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Tile.body_obligation (V0 m) c).loose
  hwaits := Pipeline.hwaits_of_owed_zero _ _ _ _ L lv 0 fun _ _ => rfl
  pre c := iprop(StableHlo.held (c : Thread nD τ) (Pipeline.ucRefs τ sig) (E0 m c) ∗ R c)
  post c := iprop(StableHlo.held (c : Thread nD τ) (Pipeline.ucRefs τ sig) (E1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec0 c).trans (show Pipeline.ΦA spec0 c ⊢ (pdats m 0 c).Φ 0 from Tile.hin (V0 m) c)
    unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from Tile.hout (V0 m) c).trans (?_ : Pipeline.ΦA spec0 c ⊢ _)
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered with every unscoped buffer at `E1`, left with them at `E2`. -/
def regDense : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Dense.body_obligation (V1 m) c).loose
  hwaits := Pipeline.hwaits_of_owed_zero _ _ _ _ L lv 1 fun _ _ => rfl
  pre c := iprop(StableHlo.held (c : Thread nD τ) (Pipeline.ucRefs τ sig) (E1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The launch -/

/-- The program's two items in order. -/
abbrev segs : List (Pipeline.Seg (pcfgs (F := F)) adm (pdats m) () defs₀ 𝒱₀ L lv) :=
  [ .region (regTile m), .region (regDense m) ]
/-- The program is the run of its items. -/
theorem main_run (c : Dev nD) : main (F := F) c = Pipeline.Seg.run (segs m) := (main_chain c).trans (by chain_rfl)

set_option backward.isDefEq.respectTransparency.types false in
/-- From any memory with zero counters every weakly fair execution of the program terminates, nothing faulting, and in
    the end every unscoped buffer of every core holds the contents `E2`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = E2 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (E0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (E0 m c)
        from Pipeline.unscopedBufs_held c (E0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = E2 m c b)
    (hfin := fun c s' => by
      iintro ⟨⟨Hh, -⟩, HSI⟩
      unfold StableHlo.held
      imodintro
      iapply (pointsTo_read_all (Pipeline.ucRefs τ sig) (fun b => (((c : Thread nD τ)).1, b)) (E2 m c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (E2_main_arg0 m c),
      (h c _ (mem_uc main_arg1 (by decide))).trans (E2_main_arg1 m c),
      (h c _ (mem_uc main_arg2 (by decide))).trans (E2_main_arg2 m c),
      (h c _ (mem_uc main_arg3 (by decide))).trans (E2_main_arg3 m c),
      (h c _ (mem_uc main_arg4 (by decide))).trans (E2_main_arg4 m c),
      (h c _ (mem_uc main_arg5 (by decide))).trans (E2_main_arg5 m c),
      (h c _ (mem_uc main_arg6 (by decide))).trans (E2_main_arg6 m c),
      (h c _ (mem_uc main_arg7 (by decide))).trans (E2_main_arg7 m c),
      (h c _ (mem_uc main_arg8 (by decide))).trans (E2_main_arg8 m c),
      (h c _ (mem_uc main_arg9 (by decide))).trans (E2_main_arg9 m c),
      (h c _ (mem_uc main_arg10 (by decide))).trans (E2_main_arg10 m c),
      (h c _ (mem_uc main_arg11 (by decide))).trans (E2_main_arg11 m c),
      (h c _ (mem_uc main_arg12 (by decide))).trans (E2_main_arg12 m c)⟩) (run_all m ρ)

/-- The two results in the end, with the arguments: the output array at what the second region's write-back leaves, the
    hidden-state array at what the first region's write-backs leave. -/
theorem run_results : θ_run defs (onTc (τ := τ) (main (F := F))) ⟨m, fun _ => 0, ρ⟩ (fun r => ∀ c : Dev nD,
      r.2.mem ((c.tc : Thread nD τ).loc main_v1) = (Dense.dat (V1 m) c).arrAt 3 cfg1.N
      ∧ r.2.mem ((c.tc : Thread nD τ).loc main_v0_1) = (Tile.dat (V0 m) c).arrAt 12 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_v1 (by decide))).trans (E2_main_v1 m c),
      (h c _ (mem_uc main_v0_1 (by decide))).trans (E2_main_v0_1 m c),
      (h c _ (mem_uc main_arg0 (by decide))).trans (E2_main_arg0 m c),
      (h c _ (mem_uc main_arg1 (by decide))).trans (E2_main_arg1 m c),
      (h c _ (mem_uc main_arg2 (by decide))).trans (E2_main_arg2 m c),
      (h c _ (mem_uc main_arg3 (by decide))).trans (E2_main_arg3 m c),
      (h c _ (mem_uc main_arg4 (by decide))).trans (E2_main_arg4 m c),
      (h c _ (mem_uc main_arg5 (by decide))).trans (E2_main_arg5 m c),
      (h c _ (mem_uc main_arg6 (by decide))).trans (E2_main_arg6 m c),
      (h c _ (mem_uc main_arg7 (by decide))).trans (E2_main_arg7 m c),
      (h c _ (mem_uc main_arg8 (by decide))).trans (E2_main_arg8 m c),
      (h c _ (mem_uc main_arg9 (by decide))).trans (E2_main_arg9 m c),
      (h c _ (mem_uc main_arg10 (by decide))).trans (E2_main_arg10 m c),
      (h c _ (mem_uc main_arg11 (by decide))).trans (E2_main_arg11 m c),
      (h c _ (mem_uc main_arg12 (by decide))).trans (E2_main_arg12 m c)⟩) (run_all m ρ)

end Cert.KernelIdeal.Run

end
-- ==== Proof.CellSpec.lean ====
/-
  The update rule of a self-modifying linear cell, written index by index over the extended reals.

  A cell has `no` outputs and `ni` inputs and is shown `nb` samples. For every sample `b`, output `o` and input `i` a
  small two-layer network looks at eleven numbers: four that depend on `(b, o)` (the label, the prediction, the error and
  the previous output), one that depends on `(o, i)` (the weight), and six that depend on `(b, i)` (five hidden states
  and the previous input). Its first layer is affine into 32 units followed by `tanh`; its second layer is affine into 6
  numbers. The sixth of them, averaged over the samples, is added to the weight; the first five, averaged over the
  inputs, are the cell's new hidden state; and the cell's output is the affine map with the NEW weight.

  Two arrangements of the same sums are stated here.
  * `pre`, `upd`: the eleven products summed in the order of the eleven features, and the 32 hidden units summed in one go.
  * `preSplit`, `updChunks`: the eleven products grouped by what they depend on — a sum of four, one product, a sum of
    six —, and the 32 hidden units summed in four groups of eight into an accumulator that starts at zero.
  That the two agree is regrouping in a commutative monoid (proved in the module that follows this one).

  The two divisors (the number of samples and the number of inputs, as floats) are parameters: both programs carry the
  same two words, which are never evaluated.
-/
import Idealize.ShloMosaic.PureOps.Ideal
import Idealize.ShloMosaic.PureOps.Ideal.Laws
import Mathlib.Algebra.BigOperators.Fin

noncomputable section

namespace Cert.CellSpec

open Idealize.ShloMosaic

/-- What the small network is shown: four signals per (sample, output), the weight per (output, input), five hidden
    states and the previous input per (sample, input). -/
structure Signals (nb no ni : ℕ) where
  label : Fin nb → Fin no → EReal
  pred : Fin nb → Fin no → EReal
  err : Fin nb → Fin no → EReal
  outp : Fin nb → Fin no → EReal
  wt : Fin no → Fin ni → EReal
  hid : Fin nb → Fin ni → Fin 5 → EReal
  inp : Fin nb → Fin ni → EReal

/-- The small network: 11 → 32 → 6. -/
structure Net where
  W1 : Fin 32 → Fin 11 → EReal
  b1 : Fin 32 → EReal
  W2 : Fin 6 → Fin 32 → EReal
  b2 : Fin 6 → EReal

variable {nb no ni : ℕ}

/-- The eleven features at `(b, o, i)`, in the order label, prediction, error, weight, five hidden states, previous input,
    previous output. -/
def feature (S : Signals nb no ni) (b : Fin nb) (o : Fin no) (i : Fin ni) : Fin 11 → EReal
  | ⟨0, _⟩ => S.label b o
  | ⟨1, _⟩ => S.pred b o
  | ⟨2, _⟩ => S.err b o
  | ⟨3, _⟩ => S.wt o i
  | ⟨4, _⟩ => S.hid b i 0
  | ⟨5, _⟩ => S.hid b i 1
  | ⟨6, _⟩ => S.hid b i 2
  | ⟨7, _⟩ => S.hid b i 3
  | ⟨8, _⟩ => S.hid b i 4
  | ⟨9, _⟩ => S.inp b i
  | ⟨10, _⟩ => S.outp b o
  | ⟨_ + 11, h⟩ => absurd h (Nat.not_lt.2 (Nat.le_add_left _ _))

/-- Hidden unit `g` before its `tanh`: the eleven products in feature order, then the bias. -/
def pre (S : Signals nb no ni) (N : Net) (b : Fin nb) (o : Fin no) (i : Fin ni) (g : Fin 32) : EReal :=
  (∑ f : Fin 11, feature S b o i f * N.W1 g f) + N.b1 g

/-- The network's six outputs at `(b, o, i)`: the 32 hidden units in one sum, then the bias. -/
def upd (S : Signals nb no ni) (N : Net) (b : Fin nb) (o : Fin no) (i : Fin ni) (u : Fin 6) : EReal :=
  (∑ g : Fin 32, Ideal.tanh (pre S N b o i g) * N.W2 u g) + N.b2 u

/-- The new weight: the old one plus the sample mean of the sixth output (`dB` is the number of samples as a float). -/
def newWeight (S : Signals nb no ni) (N : Net) (dB : EReal) (o : Fin no) (i : Fin ni) : EReal :=
  S.wt o i + Ideal.div (∑ b : Fin nb, upd S N b o i 5) dB

/-- The new hidden state: the mean over the inputs of each of the first five outputs (`dI` is the number of inputs as a float). -/
def newHidden (S : Signals nb no ni) (N : Net) (dI : EReal) (b : Fin nb) (o : Fin no) (u : Fin 5) : EReal :=
  Ideal.div (∑ i : Fin ni, upd S N b o i u.castSucc) dI

/-- The cell's output: the affine map of the sample with the NEW weight. -/
def output (x : Fin nb → Fin ni → EReal) (bias : Fin no → EReal) (S : Signals nb no ni) (N : Net) (dB : EReal)
    (b : Fin nb) (o : Fin no) : EReal :=
  (∑ i : Fin ni, x b i * newWeight S N dB o i) + bias o

/-! ## The same sums, grouped by what each product depends on -/

/-- The four features that depend on `(b, o)`: label, prediction, error, previous output. -/
def boFeat (S : Signals nb no ni) (b : Fin nb) (o : Fin no) : Fin 4 → EReal
  | ⟨0, _⟩ => S.label b o
  | ⟨1, _⟩ => S.pred b o
  | ⟨2, _⟩ => S.err b o
  | ⟨3, _⟩ => S.outp b o
  | ⟨_ + 4, h⟩ => absurd h (Nat.not_lt.2 (Nat.le_add_left _ _))

/-- Their columns of the first layer: 0, 1, 2 and 10. -/
def boCol : Fin 4 → Fin 11
  | ⟨0, _⟩ => 0
  | ⟨1, _⟩ => 1
  | ⟨2, _⟩ => 2
  | ⟨3, _⟩ => 10
  | ⟨_ + 4, h⟩ => absurd h (Nat.not_lt.2 (Nat.le_add_left _ _))

/-- The six features that depend on `(b, i)`: five hidden states, then the previous input. -/
def biFeat (S : Signals nb no ni) (b : Fin nb) (i : Fin ni) : Fin 6 → EReal
  | ⟨0, _⟩ => S.hid b i 0
  | ⟨1, _⟩ => S.hid b i 1
  | ⟨2, _⟩ => S.hid b i 2
  | ⟨3, _⟩ => S.hid b i 3
  | ⟨4, _⟩ => S.hid b i 4
  | ⟨5, _⟩ => S.inp b i
  | ⟨_ + 6, h⟩ => absurd h (Nat.not_lt.2 (Nat.le_add_left _ _))

/-- Their columns of the first layer: 4 to 9. -/
def biCol (k : Fin 6) : Fin 11 := ⟨4 + k.val, by have := k.isLt; omega⟩

/-- Hidden unit `g` before its `tanh`, grouped: the four `(b, o)` products, plus the weight's product, plus the six
    `(b, i)` products, plus the bias. -/
def preSplit (S : Signals nb no ni) (N : Net) (b : Fin nb) (o : Fin no) (i : Fin ni) (g : Fin 32) : EReal :=
  (((∑ k : Fin 4, boFeat S b o k * N.W1 g (boCol k)) + S.wt o i * N.W1 g 3)
      + ∑ k : Fin 6, biFeat S b i k * N.W1 g (biCol k)) + N.b1 g

/-- Hidden unit `r` of group `c` (of four groups of eight). -/
def unit (c : Fin 4) (r : Fin 8) : Fin 32 := ⟨c.val * 8 + r.val, by have := c.isLt; have := r.isLt; omega⟩

/-- What group `c` of hidden units contributes to output `u`. -/
def chunk (S : Signals nb no ni) (N : Net) (b : Fin nb) (o : Fin no) (i : Fin ni) (u : Fin 6) (c : Fin 4) : EReal :=
  ∑ r : Fin 8, Ideal.tanh (preSplit S N b o i (unit c r)) * N.W2 u (unit c r)

/-- The network's six outputs, the hidden units taken in four groups of eight into an accumulator that starts at zero,
    then the bias. -/
def updChunks (S : Signals nb no ni) (N : Net) (b : Fin nb) (o : Fin no) (i : Fin ni) (u : Fin 6) : EReal :=
  ((((0 + chunk S N b o i u 0) + chunk S N b o i u 1) + chunk S N b o i u 2) + chunk S N b o i u 3) + N.b2 u

end Cert.CellSpec

end
-- ==== Proof.Views.lean ====
/-
  Arrays as functions of their coordinates: an array of rank 1, 2 or 3 read at the index its coordinates build, and the
  cell's signals and the small network gathered from the arrays that hold them.
-/
import proofs.«167862_j23304492548723_1_alg».proof.Proof.CellSpec
import Idealize.ShloMosaic.Lib.ValueIdx

noncomputable section

namespace Cert.CellSpec

open Idealize.ShloMosaic Idealize.ShloMosaic.ValueIdx

/-- A vector as a function of its one coordinate. -/
def grid1 {n0 : ℕ} (a : (⟨1, ![n0]⟩ : Shape).Idx → EReal) : Fin n0 → EReal := fun i => a (ix1 i)
/-- A matrix as a function of its two coordinates. -/
def grid2 {n0 n1 : ℕ} (a : (⟨2, ![n0, n1]⟩ : Shape).Idx → EReal) : Fin n0 → Fin n1 → EReal := fun i j => a (ix2 i j)
/-- A rank-3 array as a function of its three coordinates. -/
def grid3 {n0 n1 n2 : ℕ} (a : (⟨3, ![n0, n1, n2]⟩ : Shape).Idx → EReal) : Fin n0 → Fin n1 → Fin n2 → EReal :=
  fun i j k => a (ix3 i j k)

/-- The cell's signals from the seven arrays that hold them: label, prediction, error and previous output per
    (sample, output); the weight per (output, input); the hidden states and the previous input per (sample, input). -/
def signalsOf {nb no ni : ℕ} (label pred err outp : (⟨2, ![nb, no]⟩ : Shape).Idx → EReal)
    (wt : (⟨2, ![no, ni]⟩ : Shape).Idx → EReal) (hid : (⟨3, ![nb, ni, 5]⟩ : Shape).Idx → EReal)
    (inp : (⟨2, ![nb, ni]⟩ : Shape).Idx → EReal) : Signals nb no ni :=
  ⟨grid2 label, grid2 pred, grid2 err, grid2 outp, grid2 wt, grid3 hid, grid2 inp⟩

/-- The small network from its four arrays. -/
def netOf (W1 : (⟨2, ![32, 11]⟩ : Shape).Idx → EReal) (b1 : (⟨1, ![32]⟩ : Shape).Idx → EReal)
    (W2 : (⟨2, ![6, 32]⟩ : Shape).Idx → EReal) (b2 : (⟨1, ![6]⟩ : Shape).Idx → EReal) : Net :=
  ⟨grid2 W1, grid1 b1, grid2 W2, grid1 b2⟩

/-- The number of samples, 16, as the float word both programs divide by. -/
abbrev d16 : EReal := Ideal.ofBits .f32 0x41800000#32
/-- The number of inputs, 512, as the float word both programs divide by. -/
abbrev d512 : EReal := Ideal.ofBits .f32 0x44000000#32

end Cert.CellSpec

end
-- ==== Proof.LibBlockSum.lean ====
/-
  A finite sum over `4 · n` consecutive indices, cut into four consecutive blocks of `n` and added up block by block from
  zero, in order: the shape a reduction takes when it is carried out in four passes into an accumulator that starts
  cleared. Only commutativity and associativity of the addition are used, so the statement holds in any commutative
  monoid, the extended reals among them.
-/
import Mathlib.Algebra.BigOperators.Fin
import Mathlib.Algebra.BigOperators.Intervals

namespace Cert.LibBlockSum

variable {M : Type} [AddCommMonoid M]

/-- A block of `n` consecutive terms of a sequence, summed over `Fin n` or over `range n`. -/
theorem sum_fin_block (g : ℕ → M) (o n : ℕ) : ∑ j : Fin n, g (o + j.val) = ∑ j ∈ Finset.range n, g (o + j) :=
  Fin.sum_univ_eq_sum_range (fun j => g (o + j)) n

/-- The first `4 · n` terms of a sequence are its first four blocks of `n`, added in order to zero. -/
theorem sum_range_blocks4 (g : ℕ → M) (n : ℕ) :
    ∑ k ∈ Finset.range (4 * n), g k
      = (((0 + ∑ j ∈ Finset.range n, g (0 * n + j)) + ∑ j ∈ Finset.range n, g (1 * n + j))
          + ∑ j ∈ Finset.range n, g (2 * n + j)) + ∑ j ∈ Finset.range n, g (3 * n + j) := by
  rw [show 4 * n = n + n + n + n by omega, Finset.sum_range_add, Finset.sum_range_add, Finset.sum_range_add, zero_add]
  simp only [Nat.zero_mul, Nat.zero_add, Nat.one_mul]
  rw [show 2 * n = n + n by omega, show 3 * n = n + n + n by omega]

/-- A sum over `Fin (4 · n)` is the four block sums over `Fin n`, added in order to zero. -/
theorem sum_fin_blocks4 (n : ℕ) (f : Fin (4 * n) → M) :
    ∑ k, f k
      = (((0 + ∑ j : Fin n, f ⟨0 * n + j.val, by have := j.isLt; omega⟩) + ∑ j : Fin n, f ⟨1 * n + j.val, by have := j.isLt; omega⟩)
          + ∑ j : Fin n, f ⟨2 * n + j.val, by have := j.isLt; omega⟩) + ∑ j : Fin n, f ⟨3 * n + j.val, by have := j.isLt; omega⟩ := by
  let g : ℕ → M := fun k => if h : k < 4 * n then f ⟨k, h⟩ else 0
  have hg : ∀ (k : ℕ) (h : k < 4 * n), f ⟨k, h⟩ = g k := fun k h => by
    show f ⟨k, h⟩ = if h' : k < 4 * n then f ⟨k, h'⟩ else 0
    rw [dif_pos h]
  have hb : ∀ (o : ℕ) (ho : o + n ≤ 4 * n), ∑ j : Fin n, f ⟨o + j.val, by have := j.isLt; omega⟩ = ∑ j ∈ Finset.range n, g (o + j) := fun o ho => by
    rw [← sum_fin_block g o n]
    exact Finset.sum_congr rfl fun j _ => hg _ _
  rw [show ∑ k, f k = ∑ k : Fin (4 * n), g k.val from Finset.sum_congr rfl fun k _ => hg k.val k.isLt,
    Fin.sum_univ_eq_sum_range g (4 * n), sum_range_blocks4 g n, hb (0 * n) (by omega), hb (1 * n) (by omega), hb (2 * n) (by omega), hb (3 * n) (by omega)]

end Cert.LibBlockSum
-- ==== Proof.Regroup.lean ====
/-
  The two arrangements of the cell's sums agree: the eleven first-layer products in feature order are the four, the one
  and the six grouped by what they depend on; the 32 hidden units in one sum are four groups of eight added in order to
  zero; and a sum over 512 inputs is four tiles of 128 added in order to zero. Only commutativity and associativity of
  the addition of extended reals are used.

  The last part restricts the cell's signals to one tile of 128 outputs by 128 inputs: the network's outputs at a
  position of the tile are its outputs at the corresponding position of the whole cell, because every feature is read
  pointwise.
-/
import proofs.«167862_j23304492548723_1_alg».proof.Proof.CellSpec
import proofs.«167862_j23304492548723_1_alg».proof.Proof.LibBlockSum
import Mathlib.Data.Fin.Tuple.Reflection

noncomputable section

namespace Cert.CellSpec

open Idealize.ShloMosaic

variable {nb no ni : ℕ}

/-- The grouped first layer is the first layer in feature order. Written out term by term, the left side lists the
    products of columns 0, 1, 2, 10, then 3, then 4 to 9, and the right side lists columns 0 to 10 in order: the same
    eleven products and the same bias, so the two sums differ only by the order and the bracketing of the addition. -/
theorem preSplit_eq (S : Signals nb no ni) (N : Net) (b : Fin nb) (o : Fin no) (i : Fin ni) (g : Fin 32) :
    preSplit S N b o i g = pre S N b o i g := by
  unfold preSplit pre
  -- each of the three finite sums (of 4, of 6, of 11 terms) as its terms at the literal indices
  simp only [Fin.sum_univ_ofNat]
  -- every feature and every column read at its literal index
  show (((S.label b o * N.W1 g 0 + S.pred b o * N.W1 g 1 + S.err b o * N.W1 g 2 + S.outp b o * N.W1 g 10)
            + S.wt o i * N.W1 g 3)
          + (S.hid b i 0 * N.W1 g 4 + S.hid b i 1 * N.W1 g 5 + S.hid b i 2 * N.W1 g 6 + S.hid b i 3 * N.W1 g 7
              + S.hid b i 4 * N.W1 g 8 + S.inp b i * N.W1 g 9)) + N.b1 g
      = (S.label b o * N.W1 g 0 + S.pred b o * N.W1 g 1 + S.err b o * N.W1 g 2 + S.wt o i * N.W1 g 3
          + S.hid b i 0 * N.W1 g 4 + S.hid b i 1 * N.W1 g 5 + S.hid b i 2 * N.W1 g 6 + S.hid b i 3 * N.W1 g 7
          + S.hid b i 4 * N.W1 g 8 + S.inp b i * N.W1 g 9 + S.outp b o * N.W1 g 10) + N.b1 g
  -- commutativity and associativity of the addition
  ac_rfl

/-- The four groups of eight hidden units, added in order to zero, are the one sum over the 32 units: unit `r` of group
    `c` is unit `8 c + r`, so the groups are the four consecutive blocks of eight of the sum over `Fin 32 = Fin (4 · 8)`. -/
theorem updChunks_eq (S : Signals nb no ni) (N : Net) (b : Fin nb) (o : Fin no) (i : Fin ni) (u : Fin 6) :
    updChunks S N b o i u = upd S N b o i u := by
  unfold updChunks upd
  simp only [chunk, preSplit_eq]
  have h : ∑ g : Fin 32, Ideal.tanh (pre S N b o i g) * N.W2 u g
      = (((0 + ∑ r : Fin 8, Ideal.tanh (pre S N b o i (unit 0 r)) * N.W2 u (unit 0 r))
            + ∑ r : Fin 8, Ideal.tanh (pre S N b o i (unit 1 r)) * N.W2 u (unit 1 r))
          + ∑ r : Fin 8, Ideal.tanh (pre S N b o i (unit 2 r)) * N.W2 u (unit 2 r))
        + ∑ r : Fin 8, Ideal.tanh (pre S N b o i (unit 3 r)) * N.W2 u (unit 3 r) :=
    Cert.LibBlockSum.sum_fin_blocks4 8 (fun g : Fin (4 * 8) => Ideal.tanh (pre S N b o i g) * N.W2 u g)
  rw [h]

/-- Input `q` of tile `t` (of four tiles of 128). -/
def tileIx (t : Fin 4) (q : Fin 128) : Fin 512 := ⟨t.val * 128 + q.val, by have := t.isLt; have := q.isLt; omega⟩

/-- Input `q` of tile `t` is input `128 t + q`, so the four tiles are the four consecutive blocks of 128 of the sum over
    `Fin 512 = Fin (4 · 128)`. -/
theorem sum_four_tiles (f : Fin 512 → EReal) :
    (((0 + ∑ q : Fin 128, f (tileIx 0 q)) + ∑ q : Fin 128, f (tileIx 1 q)) + ∑ q : Fin 128, f (tileIx 2 q)) + ∑ q : Fin 128, f (tileIx 3 q)
      = ∑ i : Fin 512, f i :=
  (Cert.LibBlockSum.sum_fin_blocks4 128 (fun k : Fin (4 * 128) => f k)).symm

/-- The signals of the whole cell restricted to the tile of outputs `to` and inputs `ti`. -/
def tileOf (S : Signals nb 512 512) (tO tI : Fin 4) : Signals nb 128 128 where
  label b p := S.label b (tileIx tO p)
  pred b p := S.pred b (tileIx tO p)
  err b p := S.err b (tileIx tO p)
  outp b p := S.outp b (tileIx tO p)
  wt p q := S.wt (tileIx tO p) (tileIx tI q)
  hid b q h := S.hid b (tileIx tI q) h
  inp b q := S.inp b (tileIx tI q)

/-- Each of the eleven features of the restricted signals at `(b, p, q)` is that feature of the whole cell at output
    `tileIx tO p` and input `tileIx tI q`: the restriction reads every signal pointwise. -/
theorem feature_tileOf (S : Signals nb 512 512) (tO tI : Fin 4) (b : Fin nb) (p q : Fin 128) (f : Fin 11) :
    feature (tileOf S tO tI) b p q f = feature S b (tileIx tO p) (tileIx tI q) f := by
  unfold feature
  split <;> rfl

/-- The network's outputs on a tile are its outputs on the whole cell at the tile's positions: the features agree one
    by one, and the network and the order of its sums are the same on both sides. -/
theorem upd_tileOf (S : Signals nb 512 512) (N : Net) (tO tI : Fin 4) (b : Fin nb) (p q : Fin 128) (u : Fin 6) :
    upd (tileOf S tO tI) N b p q u = upd S N b (tileIx tO p) (tileIx tI q) u := by
  unfold upd pre
  simp only [feature_tileOf]

/-- The grouped arrangement on a tile is the plain arrangement on the whole cell at the tile's positions. -/
theorem updChunks_tileOf (S : Signals nb 512 512) (N : Net) (tO tI : Fin 4) (b : Fin nb) (p q : Fin 128) (u : Fin 6) :
    updChunks (tileOf S tO tI) N b p q u = upd S N b (tileIx tO p) (tileIx tI q) u := by
  rw [updChunks_eq, upd_tileOf]

end Cert.CellSpec

end
-- ==== Proof.WholeSpec.lean ====
/-
  The whole arrays as the cell's signals and network, and the three whole-array functions the two regions leave behind:
  the new weight at (output, input), the new hidden state at (sample, output, state), and the cell's output at
  (sample, output). A grid point `t` of the first region works on the tile of outputs `t / 4` and inputs `t % 4`.
-/
import proofs.«167862_j23304492548723_1_alg».proof.Proof.TileDataIdeal
import proofs.«167862_j23304492548723_1_alg».proof.Proof.Views
import proofs.«167862_j23304492548723_1_alg».proof.Proof.Regroup

noncomputable section

namespace Cert.KernelIdeal.Whole

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.CellSpec

variable (V : (c : Dev nD) → (b : Ref sig .tc) → Buf (Elt Ideal) ((c : Thread nD τ).loc b))

/-- The cell's signals, from the arrays the first region finds. -/
def sigs (c : Dev nD) : Signals 16 512 512 :=
  signalsOf (V c main_arg1 : S16x512.Idx → EReal) (V c main_arg2 : S16x512.Idx → EReal) (V c main_arg3 : S16x512.Idx → EReal)
    (V c main_arg5 : S16x512.Idx → EReal) (V c main_arg7 : S512x512.Idx → EReal) (V c main_arg6 : S16x512x5.Idx → EReal)
    (V c main_arg4 : S16x512.Idx → EReal)

/-- The small network, from its four arrays. -/
def nets (c : Dev nD) : Net :=
  netOf (V c main_arg9 : S32x11.Idx → EReal) (V c main_arg10 : S32.Idx → EReal) (V c main_arg11 : S6x32.Idx → EReal)
    (V c main_arg12 : S6.Idx → EReal)

/-- The row of tiles (which 128 outputs) point `t` works on. -/
def rowOf (t : Fin cfg0.N) : Fin 4 := ⟨t.val / 4, by have := lt_of_lt_of_eq t.isLt N_0; omega⟩
/-- The tile of its row (which 128 inputs) point `t` works on. -/
def colOf (t : Fin cfg0.N) : Fin 4 := ⟨t.val % 4, Nat.mod_lt _ (by decide)⟩

/-- The new weight, as one function of the array index. -/
def weightG (c : Dev nD) : S512x512.Idx → EReal := fun j => newWeight (sigs V c) (nets V c) d16 (j 0) (j 1)
/-- The new hidden state, as one function of the array index. -/
def hiddenG (c : Dev nD) : S16x512x5.Idx → EReal := fun j => newHidden (sigs V c) (nets V c) d512 (j 0) (j 1) (j 2)

theorem weightG_apply (c : Dev nD) (o i : Fin 512) : weightG V c (ix2 o i) = newWeight (sigs V c) (nets V c) d16 o i := rfl
theorem hiddenG_apply (c : Dev nD) (b : Fin 16) (o : Fin 512) (u : Fin 5) :
    hiddenG V c (ix3 b o u) = newHidden (sigs V c) (nets V c) d512 b o u := rfl

end Cert.KernelIdeal.Whole

end
-- ==== Proof.TileBlocks.lean ====
/-
  The eleven blocks a grid point of the first region loads are the whole arrays restricted to the point's tile: the four
  (sample, output) signals to the point's 128 outputs, the weight to its 128 outputs and 128 inputs, the hidden states
  and the previous input to its 128 inputs; the small network's four arrays are loaded whole at every point.

  Point `t` of the four-by-four grid is tile `t % 4` of row `t / 4`. On every axis a block's coordinate in its array is
  (the block's index on that axis) × (the block's extent) + (the coordinate inside the block). The block indices are
  decided once over the sixteen points: an axis that is not tiled has index 0, the output axis has index `t / 4`, the
  input axis has index `t % 4`. So position `p` of a tiled axis is position `128 (t / 4) + p` or `128 (t % 4) + p` of
  the whole axis, which is `tileIx` of the row or of the tile; an axis that is not tiled keeps its coordinate.
-/
import proofs.«167862_j23304492548723_1_alg».proof.Proof.WholeSpec
import Idealize.ShloMosaic.Lib.Pipeline.Value

noncomputable section

namespace Cert.KernelIdeal.Whole

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.CellSpec

variable (V : (c : Dev nD) → (b : Ref sig .tc) → Buf (Elt Ideal) ((c : Thread nD τ).loc b))

/-! ## The block indices, decided over the grid -/

/-- The (sample, output) windows: all 16 samples, the outputs of row `t / 4`. -/
theorem idx_sample_output : ∀ t : Fin cfg0.N,
    (win0_0.index t (0 : Fin 2) = 0 ∧ win0_0.index t (1 : Fin 2) = t.val / 4)
    ∧ (win0_1.index t (0 : Fin 2) = 0 ∧ win0_1.index t (1 : Fin 2) = t.val / 4)
    ∧ (win0_2.index t (0 : Fin 2) = 0 ∧ win0_2.index t (1 : Fin 2) = t.val / 4)
    ∧ (win0_3.index t (0 : Fin 2) = 0 ∧ win0_3.index t (1 : Fin 2) = t.val / 4) :=
  (by decide +kernel : ∀ t : Fin grid0.N, _)

/-- The weight window: the outputs of row `t / 4`, the inputs of tile `t % 4`. -/
theorem idx_weight : ∀ t : Fin cfg0.N,
    win0_4.index t (0 : Fin 2) = t.val / 4 ∧ win0_4.index t (1 : Fin 2) = t.val % 4 :=
  (by decide +kernel : ∀ t : Fin grid0.N, _)

/-- The (sample, input) windows: all 16 samples, the inputs of tile `t % 4`, and all five hidden states. -/
theorem idx_sample_input : ∀ t : Fin cfg0.N,
    (win0_5.index t (0 : Fin 3) = 0 ∧ win0_5.index t (1 : Fin 3) = t.val % 4 ∧ win0_5.index t (2 : Fin 3) = 0)
    ∧ (win0_6.index t (0 : Fin 2) = 0 ∧ win0_6.index t (1 : Fin 2) = t.val % 4) :=
  (by decide +kernel : ∀ t : Fin grid0.N, _)

/-- The small network's four windows: whole at every point. -/
theorem idx_net : ∀ t : Fin cfg0.N,
    (win0_7.index t (0 : Fin 2) = 0 ∧ win0_7.index t (1 : Fin 2) = 0)
    ∧ win0_8.index t (0 : Fin 1) = 0
    ∧ (win0_9.index t (0 : Fin 2) = 0 ∧ win0_9.index t (1 : Fin 2) = 0)
    ∧ win0_10.index t (0 : Fin 1) = 0 :=
  (by decide +kernel : ∀ t : Fin grid0.N, _)

/-! ## Each block read at its local index -/

/-- The label block at (sample `b`, position `p`) is the label at output `128 (t / 4) + p`. -/
theorem b0_at (c : Dev nD) (t : Fin cfg0.N) (b : Fin 16) (p : Fin 128) :
    Tile.b0 V c t (ix2 b p) = (V c main_arg1 : S16x512.Idx → EReal) (ix2 b (tileIx (rowOf t) p)) := by
  obtain ⟨⟨e0, e1⟩, -, -, -⟩ := idx_sample_output t
  show (V c main_arg1 : S16x512.Idx → EReal) (((cfg0.win 0).blk t).view.emb (ix2 b p)) = _
  congr 1
  funext a; apply Fin.ext
  match a with
  | ⟨0, _⟩ => show win0_0.index t (0 : Fin 2) * 16 + 1 * b.val = b.val; omega
  | ⟨1, _⟩ => show win0_0.index t (1 : Fin 2) * 128 + 1 * p.val = (t.val / 4) * 128 + p.val; omega

/-- The prediction block at (sample `b`, position `p`) is the prediction at output `128 (t / 4) + p`. -/
theorem b1_at (c : Dev nD) (t : Fin cfg0.N) (b : Fin 16) (p : Fin 128) :
    Tile.b1 V c t (ix2 b p) = (V c main_arg2 : S16x512.Idx → EReal) (ix2 b (tileIx (rowOf t) p)) := by
  obtain ⟨-, ⟨e0, e1⟩, -, -⟩ := idx_sample_output t
  show (V c main_arg2 : S16x512.Idx → EReal) (((cfg0.win 1).blk t).view.emb (ix2 b p)) = _
  congr 1
  funext a; apply Fin.ext
  match a with
  | ⟨0, _⟩ => show win0_1.index t (0 : Fin 2) * 16 + 1 * b.val = b.val; omega
  | ⟨1, _⟩ => show win0_1.index t (1 : Fin 2) * 128 + 1 * p.val = (t.val / 4) * 128 + p.val; omega

/-- The error block at (sample `b`, position `p`) is the error at output `128 (t / 4) + p`. -/
theorem b2_at (c : Dev nD) (t : Fin cfg0.N) (b : Fin 16) (p : Fin 128) :
    Tile.b2 V c t (ix2 b p) = (V c main_arg3 : S16x512.Idx → EReal) (ix2 b (tileIx (rowOf t) p)) := by
  obtain ⟨-, -, ⟨e0, e1⟩, -⟩ := idx_sample_output t
  show (V c main_arg3 : S16x512.Idx → EReal) (((cfg0.win 2).blk t).view.emb (ix2 b p)) = _
  congr 1
  funext a; apply Fin.ext
  match a with
  | ⟨0, _⟩ => show win0_2.index t (0 : Fin 2) * 16 + 1 * b.val = b.val; omega
  | ⟨1, _⟩ => show win0_2.index t (1 : Fin 2) * 128 + 1 * p.val = (t.val / 4) * 128 + p.val; omega

/-- The previous-output block at (sample `b`, position `p`) is the previous output at output `128 (t / 4) + p`. -/
theorem b3_at (c : Dev nD) (t : Fin cfg0.N) (b : Fin 16) (p : Fin 128) :
    Tile.b3 V c t (ix2 b p) = (V c main_arg5 : S16x512.Idx → EReal) (ix2 b (tileIx (rowOf t) p)) := by
  obtain ⟨-, -, -, ⟨e0, e1⟩⟩ := idx_sample_output t
  show (V c main_arg5 : S16x512.Idx → EReal) (((cfg0.win 3).blk t).view.emb (ix2 b p)) = _
  congr 1
  funext a; apply Fin.ext
  match a with
  | ⟨0, _⟩ => show win0_3.index t (0 : Fin 2) * 16 + 1 * b.val = b.val; omega
  | ⟨1, _⟩ => show win0_3.index t (1 : Fin 2) * 128 + 1 * p.val = (t.val / 4) * 128 + p.val; omega

/-- The weight block at (position `p`, position `q`) is the weight at output `128 (t / 4) + p`, input `128 (t % 4) + q`. -/
theorem b4_at (c : Dev nD) (t : Fin cfg0.N) (p q : Fin 128) :
    Tile.b4 V c t (ix2 p q) = (V c main_arg7 : S512x512.Idx → EReal) (ix2 (tileIx (rowOf t) p) (tileIx (colOf t) q)) := by
  obtain ⟨e0, e1⟩ := idx_weight t
  show (V c main_arg7 : S512x512.Idx → EReal) (((cfg0.win 4).blk t).view.emb (ix2 p q)) = _
  congr 1
  funext a; apply Fin.ext
  match a with
  | ⟨0, _⟩ => show win0_4.index t (0 : Fin 2) * 128 + 1 * p.val = (t.val / 4) * 128 + p.val; omega
  | ⟨1, _⟩ => show win0_4.index t (1 : Fin 2) * 128 + 1 * q.val = (t.val % 4) * 128 + q.val; omega

/-- The hidden-state block at (sample `b`, position `q`, state `h`) is the hidden state at input `128 (t % 4) + q`. -/
theorem b5_at (c : Dev nD) (t : Fin cfg0.N) (b : Fin 16) (q : Fin 128) (h : Fin 5) :
    Tile.b5 V c t (ix3 b q h) = (V c main_arg6 : S16x512x5.Idx → EReal) (ix3 b (tileIx (colOf t) q) h) := by
  obtain ⟨⟨e0, e1, e2⟩, -⟩ := idx_sample_input t
  show (V c main_arg6 : S16x512x5.Idx → EReal) (((cfg0.win 5).blk t).view.emb (ix3 b q h)) = _
  congr 1
  funext a; apply Fin.ext
  match a with
  | ⟨0, _⟩ => show win0_5.index t (0 : Fin 3) * 16 + 1 * b.val = b.val; omega
  | ⟨1, _⟩ => show win0_5.index t (1 : Fin 3) * 128 + 1 * q.val = (t.val % 4) * 128 + q.val; omega
  | ⟨2, _⟩ => show win0_5.index t (2 : Fin 3) * 5 + 1 * h.val = h.val; omega

/-- The previous-input block at (sample `b`, position `q`) is the previous input at input `128 (t % 4) + q`. -/
theorem b6_at (c : Dev nD) (t : Fin cfg0.N) (b : Fin 16) (q : Fin 128) :
    Tile.b6 V c t (ix2 b q) = (V c main_arg4 : S16x512.Idx → EReal) (ix2 b (tileIx (colOf t) q)) := by
  obtain ⟨-, ⟨e0, e1⟩⟩ := idx_sample_input t
  show (V c main_arg4 : S16x512.Idx → EReal) (((cfg0.win 6).blk t).view.emb (ix2 b q)) = _
  congr 1
  funext a; apply Fin.ext
  match a with
  | ⟨0, _⟩ => show win0_6.index t (0 : Fin 2) * 16 + 1 * b.val = b.val; omega
  | ⟨1, _⟩ => show win0_6.index t (1 : Fin 2) * 128 + 1 * q.val = (t.val % 4) * 128 + q.val; omega

/-- The first layer's matrix is loaded whole. -/
theorem b7_at (c : Dev nD) (t : Fin cfg0.N) (g : Fin 32) (f : Fin 11) :
    Tile.b7 V c t (ix2 g f) = (V c main_arg9 : S32x11.Idx → EReal) (ix2 g f) := by
  obtain ⟨⟨e0, e1⟩, -, -, -⟩ := idx_net t
  show (V c main_arg9 : S32x11.Idx → EReal) (((cfg0.win 7).blk t).view.emb (ix2 g f)) = _
  congr 1
  funext a; apply Fin.ext
  match a with
  | ⟨0, _⟩ => show win0_7.index t (0 : Fin 2) * 32 + 1 * g.val = g.val; omega
  | ⟨1, _⟩ => show win0_7.index t (1 : Fin 2) * 11 + 1 * f.val = f.val; omega

/-- The first layer's bias is loaded whole. -/
theorem b8_at (c : Dev nD) (t : Fin cfg0.N) (g : Fin 32) :
    Tile.b8 V c t (ix1 g) = (V c main_arg10 : S32.Idx → EReal) (ix1 g) := by
  obtain ⟨-, e0, -, -⟩ := idx_net t
  show (V c main_arg10 : S32.Idx → EReal) (((cfg0.win 8).blk t).view.emb (ix1 g)) = _
  congr 1
  funext a; apply Fin.ext
  match a with
  | ⟨0, _⟩ => show win0_8.index t (0 : Fin 1) * 32 + 1 * g.val = g.val; omega

/-- The second layer's matrix is loaded whole. -/
theorem b9_at (c : Dev nD) (t : Fin cfg0.N) (u : Fin 6) (g : Fin 32) :
    Tile.b9 V c t (ix2 u g) = (V c main_arg11 : S6x32.Idx → EReal) (ix2 u g) := by
  obtain ⟨-, -, ⟨e0, e1⟩, -⟩ := idx_net t
  show (V c main_arg11 : S6x32.Idx → EReal) (((cfg0.win 9).blk t).view.emb (ix2 u g)) = _
  congr 1
  funext a; apply Fin.ext
  match a with
  | ⟨0, _⟩ => show win0_9.index t (0 : Fin 2) * 6 + 1 * u.val = u.val; omega
  | ⟨1, _⟩ => show win0_9.index t (1 : Fin 2) * 32 + 1 * g.val = g.val; omega

/-- The second layer's bias is loaded whole. -/
theorem b10_at (c : Dev nD) (t : Fin cfg0.N) (u : Fin 6) :
    Tile.b10 V c t (ix1 u) = (V c main_arg12 : S6.Idx → EReal) (ix1 u) := by
  obtain ⟨-, -, -, e0⟩ := idx_net t
  show (V c main_arg12 : S6.Idx → EReal) (((cfg0.win 10).blk t).view.emb (ix1 u)) = _
  congr 1
  funext a; apply Fin.ext
  match a with
  | ⟨0, _⟩ => show win0_10.index t (0 : Fin 1) * 6 + 1 * u.val = u.val; omega

/-! ## The blocks as the cell's signals and network -/

/-- The seven signal blocks of point `t`, gathered as signals of a 128-by-128 cell, are the whole cell's signals restricted
    to the tile of outputs `t / 4` and inputs `t % 4`: field by field, a block read at its coordinates is the whole array
    read at the tile's coordinates. -/
theorem signals_at (c : Dev nD) (t : Fin cfg0.N) :
    signalsOf (Tile.b0 V c t) (Tile.b1 V c t) (Tile.b2 V c t) (Tile.b3 V c t) (Tile.b4 V c t) (Tile.b5 V c t) (Tile.b6 V c t)
      = tileOf (sigs V c) (rowOf t) (colOf t) := by
  unfold signalsOf tileOf
  congr 1
  · funext b p; exact b0_at V c t b p
  · funext b p; exact b1_at V c t b p
  · funext b p; exact b2_at V c t b p
  · funext b p; exact b3_at V c t b p
  · funext p q; exact b4_at V c t p q
  · funext b q h; exact b5_at V c t b q h
  · funext b q; exact b6_at V c t b q

/-- The four network blocks of any point are the network's four arrays: each is loaded whole. -/
theorem net_at (c : Dev nD) (t : Fin cfg0.N) :
    netOf (Tile.b7 V c t) (Tile.b8 V c t) (Tile.b9 V c t) (Tile.b10 V c t) = nets V c := by
  unfold nets netOf
  congr 1
  · funext g f; exact b7_at V c t g f
  · funext g; exact b8_at V c t g
  · funext u g; exact b9_at V c t u g
  · funext u; exact b10_at V c t u

end Cert.KernelIdeal.Whole

end
-- ==== Proof.TileRead.lean ====
/-
  The small network's six outputs over one tile, read at an index: at sample `b`, output `p` and input `q` of the tile
  the value is the grouped form of the specification — the three partial products of the first layer added, `tanh`, and
  the second layer taken in four groups of eight hidden units into a zero accumulator, then its bias.

  How the reading goes. The tile's value is an accumulator that starts at zero, takes four additions — one per group of
  eight hidden units — and then the second layer's bias. Each addition is the same chain of operations over that
  group's rows of the first layer and columns of the second (`group8`); the four are written differently in the
  program (the first whole, the second over three values formed beforehand, the third in line, the fourth over two
  operands formed beforehand), and each is by definition that one chain. Read at `(b, p, q, u)`, the chain is
  `∑ r, tanh (((∑ k, X b p k * A r k) + wt p q * A1 r) + (∑ k, Y b q k * B r k) + c1 r) * W u r`:
  a block product read at an entry is the sum over the contracted position of row entry times column entry; a
  reshape keeps the row-major position, so sample `b` and output `p` sit at row `b * 128 + p` of 2048, and
  `(b, p, q)` at row `(b * 128 + p) * 128 + q` of 262144; a spread over an axis forgets that axis's coordinate; a
  joined block reads the piece its last coordinate names. With the group's rows and columns named as hidden units
  `unit c r` of the whole layers this is the specification's `chunk … c`.
-/
import proofs.«167862_j23304492548723_1_alg».proof.Proof.TermsIdeal
import proofs.«167862_j23304492548723_1_alg».proof.Proof.Views
import Idealize.ShloMosaic.Lib.Pipeline.Value
import Idealize.ShloMosaic.Lib.ValueLayout
import Idealize.ShloMosaic.PureOps.Ideal.Laws

noncomputable section

namespace Cert.KernelIdeal.TileRead

open Idealize.ShloMosaic Idealize.ShloMosaic.ValueIdx Idealize.SL.Sem Cert.KernelIdeal Cert.KernelIdeal.Gen Cert.CellSpec

/-! ## The three block products at an entry

Each product contracts the left block's second axis with the right block's first. For each of the three the four
axis facts come first — on the left operand axis 0 is the result's row and axis 1 the contracted position, on the right
axis 0 is the contracted position and axis 1 the result's column —, then the product at `(m, n)` as the sum over the
contracted position `k` of the left block at `(m, k)` times the right block at `(k, n)`. -/

theorem lhsA_0 (i : S2048x8.Idx) (q : dot_S2048x4_S4x8_S2048x8_1_0_0_1_n_n.contr.Idx) :
    (dot_S2048x4_S4x8_S2048x8_1_0_0_1_n_n.lhsIdx i q 0).val = (i 0).val := by
  unfold DotDims.lhsIdx
  rw [dif_neg (show ¬(0 : Fin S2048x4.rank) ∈ dot_S2048x4_S4x8_S2048x8_1_0_0_1_n_n.lhsBatch by decide), dif_pos (show (0 : Fin S2048x4.rank) ∈ dot_S2048x4_S4x8_S2048x8_1_0_0_1_n_n.lhsNonContracting by decide)]
  rfl
theorem lhsA_1 (i : S2048x8.Idx) (q : dot_S2048x4_S4x8_S2048x8_1_0_0_1_n_n.contr.Idx) :
    (dot_S2048x4_S4x8_S2048x8_1_0_0_1_n_n.lhsIdx i q 1).val = (q ⟨0, by decide⟩).val :=
  dot_S2048x4_S4x8_S2048x8_1_0_0_1_n_n.lhsIdx_val_of_single rfl i q
theorem rhsA_0 (i : S2048x8.Idx) (q : dot_S2048x4_S4x8_S2048x8_1_0_0_1_n_n.contr.Idx) :
    (dot_S2048x4_S4x8_S2048x8_1_0_0_1_n_n.rhsIdx i q 0).val = (q ⟨0, by decide⟩).val :=
  dot_S2048x4_S4x8_S2048x8_1_0_0_1_n_n.rhsIdx_val_of_single rfl i q
theorem rhsA_1 (i : S2048x8.Idx) (q : dot_S2048x4_S4x8_S2048x8_1_0_0_1_n_n.contr.Idx) :
    (dot_S2048x4_S4x8_S2048x8_1_0_0_1_n_n.rhsIdx i q 1).val = (i 1).val := by
  unfold DotDims.rhsIdx
  rw [dif_neg (show ¬(1 : Fin S4x8.rank) ∈ dot_S2048x4_S4x8_S2048x8_1_0_0_1_n_n.rhsBatch by decide), dif_pos (show (1 : Fin S4x8.rank) ∈ dot_S2048x4_S4x8_S2048x8_1_0_0_1_n_n.rhsNonContracting by decide)]
  rfl

/-- The product of a [2048, 4] block with a [4, 8] block into the zero splat, at row `m` and column `n`: the sum over the
    four contracted positions of the left block's row entry times the right block's column entry. -/
theorem mmA_apply (Lh : FVec Ideal S2048x4 .f32) (Rh : FVec Ideal S4x8 .f32) (m : Fin 2048) (n : Fin 8) :
    matmul dot_S2048x4_S4x8_S2048x8_1_0_0_1_n_n none Lh Rh (constant (F := Ideal) S2048x8 .f32 0x00000000#32) (ix2 m n)
      = ∑ k : Fin 4, Lh (ix2 m k) * Rh (ix2 k n) := by
  simp only [matmul]
  rw [Ideal.matmul_constant_zero_apply, ← Equiv.sum_comp (contrEquiv1 dot_S2048x4_S4x8_S2048x8_1_0_0_1_n_n 4 rfl rfl).symm]
  refine Finset.sum_congr rfl fun k _ => ?_
  have hk := contrEquiv1_symm_val dot_S2048x4_S4x8_S2048x8_1_0_0_1_n_n 4 rfl rfl k
  have el : dot_S2048x4_S4x8_S2048x8_1_0_0_1_n_n.lhsIdx (ix2 m n) ((contrEquiv1 dot_S2048x4_S4x8_S2048x8_1_0_0_1_n_n 4 rfl rfl).symm k) = ix2 m k := funext fun a => Fin.ext (by
    match a with
    | ⟨0, _⟩ => exact lhsA_0 _ _
    | ⟨1, _⟩ => exact (lhsA_1 _ _).trans hk)
  have er : dot_S2048x4_S4x8_S2048x8_1_0_0_1_n_n.rhsIdx (ix2 m n) ((contrEquiv1 dot_S2048x4_S4x8_S2048x8_1_0_0_1_n_n 4 rfl rfl).symm k) = ix2 k n := funext fun a => Fin.ext (by
    match a with
    | ⟨0, _⟩ => exact (rhsA_0 _ _).trans hk
    | ⟨1, _⟩ => exact rhsA_1 _ _)
  rw [el, er]

theorem lhsB_0 (i : S2048x8.Idx) (q : dot_S2048x6_S6x8_S2048x8_1_0_0_1_n_n.contr.Idx) :
    (dot_S2048x6_S6x8_S2048x8_1_0_0_1_n_n.lhsIdx i q 0).val = (i 0).val := by
  unfold DotDims.lhsIdx
  rw [dif_neg (show ¬(0 : Fin S2048x6.rank) ∈ dot_S2048x6_S6x8_S2048x8_1_0_0_1_n_n.lhsBatch by decide), dif_pos (show (0 : Fin S2048x6.rank) ∈ dot_S2048x6_S6x8_S2048x8_1_0_0_1_n_n.lhsNonContracting by decide)]
  rfl
theorem lhsB_1 (i : S2048x8.Idx) (q : dot_S2048x6_S6x8_S2048x8_1_0_0_1_n_n.contr.Idx) :
    (dot_S2048x6_S6x8_S2048x8_1_0_0_1_n_n.lhsIdx i q 1).val = (q ⟨0, by decide⟩).val :=
  dot_S2048x6_S6x8_S2048x8_1_0_0_1_n_n.lhsIdx_val_of_single rfl i q
theorem rhsB_0 (i : S2048x8.Idx) (q : dot_S2048x6_S6x8_S2048x8_1_0_0_1_n_n.contr.Idx) :
    (dot_S2048x6_S6x8_S2048x8_1_0_0_1_n_n.rhsIdx i q 0).val = (q ⟨0, by decide⟩).val :=
  dot_S2048x6_S6x8_S2048x8_1_0_0_1_n_n.rhsIdx_val_of_single rfl i q
theorem rhsB_1 (i : S2048x8.Idx) (q : dot_S2048x6_S6x8_S2048x8_1_0_0_1_n_n.contr.Idx) :
    (dot_S2048x6_S6x8_S2048x8_1_0_0_1_n_n.rhsIdx i q 1).val = (i 1).val := by
  unfold DotDims.rhsIdx
  rw [dif_neg (show ¬(1 : Fin S6x8.rank) ∈ dot_S2048x6_S6x8_S2048x8_1_0_0_1_n_n.rhsBatch by decide), dif_pos (show (1 : Fin S6x8.rank) ∈ dot_S2048x6_S6x8_S2048x8_1_0_0_1_n_n.rhsNonContracting by decide)]
  rfl

/-- The product of a [2048, 6] block with a [6, 8] block into the zero splat, at row `m` and column `n`. -/
theorem mmB_apply (Lh : FVec Ideal S2048x6 .f32) (Rh : FVec Ideal S6x8 .f32) (m : Fin 2048) (n : Fin 8) :
    matmul dot_S2048x6_S6x8_S2048x8_1_0_0_1_n_n none Lh Rh (constant (F := Ideal) S2048x8 .f32 0x00000000#32) (ix2 m n)
      = ∑ k : Fin 6, Lh (ix2 m k) * Rh (ix2 k n) := by
  simp only [matmul]
  rw [Ideal.matmul_constant_zero_apply, ← Equiv.sum_comp (contrEquiv1 dot_S2048x6_S6x8_S2048x8_1_0_0_1_n_n 6 rfl rfl).symm]
  refine Finset.sum_congr rfl fun k _ => ?_
  have hk := contrEquiv1_symm_val dot_S2048x6_S6x8_S2048x8_1_0_0_1_n_n 6 rfl rfl k
  have el : dot_S2048x6_S6x8_S2048x8_1_0_0_1_n_n.lhsIdx (ix2 m n) ((contrEquiv1 dot_S2048x6_S6x8_S2048x8_1_0_0_1_n_n 6 rfl rfl).symm k) = ix2 m k := funext fun a => Fin.ext (by
    match a with
    | ⟨0, _⟩ => exact lhsB_0 _ _
    | ⟨1, _⟩ => exact (lhsB_1 _ _).trans hk)
  have er : dot_S2048x6_S6x8_S2048x8_1_0_0_1_n_n.rhsIdx (ix2 m n) ((contrEquiv1 dot_S2048x6_S6x8_S2048x8_1_0_0_1_n_n 6 rfl rfl).symm k) = ix2 k n := funext fun a => Fin.ext (by
    match a with
    | ⟨0, _⟩ => exact (rhsB_0 _ _).trans hk
    | ⟨1, _⟩ => exact rhsB_1 _ _)
  rw [el, er]

theorem lhsC_0 (i : S262144x6.Idx) (q : dot_S262144x8_S8x6_S262144x6_1_0_0_1_n_n.contr.Idx) :
    (dot_S262144x8_S8x6_S262144x6_1_0_0_1_n_n.lhsIdx i q 0).val = (i 0).val := by
  unfold DotDims.lhsIdx
  rw [dif_neg (show ¬(0 : Fin S262144x8.rank) ∈ dot_S262144x8_S8x6_S262144x6_1_0_0_1_n_n.lhsBatch by decide), dif_pos (show (0 : Fin S262144x8.rank) ∈ dot_S262144x8_S8x6_S262144x6_1_0_0_1_n_n.lhsNonContracting by decide)]
  rfl
theorem lhsC_1 (i : S262144x6.Idx) (q : dot_S262144x8_S8x6_S262144x6_1_0_0_1_n_n.contr.Idx) :
    (dot_S262144x8_S8x6_S262144x6_1_0_0_1_n_n.lhsIdx i q 1).val = (q ⟨0, by decide⟩).val :=
  dot_S262144x8_S8x6_S262144x6_1_0_0_1_n_n.lhsIdx_val_of_single rfl i q
theorem rhsC_0 (i : S262144x6.Idx) (q : dot_S262144x8_S8x6_S262144x6_1_0_0_1_n_n.contr.Idx) :
    (dot_S262144x8_S8x6_S262144x6_1_0_0_1_n_n.rhsIdx i q 0).val = (q ⟨0, by decide⟩).val :=
  dot_S262144x8_S8x6_S262144x6_1_0_0_1_n_n.rhsIdx_val_of_single rfl i q
theorem rhsC_1 (i : S262144x6.Idx) (q : dot_S262144x8_S8x6_S262144x6_1_0_0_1_n_n.contr.Idx) :
    (dot_S262144x8_S8x6_S262144x6_1_0_0_1_n_n.rhsIdx i q 1).val = (i 1).val := by
  unfold DotDims.rhsIdx
  rw [dif_neg (show ¬(1 : Fin S8x6.rank) ∈ dot_S262144x8_S8x6_S262144x6_1_0_0_1_n_n.rhsBatch by decide), dif_pos (show (1 : Fin S8x6.rank) ∈ dot_S262144x8_S8x6_S262144x6_1_0_0_1_n_n.rhsNonContracting by decide)]
  rfl

/-- The product of a [262144, 8] block with an [8, 6] block into the zero splat, at row `m` and column `n`. -/
theorem mmC_apply (Lh : FVec Ideal S262144x8 .f32) (Rh : FVec Ideal S8x6 .f32) (m : Fin 262144) (n : Fin 6) :
    matmul dot_S262144x8_S8x6_S262144x6_1_0_0_1_n_n none Lh Rh (constant (F := Ideal) S262144x6 .f32 0x00000000#32) (ix2 m n)
      = ∑ k : Fin 8, Lh (ix2 m k) * Rh (ix2 k n) := by
  simp only [matmul]
  rw [Ideal.matmul_constant_zero_apply, ← Equiv.sum_comp (contrEquiv1 dot_S262144x8_S8x6_S262144x6_1_0_0_1_n_n 8 rfl rfl).symm]
  refine Finset.sum_congr rfl fun k _ => ?_
  have hk := contrEquiv1_symm_val dot_S262144x8_S8x6_S262144x6_1_0_0_1_n_n 8 rfl rfl k
  have el : dot_S262144x8_S8x6_S262144x6_1_0_0_1_n_n.lhsIdx (ix2 m n) ((contrEquiv1 dot_S262144x8_S8x6_S262144x6_1_0_0_1_n_n 8 rfl rfl).symm k) = ix2 m k := funext fun a => Fin.ext (by
    match a with
    | ⟨0, _⟩ => exact lhsC_0 _ _
    | ⟨1, _⟩ => exact (lhsC_1 _ _).trans hk)
  have er : dot_S262144x8_S8x6_S262144x6_1_0_0_1_n_n.rhsIdx (ix2 m n) ((contrEquiv1 dot_S262144x8_S8x6_S262144x6_1_0_0_1_n_n 8 rfl rfl).symm k) = ix2 k n := funext fun a => Fin.ext (by
    match a with
    | ⟨0, _⟩ => exact (rhsC_0 _ _).trans hk
    | ⟨1, _⟩ => exact rhsC_1 _ _)
  rw [el, er]

/-! ## Reshapes at an index: a leading pair or triple of axes flattened row-major -/

/-- Sample `b` and row `p` flattened to row `b * 128 + p` of 2048. -/
def row2 (b : Fin 16) (p : Fin 128) : Fin 2048 := ⟨b.val * 128 + p.val, by have := b.isLt; have := p.isLt; omega⟩
/-- Sample `b`, row `p` and column `q` flattened to row `(b * 128 + p) * 128 + q` of 262144. -/
def row3 (b : Fin 16) (p q : Fin 128) : Fin 262144 :=
  ⟨(b.val * 128 + p.val) * 128 + q.val, by have := b.isLt; have := p.isLt; have := q.isLt; omega⟩

theorem flat3_apply {n : ℕ} {α : Type} (x : (⟨3, ![16, 128, n]⟩ : Shape).Idx → α)
    (h : (⟨3, ![16, 128, n]⟩ : Shape).ShapeCasts ⟨2, ![2048, n]⟩) (b : Fin 16) (p : Fin 128) (k : Fin n) :
    shapeCast ⟨2, ![2048, n]⟩ x h (ix2 (row2 b p) k) = x (ix3 b p k) :=
  shapeCast_apply x h _ _ (by
    rw [Shape.rowMajor_val_two, Shape.rowMajor_val_three]
    show (b.val * 128 + p.val) * n + k.val = (b.val * 128 + p.val) * n + k.val
    rfl)

theorem unflat3_apply {n : ℕ} {α : Type} (x : (⟨2, ![2048, n]⟩ : Shape).Idx → α)
    (h : (⟨2, ![2048, n]⟩ : Shape).ShapeCasts ⟨3, ![16, 128, n]⟩) (b : Fin 16) (p : Fin 128) (k : Fin n) :
    shapeCast ⟨3, ![16, 128, n]⟩ x h (ix3 b p k) = x (ix2 (row2 b p) k) :=
  shapeCast_apply x h _ _ (by
    rw [Shape.rowMajor_val_two, Shape.rowMajor_val_three]
    show (b.val * 128 + p.val) * n + k.val = (b.val * 128 + p.val) * n + k.val
    rfl)

theorem flat4_apply {n : ℕ} {α : Type} (x : (⟨4, ![16, 128, 128, n]⟩ : Shape).Idx → α)
    (h : (⟨4, ![16, 128, 128, n]⟩ : Shape).ShapeCasts ⟨2, ![262144, n]⟩) (b : Fin 16) (p q : Fin 128) (k : Fin n) :
    shapeCast ⟨2, ![262144, n]⟩ x h (ix2 (row3 b p q) k) = x (ix4 b p q k) :=
  shapeCast_apply x h _ _ (by
    rw [Shape.rowMajor_val_two, Shape.rowMajor_val_four]
    show ((b.val * 128 + p.val) * 128 + q.val) * n + k.val = ((b.val * 128 + p.val) * 128 + q.val) * n + k.val
    rfl)

theorem unflat4_apply {n : ℕ} {α : Type} (x : (⟨2, ![262144, n]⟩ : Shape).Idx → α)
    (h : (⟨2, ![262144, n]⟩ : Shape).ShapeCasts ⟨4, ![16, 128, 128, n]⟩) (b : Fin 16) (p q : Fin 128) (k : Fin n) :
    shapeCast ⟨4, ![16, 128, 128, n]⟩ x h (ix4 b p q k) = x (ix2 (row3 b p q) k) :=
  shapeCast_apply x h _ _ (by
    rw [Shape.rowMajor_val_two, Shape.rowMajor_val_four]
    show ((b.val * 128 + p.val) * 128 + q.val) * n + k.val = ((b.val * 128 + p.val) * 128 + q.val) * n + k.val
    rfl)

/-! ## One group of eight hidden units over explicit operands

The kernel forms the same five values for each group of eight hidden units, from that group's rows of the first layer
(`A`: the four columns of the (sample, output) features; `A1`: the weight's column; `Bm`: the six columns of the
(sample, input) features; `c1`: the bias) and its columns of the second layer (`W`). -/

/-- The (sample, output) features times the group's rows: a [16, 128, 8] block. -/
def boProj (X : FVec Ideal S16x128x4 .f32) (A : FVec Ideal S8x4 .f32) : FVec Ideal S16x128x8 .f32 :=
  shapeCast S16x128x8
    (matmul dot_S2048x4_S4x8_S2048x8_1_0_0_1_n_n none (shapeCast S2048x4 X shapeCasts_S16x128x4_S2048x4)
      (transpose S4x8 [1, 0] A transposes_S8x4_p1_0_S4x8) (constant S2048x8 .f32 0x00000000#32))
    shapeCasts_S2048x8_S16x128x8

/-- The (sample, input) features times the group's rows: a [16, 128, 8] block. -/
def biProj (Y : FVec Ideal S16x128x6 .f32) (Bm : FVec Ideal S8x6 .f32) : FVec Ideal S16x128x8 .f32 :=
  shapeCast S16x128x8
    (matmul dot_S2048x6_S6x8_S2048x8_1_0_0_1_n_n none (shapeCast S2048x6 Y shapeCasts_S16x128x6_S2048x6)
      (transpose S6x8 [1, 0] Bm transposes_S8x6_p1_0_S6x8) (constant S2048x8 .f32 0x00000000#32))
    shapeCasts_S2048x8_S16x128x8

/-- The weight tile times the group's entries of the weight's column: a [128, 128, 8] block. -/
def oiTerm (v7 : Vec Ideal S128x128 .f32) (A1 : FVec Ideal S8x1 .f32) : FVec Ideal S128x128x8 .f32 :=
  mulf (broadcastTo S128x128x8 (shapeCast S128x128x1 v7 shapeCasts_S128x128_S128x128x1) broadcasts_S128x128x1_S128x128x8)
    (broadcastTo S128x128x8 (shapeCast S1x1x8 (shapeCast S8 A1 shapeCasts_S8x1_S8) shapeCasts_S8_S1x1x8) broadcasts_S1x1x8_S128x128x8)

/-- The (sample, output) block spread over the inputs. -/
def boWide (bo : FVec Ideal S16x128x8 .f32) : FVec Ideal S16x128x128x8 .f32 :=
  broadcastTo S16x128x128x8 (shapeCast S16x128x1x8 bo shapeCasts_S16x128x8_S16x128x1x8) broadcasts_S16x128x1x8_S16x128x128x8
/-- The weight block spread over the samples. -/
def oiWide (oi : FVec Ideal S128x128x8 .f32) : FVec Ideal S16x128x128x8 .f32 :=
  broadcastTo S16x128x128x8 (shapeCast S1x128x128x8 oi shapeCasts_S128x128x8_S1x128x128x8) broadcasts_S1x128x128x8_S16x128x128x8
/-- The (sample, input) block spread over the outputs. -/
def biWide (bi : FVec Ideal S16x128x8 .f32) : FVec Ideal S16x128x128x8 .f32 :=
  broadcastTo S16x128x128x8 (shapeCast S16x1x128x8 bi shapeCasts_S16x128x8_S16x1x128x8) broadcasts_S16x1x128x8_S16x128x128x8
/-- The group's biases spread over the tile. -/
def c1Wide (c1 : FVec Ideal S8 .f32) : FVec Ideal S16x128x128x8 .f32 :=
  broadcastTo S16x128x128x8 (shapeCast S1x1x1x8 c1 shapeCasts_S8_S1x1x1x8) broadcasts_S1x1x1x8_S16x128x128x8

/-- What the group adds to the six outputs: `tanh` of the pre-activations times the group's columns of the second layer. -/
def out8 (T : FVec Ideal S16x128x128x8 .f32) (W : FVec Ideal S6x8 .f32) : FVec Ideal S16x128x128x6 .f32 :=
  shapeCast S16x128x128x6
    (matmul dot_S262144x8_S8x6_S262144x6_1_0_0_1_n_n none (shapeCast S262144x8 (tanh T) shapeCasts_S16x128x128x8_S262144x8)
      (transpose S8x6 [1, 0] W transposes_S6x8_p1_0_S8x6) (constant S262144x6 .f32 0x00000000#32))
    shapeCasts_S262144x6_S16x128x128x6

/-! ## Those values at an index -/

theorem boProj_apply (X : FVec Ideal S16x128x4 .f32) (A : FVec Ideal S8x4 .f32) (b : Fin 16) (p : Fin 128) (r : Fin 8) :
    boProj X A (ix3 b p r) = ∑ k : Fin 4, X (ix3 b p k) * A (ix2 r k) := by
  unfold boProj
  refine (unflat3_apply _ _ b p r).trans ?_
  rw [mmA_apply]
  refine Finset.sum_congr rfl fun k _ => ?_
  rw [flat3_apply, transpose_ix2_apply]

theorem biProj_apply (Y : FVec Ideal S16x128x6 .f32) (Bm : FVec Ideal S8x6 .f32) (b : Fin 16) (q : Fin 128) (r : Fin 8) :
    biProj Y Bm (ix3 b q r) = ∑ k : Fin 6, Y (ix3 b q k) * Bm (ix2 r k) := by
  unfold biProj
  refine (unflat3_apply _ _ b q r).trans ?_
  rw [mmB_apply]
  refine Finset.sum_congr rfl fun k _ => ?_
  rw [flat3_apply, transpose_ix2_apply]

theorem oiTerm_apply (v7 : Vec Ideal S128x128 .f32) (A1 : FVec Ideal S8x1 .f32) (p q : Fin 128) (r : Fin 8) :
    oiTerm v7 A1 (ix3 p q r) = v7 (ix2 p q) * A1 (ix2 r 0) := by
  unfold oiTerm
  rw [mulf_apply]
  congr 1
  · refine (broadcastTo_apply _ _ _ (ix3 p q (0 : Fin 1))
      (fun a => match a with | ⟨0, _⟩ => rfl | ⟨1, _⟩ => rfl | ⟨2, _⟩ => rfl)).trans ?_
    exact shapeCast_apply _ _ _ (ix2 p q) (by
      rw [Shape.rowMajor_val_two, Shape.rowMajor_val_three]
      show p.val * 128 + q.val = (p.val * 128 + q.val) * 1 + 0
      omega)
  · refine (broadcastTo_apply _ _ _ (ix3 (0 : Fin 1) (0 : Fin 1) r)
      (fun a => match a with | ⟨0, _⟩ => rfl | ⟨1, _⟩ => rfl | ⟨2, _⟩ => rfl)).trans ?_
    refine (shapeCast_apply _ _ _ (ix1 r) (by
      rw [Shape.rowMajor_val_one, Shape.rowMajor_val_three]
      show r.val = (0 * 1 + 0) * 8 + r.val
      omega)).trans ?_
    exact shapeCast_apply _ _ _ (ix2 r (0 : Fin 1)) (by
      rw [Shape.rowMajor_val_two, Shape.rowMajor_val_one]
      show r.val * 1 + 0 = r.val
      omega)

theorem boWide_apply (bo : FVec Ideal S16x128x8 .f32) (b : Fin 16) (p q : Fin 128) (r : Fin 8) :
    boWide bo (ix4 b p q r) = bo (ix3 b p r) := by
  unfold boWide
  refine (broadcastTo_apply _ _ _ (ix4 b p (0 : Fin 1) r)
    (fun a => match a with | ⟨0, _⟩ => rfl | ⟨1, _⟩ => rfl | ⟨2, _⟩ => rfl | ⟨3, _⟩ => rfl)).trans ?_
  exact shapeCast_apply _ _ _ (ix3 b p r) (by
    rw [Shape.rowMajor_val_three, Shape.rowMajor_val_four]
    show (b.val * 128 + p.val) * 8 + r.val = ((b.val * 128 + p.val) * 1 + 0) * 8 + r.val
    omega)

theorem oiWide_apply (oi : FVec Ideal S128x128x8 .f32) (b : Fin 16) (p q : Fin 128) (r : Fin 8) :
    oiWide oi (ix4 b p q r) = oi (ix3 p q r) := by
  unfold oiWide
  refine (broadcastTo_apply _ _ _ (ix4 (0 : Fin 1) p q r)
    (fun a => match a with | ⟨0, _⟩ => rfl | ⟨1, _⟩ => rfl | ⟨2, _⟩ => rfl | ⟨3, _⟩ => rfl)).trans ?_
  exact shapeCast_apply _ _ _ (ix3 p q r) (by
    rw [Shape.rowMajor_val_three, Shape.rowMajor_val_four]
    show (p.val * 128 + q.val) * 8 + r.val = ((0 * 128 + p.val) * 128 + q.val) * 8 + r.val
    omega)

theorem biWide_apply (bi : FVec Ideal S16x128x8 .f32) (b : Fin 16) (p q : Fin 128) (r : Fin 8) :
    biWide bi (ix4 b p q r) = bi (ix3 b q r) := by
  unfold biWide
  refine (broadcastTo_apply _ _ _ (ix4 b (0 : Fin 1) q r)
    (fun a => match a with | ⟨0, _⟩ => rfl | ⟨1, _⟩ => rfl | ⟨2, _⟩ => rfl | ⟨3, _⟩ => rfl)).trans ?_
  exact shapeCast_apply _ _ _ (ix3 b q r) (by
    rw [Shape.rowMajor_val_three, Shape.rowMajor_val_four]
    show (b.val * 128 + q.val) * 8 + r.val = ((b.val * 1 + 0) * 128 + q.val) * 8 + r.val
    omega)

theorem c1Wide_apply (c1 : FVec Ideal S8 .f32) (b : Fin 16) (p q : Fin 128) (r : Fin 8) :
    c1Wide c1 (ix4 b p q r) = c1 (ix1 r) := by
  unfold c1Wide
  refine (broadcastTo_apply _ _ _ (ix4 (0 : Fin 1) (0 : Fin 1) (0 : Fin 1) r)
    (fun a => match a with | ⟨0, _⟩ => rfl | ⟨1, _⟩ => rfl | ⟨2, _⟩ => rfl | ⟨3, _⟩ => rfl)).trans ?_
  exact shapeCast_apply _ _ _ (ix1 r) (by
    rw [Shape.rowMajor_val_one, Shape.rowMajor_val_four]
    show r.val = (((0 * 1 + 0) * 1 + 0) * 8) + r.val
    omega)

theorem out8_apply (T : FVec Ideal S16x128x128x8 .f32) (W : FVec Ideal S6x8 .f32) (b : Fin 16) (p q : Fin 128) (u : Fin 6) :
    out8 T W (ix4 b p q u) = ∑ r : Fin 8, Ideal.tanh (T (ix4 b p q r)) * W (ix2 u r) := by
  unfold out8
  refine (unflat4_apply _ _ b p q u).trans ?_
  rw [mmC_apply]
  refine Finset.sum_congr rfl fun r _ => ?_
  rw [flat4_apply, transpose_ix2_apply]
  rfl

/-- The pre-activations of a group, from its three partial products and its biases, in the kernel's order of addition. -/
def pre8 (bo : FVec Ideal S16x128x8 .f32) (oi : FVec Ideal S128x128x8 .f32) (bi : FVec Ideal S16x128x8 .f32)
    (c1 : FVec Ideal S8 .f32) : FVec Ideal S16x128x128x8 .f32 :=
  addf (addf (addf (boWide bo) (oiWide oi)) (biWide bi)) (c1Wide c1)

/-- What one group of eight hidden units adds to the six outputs over the tile. -/
def group8 (v7 : Vec Ideal S128x128 .f32) (X : FVec Ideal S16x128x4 .f32) (Y : FVec Ideal S16x128x6 .f32)
    (A : FVec Ideal S8x4 .f32) (A1 : FVec Ideal S8x1 .f32) (Bm : FVec Ideal S8x6 .f32) (c1 : FVec Ideal S8 .f32)
    (W : FVec Ideal S6x8 .f32) : FVec Ideal S16x128x128x6 .f32 :=
  out8 (pre8 (boProj X A) (oiTerm v7 A1) (biProj Y Bm) c1) W

/-- The second layer's bias spread over the tile. -/
def b2Wide (v13 : Vec Ideal S6 .f32) : FVec Ideal S16x128x128x6 .f32 :=
  broadcastTo S16x128x128x6 (shapeCast S1x1x1x6 v13 shapeCasts_S6_S1x1x1x6) broadcasts_S1x1x1x6_S16x128x128x6

/-! ## Each part of the program is the accumulator plus a group

The four groups are written differently in the program (the first whole, the second over three values formed beforehand,
the third in line, the fourth over two operands formed beforehand), but each is by definition the same chain of operations. -/

theorem pay14_eq (v7 : Vec Ideal S128x128 .f32) (v12 : Vec Ideal S6x32 .f32) (v25 : FVec Ideal S16x128x4 .f32)
    (v27 : FVec Ideal S16x128x6 .f32) (v28 : FVec Ideal S16x128x128x6 .f32) (v29 : FVec Ideal S8x4 .f32)
    (v30 : FVec Ideal S8x1 .f32) (v31 : FVec Ideal S8x6 .f32) (v32 : FVec Ideal S8 .f32) :
    k0_pay14 v7 v12 v25 v27 v28 v29 v30 v31 v32
      = addf v28 (group8 v7 v25 v27 v29 v30 v31 v32 (extractStridedSlice S6x8 ![0, 0] v12 slices_S6x32_o0_0_S6x8)) := rfl

theorem pay20_eq (v7 : Vec Ideal S128x128 .f32) (v11 : Vec Ideal S32 .f32) (v12 : Vec Ideal S6x32 .f32)
    (v18 : FVec Ideal S32x4 .f32) (v19 : FVec Ideal S32x1 .f32) (v20 : FVec Ideal S32x6 .f32)
    (v25 : FVec Ideal S16x128x4 .f32) (v27 : FVec Ideal S16x128x6 .f32) (v64 : FVec Ideal S16x128x128x6 .f32)
    (v68 : FVec Ideal S8 .f32) (v69 : FVec Ideal S6x8 .f32) :
    k0_pay20 v7 v11 v12 v18 v19 v20 v25 v27 v64 v68 v69 (k0_pay17 v20 v27) (k0_pay18 v18 v25) (k0_pay19 v7 v19)
      = addf (addf v64
          (group8 v7 v25 v27 (extractStridedSlice S8x4 ![8, 0] v18 slices_S32x4_o8_0_S8x4)
            (extractStridedSlice S8x1 ![8, 0] v19 slices_S32x1_o8_0_S8x1)
            (extractStridedSlice S8x6 ![8, 0] v20 slices_S32x6_o8_0_S8x6) v68 v69))
          (group8 v7 v25 v27 (extractStridedSlice S8x4 ![16, 0] v18 slices_S32x4_o16_0_S8x4)
            (extractStridedSlice S8x1 ![16, 0] v19 slices_S32x1_o16_0_S8x1)
            (extractStridedSlice S8x6 ![16, 0] v20 slices_S32x6_o16_0_S8x6)
            (extractStridedSlice S8 ![16] v11 slices_S32_o16_S8)
            (extractStridedSlice S6x8 ![0, 16] v12 slices_S6x32_o0_16_S6x8)) := rfl

theorem pay27_eq (v7 : Vec Ideal S128x128 .f32) (v13 : Vec Ideal S6 .f32) (v18 : FVec Ideal S32x4 .f32)
    (v25 : FVec Ideal S16x128x4 .f32) (v27 : FVec Ideal S16x128x6 .f32) (v136 : FVec Ideal S16x128x128x6 .f32)
    (v138 : FVec Ideal S8x1 .f32) (v139 : FVec Ideal S8x6 .f32) (v140 : FVec Ideal S8 .f32) (v141 : FVec Ideal S6x8 .f32) :
    k0_pay27 v7 v13 v27 v136 v138 v139 v140 v141 (k0_pay25 v25) (k0_pay26 v18)
      = addf (addf v136
          (group8 v7 v25 v27 (extractStridedSlice S8x4 ![24, 0] v18 slices_S32x4_o24_0_S8x4) v138 v139 v140 v141))
          (b2Wide v13) := rfl

/-! ## The joined feature blocks at a coordinate

A block joined from pieces along its last axis reads, at last coordinate `k`, the piece that holds position `k`, at the
position within it; a piece of extent one is a matrix with a unit axis added, and reads the matrix. -/

theorem addUnit2_apply {α : Type} (x : (⟨2, ![16, 128]⟩ : Shape).Idx → α)
    (h : (⟨2, ![16, 128]⟩ : Shape).ShapeCasts ⟨3, ![16, 128, 1]⟩) (b : Fin 16) (p : Fin 128) (z : Fin 1) :
    shapeCast ⟨3, ![16, 128, 1]⟩ x h (ix3 b p z) = x (ix2 b p) :=
  shapeCast_apply x h _ _ (by
    rw [Shape.rowMajor_val_two, Shape.rowMajor_val_three]
    show b.val * 128 + p.val = (b.val * 128 + p.val) * 1 + z.val
    have := z.isLt; omega)

/-- The (sample, output) features joined: label, prediction, error, previous output. -/
theorem pay7_apply (v3 v4 v5 v6 : Vec Ideal S16x128 .f32) (v7 : Vec Ideal S128x128 .f32) (v8 : Vec Ideal S16x128x5 .f32) (v9 : Vec Ideal S16x128 .f32)
    (b : Fin 16) (p : Fin 128) (k : Fin 4) :
    k0_pay7 v3 v4 v5 v6 (ix3 b p k) = boFeat (signalsOf v3 v4 v5 v6 v7 v8 v9) b p k := by
  unfold k0_pay7
  match k with
  | ⟨0, _⟩ =>
    refine (concatenate_apply_piece (t := S16x128x4) 2 _ _ _ 0 ?_ S16x128x1 (shapeCast S16x128x1 v3 shapeCasts_S16x128_S16x128x1) ?_ ?_ 0 ?_ (ix3 b p (0 : Fin 1)) ?_ ?_).trans ?_
    · exact (by decide : (0 : ℕ) < 4)
    · rfl
    · rfl
    · rfl
    · exact fun a => match a with | ⟨0, _⟩ => fun _ => rfl | ⟨1, _⟩ => fun _ => rfl | ⟨2, _⟩ => fun h => absurd rfl h
    · rfl
    · exact addUnit2_apply v3 _ b p 0
  | ⟨1, _⟩ =>
    refine (concatenate_apply_piece (t := S16x128x4) 2 _ _ _ 1 ?_ S16x128x1 (shapeCast S16x128x1 v4 shapeCasts_S16x128_S16x128x1) ?_ ?_ 1 ?_ (ix3 b p (0 : Fin 1)) ?_ ?_).trans ?_
    · exact (by decide : (1 : ℕ) < 4)
    · rfl
    · rfl
    · rfl
    · exact fun a => match a with | ⟨0, _⟩ => fun _ => rfl | ⟨1, _⟩ => fun _ => rfl | ⟨2, _⟩ => fun h => absurd rfl h
    · rfl
    · exact addUnit2_apply v4 _ b p 0
  | ⟨2, _⟩ =>
    refine (concatenate_apply_piece (t := S16x128x4) 2 _ _ _ 2 ?_ S16x128x1 (shapeCast S16x128x1 v5 shapeCasts_S16x128_S16x128x1) ?_ ?_ 2 ?_ (ix3 b p (0 : Fin 1)) ?_ ?_).trans ?_
    · exact (by decide : (2 : ℕ) < 4)
    · rfl
    · rfl
    · rfl
    · exact fun a => match a with | ⟨0, _⟩ => fun _ => rfl | ⟨1, _⟩ => fun _ => rfl | ⟨2, _⟩ => fun h => absurd rfl h
    · rfl
    · exact addUnit2_apply v5 _ b p 0
  | ⟨3, _⟩ =>
    refine (concatenate_apply_piece (t := S16x128x4) 2 _ _ _ 3 ?_ S16x128x1 (shapeCast S16x128x1 v6 shapeCasts_S16x128_S16x128x1) ?_ ?_ 3 ?_ (ix3 b p (0 : Fin 1)) ?_ ?_).trans ?_
    · exact (by decide : (3 : ℕ) < 4)
    · rfl
    · rfl
    · rfl
    · exact fun a => match a with | ⟨0, _⟩ => fun _ => rfl | ⟨1, _⟩ => fun _ => rfl | ⟨2, _⟩ => fun h => absurd rfl h
    · rfl
    · exact addUnit2_apply v6 _ b p 0

/-- The (sample, input) features joined: five hidden states, then the previous input. -/
theorem pay8_apply (v3 v4 v5 v6 : Vec Ideal S16x128 .f32) (v7 : Vec Ideal S128x128 .f32) (v8 : Vec Ideal S16x128x5 .f32) (v9 : Vec Ideal S16x128 .f32)
    (b : Fin 16) (q : Fin 128) (k : Fin 6) :
    k0_pay8 v8 v9 (ix3 b q k) = biFeat (signalsOf v3 v4 v5 v6 v7 v8 v9) b q k := by
  unfold k0_pay8
  match k with
  | ⟨0, _⟩ =>
    refine (concatenate_apply_piece (t := S16x128x6) 2 _ _ _ 0 ?_ S16x128x5 v8 ?_ ?_ 0 ?_ (ix3 b q (0 : Fin 5)) ?_ ?_).trans ?_
    · exact (by decide : (0 : ℕ) < 2)
    · rfl
    · rfl
    · rfl
    · exact fun a => match a with | ⟨0, _⟩ => fun _ => rfl | ⟨1, _⟩ => fun _ => rfl | ⟨2, _⟩ => fun h => absurd rfl h
    · rfl
    · rfl
  | ⟨1, _⟩ =>
    refine (concatenate_apply_piece (t := S16x128x6) 2 _ _ _ 0 ?_ S16x128x5 v8 ?_ ?_ 0 ?_ (ix3 b q (1 : Fin 5)) ?_ ?_).trans ?_
    · exact (by decide : (0 : ℕ) < 2)
    · rfl
    · rfl
    · rfl
    · exact fun a => match a with | ⟨0, _⟩ => fun _ => rfl | ⟨1, _⟩ => fun _ => rfl | ⟨2, _⟩ => fun h => absurd rfl h
    · rfl
    · rfl
  | ⟨2, _⟩ =>
    refine (concatenate_apply_piece (t := S16x128x6) 2 _ _ _ 0 ?_ S16x128x5 v8 ?_ ?_ 0 ?_ (ix3 b q (2 : Fin 5)) ?_ ?_).trans ?_
    · exact (by decide : (0 : ℕ) < 2)
    · rfl
    · rfl
    · rfl
    · exact fun a => match a with | ⟨0, _⟩ => fun _ => rfl | ⟨1, _⟩ => fun _ => rfl | ⟨2, _⟩ => fun h => absurd rfl h
    · rfl
    · rfl
  | ⟨3, _⟩ =>
    refine (concatenate_apply_piece (t := S16x128x6) 2 _ _ _ 0 ?_ S16x128x5 v8 ?_ ?_ 0 ?_ (ix3 b q (3 : Fin 5)) ?_ ?_).trans ?_
    · exact (by decide : (0 : ℕ) < 2)
    · rfl
    · rfl
    · rfl
    · exact fun a => match a with | ⟨0, _⟩ => fun _ => rfl | ⟨1, _⟩ => fun _ => rfl | ⟨2, _⟩ => fun h => absurd rfl h
    · rfl
    · rfl
  | ⟨4, _⟩ =>
    refine (concatenate_apply_piece (t := S16x128x6) 2 _ _ _ 0 ?_ S16x128x5 v8 ?_ ?_ 0 ?_ (ix3 b q (4 : Fin 5)) ?_ ?_).trans ?_
    · exact (by decide : (0 : ℕ) < 2)
    · rfl
    · rfl
    · rfl
    · exact fun a => match a with | ⟨0, _⟩ => fun _ => rfl | ⟨1, _⟩ => fun _ => rfl | ⟨2, _⟩ => fun h => absurd rfl h
    · rfl
    · rfl
  | ⟨5, _⟩ =>
    refine (concatenate_apply_piece (t := S16x128x6) 2 _ _ _ 1 ?_ S16x128x1 (shapeCast S16x128x1 v9 shapeCasts_S16x128_S16x128x1) ?_ ?_ 5 ?_ (ix3 b q (0 : Fin 1)) ?_ ?_).trans ?_
    · exact (by decide : (1 : ℕ) < 2)
    · rfl
    · rfl
    · rfl
    · exact fun a => match a with | ⟨0, _⟩ => fun _ => rfl | ⟨1, _⟩ => fun _ => rfl | ⟨2, _⟩ => fun h => absurd rfl h
    · rfl
    · exact addUnit2_apply v9 _ b q 0

/-! ## The first layer's column blocks at an entry -/

/-- A single column of the first layer, cut out as a [32, 1] block. -/
theorem col1_apply (v10 : Vec Ideal S32x11 .f32) (o : ℕ) (h : S32x11.Slices ![0, o] S32x1) (g : Fin 32) (z : Fin 1)
    (f : Fin 11) (hf : f.val = o) : extractStridedSlice S32x1 ![0, o] v10 h (ix2 g z) = v10 (ix2 g f) :=
  slice2_axis1_apply o v10 h g z f (by have := z.isLt; omega)

/-- The four columns of the (sample, output) features joined: columns 0, 1, 2 and 10. -/
theorem pay4_apply (v10 : Vec Ideal S32x11 .f32) (g : Fin 32) (k : Fin 4) :
    k0_pay4 v10 (ix2 g k) = v10 (ix2 g (boCol k)) := by
  unfold k0_pay4
  match k with
  | ⟨0, _⟩ =>
    refine (concatenate_apply_piece (t := S32x4) 1 _ _ _ 0 ?_ S32x1 (extractStridedSlice S32x1 ![0, 0] v10 slices_S32x11_o0_0_S32x1) ?_ ?_ 0 ?_ (ix2 g (0 : Fin 1)) ?_ ?_).trans ?_
    · exact (by decide : (0 : ℕ) < 4)
    · rfl
    · rfl
    · rfl
    · exact fun a => match a with | ⟨0, _⟩ => fun _ => rfl | ⟨1, _⟩ => fun h => absurd rfl h
    · rfl
    · exact col1_apply v10 0 _ g 0 0 rfl
  | ⟨1, _⟩ =>
    refine (concatenate_apply_piece (t := S32x4) 1 _ _ _ 1 ?_ S32x1 (extractStridedSlice S32x1 ![0, 1] v10 slices_S32x11_o0_1_S32x1) ?_ ?_ 1 ?_ (ix2 g (0 : Fin 1)) ?_ ?_).trans ?_
    · exact (by decide : (1 : ℕ) < 4)
    · rfl
    · rfl
    · rfl
    · exact fun a => match a with | ⟨0, _⟩ => fun _ => rfl | ⟨1, _⟩ => fun h => absurd rfl h
    · rfl
    · exact col1_apply v10 1 _ g 0 1 rfl
  | ⟨2, _⟩ =>
    refine (concatenate_apply_piece (t := S32x4) 1 _ _ _ 2 ?_ S32x1 (extractStridedSlice S32x1 ![0, 2] v10 slices_S32x11_o0_2_S32x1) ?_ ?_ 2 ?_ (ix2 g (0 : Fin 1)) ?_ ?_).trans ?_
    · exact (by decide : (2 : ℕ) < 4)
    · rfl
    · rfl
    · rfl
    · exact fun a => match a with | ⟨0, _⟩ => fun _ => rfl | ⟨1, _⟩ => fun h => absurd rfl h
    · rfl
    · exact col1_apply v10 2 _ g 0 2 rfl
  | ⟨3, _⟩ =>
    refine (concatenate_apply_piece (t := S32x4) 1 _ _ _ 3 ?_ S32x1 (extractStridedSlice S32x1 ![0, 10] v10 slices_S32x11_o0_10_S32x1) ?_ ?_ 3 ?_ (ix2 g (0 : Fin 1)) ?_ ?_).trans ?_
    · exact (by decide : (3 : ℕ) < 4)
    · rfl
    · rfl
    · rfl
    · exact fun a => match a with | ⟨0, _⟩ => fun _ => rfl | ⟨1, _⟩ => fun h => absurd rfl h
    · rfl
    · exact col1_apply v10 10 _ g 0 10 rfl

/-- The weight's column of the first layer: column 3. -/
theorem pay5_apply (v10 : Vec Ideal S32x11 .f32) (g : Fin 32) (z : Fin 1) : k0_pay5 v10 (ix2 g z) = v10 (ix2 g 3) := by
  unfold k0_pay5
  exact col1_apply v10 3 _ g z 3 rfl

/-- The six columns of the (sample, input) features: columns 4 to 9. -/
theorem pay6_apply (v10 : Vec Ideal S32x11 .f32) (g : Fin 32) (k : Fin 6) : k0_pay6 v10 (ix2 g k) = v10 (ix2 g (biCol k)) := by
  unfold k0_pay6
  exact slice2_axis1_apply 4 v10 _ g k (biCol k) rfl

/-! ## A group's rows and columns of the two layers

Group `c` takes rows `8 c` to `8 c + 7` of each column block of the first layer and of its bias, and the same
columns of the second layer: entry `r` of the cut is hidden unit `unit c r`. -/

theorem unit_val (c : Fin 4) (r : Fin 8) : (unit c r).val = c.val * 8 + r.val := rfl

theorem sliceA_apply (v10 : Vec Ideal S32x11 .f32) (o : ℕ) (h : S32x4.Slices ![o, 0] S8x4) (c : Fin 4) (ho : o = c.val * 8)
    (r : Fin 8) (k : Fin 4) :
    extractStridedSlice S8x4 ![o, 0] (k0_pay4 v10) h (ix2 r k) = v10 (ix2 (unit c r) (boCol k)) :=
  (slice2_axis0_apply o (k0_pay4 v10) h r k (unit c r) (by rw [unit_val, ho])).trans (pay4_apply v10 _ k)

theorem sliceA1_apply (v10 : Vec Ideal S32x11 .f32) (o : ℕ) (h : S32x1.Slices ![o, 0] S8x1) (c : Fin 4) (ho : o = c.val * 8)
    (r : Fin 8) :
    extractStridedSlice S8x1 ![o, 0] (k0_pay5 v10) h (ix2 r 0) = v10 (ix2 (unit c r) 3) :=
  (slice2_axis0_apply o (k0_pay5 v10) h r 0 (unit c r) (by rw [unit_val, ho])).trans (pay5_apply v10 _ 0)

theorem sliceB_apply (v10 : Vec Ideal S32x11 .f32) (o : ℕ) (h : S32x6.Slices ![o, 0] S8x6) (c : Fin 4) (ho : o = c.val * 8)
    (r : Fin 8) (k : Fin 6) :
    extractStridedSlice S8x6 ![o, 0] (k0_pay6 v10) h (ix2 r k) = v10 (ix2 (unit c r) (biCol k)) :=
  (slice2_axis0_apply o (k0_pay6 v10) h r k (unit c r) (by rw [unit_val, ho])).trans (pay6_apply v10 _ k)

theorem sliceC_apply (v11 : Vec Ideal S32 .f32) (o : ℕ) (h : S32.Slices ![o] S8) (c : Fin 4) (ho : o = c.val * 8) (r : Fin 8) :
    extractStridedSlice S8 ![o] v11 h (ix1 r) = v11 (ix1 (unit c r)) :=
  extractStridedSlice_apply _ v11 h _ _ (fun a => by
    match a with
    | ⟨0, _⟩ =>
      show (unit c r).val = o + r.val
      rw [unit_val, ho])

theorem sliceW_apply (v12 : Vec Ideal S6x32 .f32) (o : ℕ) (h : S6x32.Slices ![0, o] S6x8) (c : Fin 4) (ho : o = c.val * 8)
    (u : Fin 6) (r : Fin 8) :
    extractStridedSlice S6x8 ![0, o] v12 h (ix2 u r) = v12 (ix2 u (unit c r)) :=
  slice2_axis1_apply o v12 h u r (unit c r) (by rw [unit_val, ho])

/-! ## A group's contribution is the specification's -/

theorem group8_apply (v7 : Vec Ideal S128x128 .f32) (X : FVec Ideal S16x128x4 .f32) (Y : FVec Ideal S16x128x6 .f32)
    (A : FVec Ideal S8x4 .f32) (A1 : FVec Ideal S8x1 .f32) (Bm : FVec Ideal S8x6 .f32) (c1 : FVec Ideal S8 .f32)
    (W : FVec Ideal S6x8 .f32) (b : Fin 16) (p q : Fin 128) (u : Fin 6) :
    group8 v7 X Y A A1 Bm c1 W (ix4 b p q u)
      = ∑ r : Fin 8, Ideal.tanh ((((∑ k : Fin 4, X (ix3 b p k) * A (ix2 r k)) + v7 (ix2 p q) * A1 (ix2 r 0))
          + ∑ k : Fin 6, Y (ix3 b q k) * Bm (ix2 r k)) + c1 (ix1 r)) * W (ix2 u r) := by
  unfold group8
  rw [out8_apply]
  refine Finset.sum_congr rfl fun r _ => ?_
  unfold pre8
  rw [addf_apply, addf_apply, addf_apply, boWide_apply, oiWide_apply, biWide_apply, c1Wide_apply, boProj_apply,
    oiTerm_apply, biProj_apply]

/-- With the group's operands read as rows and columns `unit c ·` of the two layers, the group's contribution at
    `(b, p, q, u)` is the specification's `chunk` for group `c`. -/
theorem group8_chunk (v3 v4 v5 v6 : Vec Ideal S16x128 .f32) (v7 : Vec Ideal S128x128 .f32) (v8 : Vec Ideal S16x128x5 .f32)
    (v9 : Vec Ideal S16x128 .f32) (v10 : Vec Ideal S32x11 .f32) (v11 : Vec Ideal S32 .f32) (v12 : Vec Ideal S6x32 .f32)
    (v13 : Vec Ideal S6 .f32) (c : Fin 4)
    (A : FVec Ideal S8x4 .f32) (A1 : FVec Ideal S8x1 .f32) (Bm : FVec Ideal S8x6 .f32) (c1 : FVec Ideal S8 .f32)
    (W : FVec Ideal S6x8 .f32)
    (hA : ∀ (r : Fin 8) (k : Fin 4), A (ix2 r k) = v10 (ix2 (unit c r) (boCol k)))
    (hA1 : ∀ r : Fin 8, A1 (ix2 r 0) = v10 (ix2 (unit c r) 3))
    (hB : ∀ (r : Fin 8) (k : Fin 6), Bm (ix2 r k) = v10 (ix2 (unit c r) (biCol k)))
    (hc : ∀ r : Fin 8, c1 (ix1 r) = v11 (ix1 (unit c r)))
    (hW : ∀ (u : Fin 6) (r : Fin 8), W (ix2 u r) = v12 (ix2 u (unit c r)))
    (b : Fin 16) (p q : Fin 128) (u : Fin 6) :
    group8 v7 (k0_pay7 v3 v4 v5 v6) (k0_pay8 v8 v9) A A1 Bm c1 W (ix4 b p q u)
      = chunk (signalsOf v3 v4 v5 v6 v7 v8 v9) (netOf v10 v11 v12 v13) b p q u c := by
  rw [group8_apply]
  unfold chunk preSplit
  refine Finset.sum_congr rfl fun r _ => ?_
  have e1 : ∑ k : Fin 4, k0_pay7 v3 v4 v5 v6 (ix3 b p k) * A (ix2 r k)
      = ∑ k : Fin 4, boFeat (signalsOf v3 v4 v5 v6 v7 v8 v9) b p k * (netOf v10 v11 v12 v13).W1 (unit c r) (boCol k) :=
    Finset.sum_congr rfl fun k _ => by rw [pay7_apply v3 v4 v5 v6 v7 v8 v9, hA]; rfl
  have e2 : ∑ k : Fin 6, k0_pay8 v8 v9 (ix3 b q k) * Bm (ix2 r k)
      = ∑ k : Fin 6, biFeat (signalsOf v3 v4 v5 v6 v7 v8 v9) b q k * (netOf v10 v11 v12 v13).W1 (unit c r) (biCol k) :=
    Finset.sum_congr rfl fun k _ => by rw [pay8_apply v3 v4 v5 v6 v7 v8 v9, hB]; rfl
  rw [e1, e2, hA1, hc, hW]
  rfl

/-! ## The accumulator's start and the last bias -/

theorem pay9_apply (b : Fin 16) (p q : Fin 128) (u : Fin 6) : k0_pay9 (F := Ideal) (ix4 b p q u) = 0 := by
  unfold k0_pay9
  show Ideal.ofBits .f32 0x00000000#32 = 0
  exact Ideal.ofBits_zero_f32

theorem b2Wide_apply (v13 : Vec Ideal S6 .f32) (b : Fin 16) (p q : Fin 128) (u : Fin 6) :
    b2Wide v13 (ix4 b p q u) = v13 (ix1 u) := by
  unfold b2Wide
  refine (broadcastTo_apply _ _ _ (ix4 (0 : Fin 1) (0 : Fin 1) (0 : Fin 1) u)
    (fun a => match a with | ⟨0, _⟩ => rfl | ⟨1, _⟩ => rfl | ⟨2, _⟩ => rfl | ⟨3, _⟩ => rfl)).trans ?_
  exact shapeCast_apply _ _ _ (ix1 u) (by
    rw [Shape.rowMajor_val_one, Shape.rowMajor_val_four]
    show u.val = (((0 * 1 + 0) * 1 + 0) * 6) + u.val
    omega)

/-! ## The tile's six outputs -/

theorem updT_apply (v3 v4 v5 v6 : Vec Ideal S16x128 .f32) (v7 : Vec Ideal S128x128 .f32) (v8 : Vec Ideal S16x128x5 .f32) (v9 : Vec Ideal S16x128 .f32)
    (v10 : Vec Ideal S32x11 .f32) (v11 : Vec Ideal S32 .f32) (v12 : Vec Ideal S6x32 .f32) (v13 : Vec Ideal S6 .f32)
    (b : Fin 16) (p q : Fin 128) (u : Fin 6) :
    Terms.updT v3 v4 v5 v6 v7 v8 v9 v10 v11 v12 v13 (ix4 b p q u)
      = updChunks (signalsOf v3 v4 v5 v6 v7 v8 v9) (netOf v10 v11 v12 v13) b p q u := by
  unfold Terms.updT Terms.acc3 Terms.acc1
  rw [pay27_eq, pay20_eq, pay14_eq]
  rw [addf_apply, addf_apply, addf_apply, addf_apply, addf_apply, pay9_apply, b2Wide_apply]
  rw [group8_chunk v3 v4 v5 v6 v7 v8 v9 v10 v11 v12 v13 0 (k0_pay10 v10) (k0_pay11 v10) (k0_pay12 v10) (k0_pay13 v11)
      (extractStridedSlice S6x8 ![0, 0] v12 slices_S6x32_o0_0_S6x8)
      (fun r k => sliceA_apply v10 0 slices_S32x4_o0_0_S8x4 0 rfl r k)
      (fun r => sliceA1_apply v10 0 slices_S32x1_o0_0_S8x1 0 rfl r)
      (fun r k => sliceB_apply v10 0 slices_S32x6_o0_0_S8x6 0 rfl r k)
      (fun r => sliceC_apply v11 0 slices_S32_o0_S8 0 rfl r)
      (fun u r => sliceW_apply v12 0 slices_S6x32_o0_0_S6x8 0 rfl u r)]
  rw [group8_chunk v3 v4 v5 v6 v7 v8 v9 v10 v11 v12 v13 1
      (extractStridedSlice S8x4 ![8, 0] (k0_pay4 v10) slices_S32x4_o8_0_S8x4)
      (extractStridedSlice S8x1 ![8, 0] (k0_pay5 v10) slices_S32x1_o8_0_S8x1)
      (extractStridedSlice S8x6 ![8, 0] (k0_pay6 v10) slices_S32x6_o8_0_S8x6) (k0_pay15 v11) (k0_pay16 v12)
      (fun r k => sliceA_apply v10 8 slices_S32x4_o8_0_S8x4 1 rfl r k)
      (fun r => sliceA1_apply v10 8 slices_S32x1_o8_0_S8x1 1 rfl r)
      (fun r k => sliceB_apply v10 8 slices_S32x6_o8_0_S8x6 1 rfl r k)
      (fun r => sliceC_apply v11 8 slices_S32_o8_S8 1 rfl r)
      (fun u r => sliceW_apply v12 8 slices_S6x32_o0_8_S6x8 1 rfl u r)]
  rw [group8_chunk v3 v4 v5 v6 v7 v8 v9 v10 v11 v12 v13 2
      (extractStridedSlice S8x4 ![16, 0] (k0_pay4 v10) slices_S32x4_o16_0_S8x4)
      (extractStridedSlice S8x1 ![16, 0] (k0_pay5 v10) slices_S32x1_o16_0_S8x1)
      (extractStridedSlice S8x6 ![16, 0] (k0_pay6 v10) slices_S32x6_o16_0_S8x6)
      (extractStridedSlice S8 ![16] v11 slices_S32_o16_S8)
      (extractStridedSlice S6x8 ![0, 16] v12 slices_S6x32_o0_16_S6x8)
      (fun r k => sliceA_apply v10 16 slices_S32x4_o16_0_S8x4 2 rfl r k)
      (fun r => sliceA1_apply v10 16 slices_S32x1_o16_0_S8x1 2 rfl r)
      (fun r k => sliceB_apply v10 16 slices_S32x6_o16_0_S8x6 2 rfl r k)
      (fun r => sliceC_apply v11 16 slices_S32_o16_S8 2 rfl r)
      (fun u r => sliceW_apply v12 16 slices_S6x32_o0_16_S6x8 2 rfl u r)]
  rw [group8_chunk v3 v4 v5 v6 v7 v8 v9 v10 v11 v12 v13 3
      (extractStridedSlice S8x4 ![24, 0] (k0_pay4 v10) slices_S32x4_o24_0_S8x4)
      (k0_pay21 (k0_pay5 v10)) (k0_pay22 (k0_pay6 v10)) (k0_pay23 v11) (k0_pay24 v12)
      (fun r k => sliceA_apply v10 24 slices_S32x4_o24_0_S8x4 3 rfl r k)
      (fun r => sliceA1_apply v10 24 slices_S32x1_o24_0_S8x1 3 rfl r)
      (fun r k => sliceB_apply v10 24 slices_S32x6_o24_0_S8x6 3 rfl r k)
      (fun r => sliceC_apply v11 24 slices_S32_o24_S8 3 rfl r)
      (fun u r => sliceW_apply v12 24 slices_S6x32_o0_24_S6x8 3 rfl u r)]
  rfl

end Cert.KernelIdeal.TileRead

end
-- ==== Proof.TileEnds.lean ====
/-
  What the first kernel stores at a grid point, and what the second kernel stores, read at an index in terms of the
  network's outputs over the tile: the new weight's tile is the old tile plus the sample mean of the sixth output; the
  running sum gains the tile's sum over inputs of each of the first five outputs; it starts from zero; the stored mean is
  the running sum over the number of inputs; and the second kernel's value is the row of the sample block against the row
  of the weight, plus the bias.
-/
import proofs.«167862_j23304492548723_1_alg».proof.Proof.TermsIdeal
import proofs.«167862_j23304492548723_1_alg».proof.Proof.Views
import Idealize.ShloMosaic.Lib.Pipeline.Value
import Idealize.ShloMosaic.Lib.ValueLayout
import Idealize.ShloMosaic.PureOps.Ideal.Laws

noncomputable section

namespace Cert.KernelIdeal.TileEnds

open Idealize.ShloMosaic Idealize.ShloMosaic.ValueIdx Idealize.SL.Sem Cert.KernelIdeal Cert.KernelIdeal.Gen Cert.CellSpec

/-! ## The layout steps between the network's outputs and what is stored

The outputs over the tile are indexed (sample `b`, output `p`, input `q`, which of the six `u`). The weight's
update takes the sixth of them (`u = 5`), drops that axis and sums over the samples; the running sum takes the
first five and sums over the inputs. Each step is read at an index given by its coordinates. -/

/-- The sixth output cut out along the last axis, that axis kept with extent one: `(b, p, q, z)` reads `(b, p, q, 5)`. -/
theorem slice_sixth_apply (X : FVec Ideal S16x128x128x6 .f32) (b : Fin 16) (p q : Fin 128) (z : Fin 1) :
    extractStridedSlice S16x128x128x1 ![0, 0, 0, 5] X slices_S16x128x128x6_o0_0_0_5_S16x128x128x1 (ix4 b p q z)
      = X (ix4 b p q 5) :=
  extractStridedSlice_apply _ X _ _ _ fun a => match a with
    | ⟨0, _⟩ => by show b.val = 0 + b.val; omega
    | ⟨1, _⟩ => by show p.val = 0 + p.val; omega
    | ⟨2, _⟩ => by show q.val = 0 + q.val; omega
    | ⟨3, _⟩ => by have hz := z.isLt; show 5 = 5 + z.val; omega

/-- The first five outputs cut out along the last axis: `(b, p, q, u)` reads `(b, p, q, u)` with `u` among the six. -/
theorem slice_five_apply (X : FVec Ideal S16x128x128x6 .f32) (b : Fin 16) (p q : Fin 128) (u : Fin 5) :
    extractStridedSlice S16x128x128x5 ![0, 0, 0, 0] X slices_S16x128x128x6_o0_0_0_0_S16x128x128x5 (ix4 b p q u)
      = X (ix4 b p q u.castSucc) :=
  extractStridedSlice_apply _ X _ _ _ fun a => match a with
    | ⟨0, _⟩ => by show b.val = 0 + b.val; omega
    | ⟨1, _⟩ => by show p.val = 0 + p.val; omega
    | ⟨2, _⟩ => by show q.val = 0 + q.val; omega
    | ⟨3, _⟩ => by show u.val = 0 + u.val; omega

/-- The trailing unit axis dropped: `(b, p, q)` reads `(b, p, q, 0)`, the same row-major position. -/
theorem squeeze_last_apply (X : FVec Ideal S16x128x128x1 .f32) (b : Fin 16) (p q : Fin 128) :
    shapeCast S16x128x128 X shapeCasts_S16x128x128x1_S16x128x128 (ix3 b p q) = X (ix4 b p q (0 : Fin 1)) :=
  shapeCast_apply X _ _ _ (by
    rw [Shape.rowMajor_val_four, Shape.rowMajor_val_three]
    show ((b.val * 128 + p.val) * 128 + q.val) * 1 + 0 = (b.val * 128 + p.val) * 128 + q.val
    omega)

/-- The sum over the samples (axis 0) at `(p, q)`: the sum over `b` of the operand at `(b, p, q)`. -/
theorem sum_samples_apply (X : FVec Ideal S16x128x128 .f32) (p q : Fin 128) :
    multiReduction (F := Ideal) .add [0] S128x128 X 0x00000000#32 reduces_S16x128x128_S128x128 (.inl rfl) rfl (ix2 p q)
      = ∑ b : Fin 16, X (ix3 b p q) := by
  refine (Ideal.multiReduction_add_single X 0x00000000#32 reduces_S16x128x128_S128x128 (.inl rfl) rfl (ix2 p q)).trans ?_
  refine Finset.sum_congr rfl fun b _ => congrArg X (funext fun a => Fin.ext ?_)
  match a with
  | ⟨0, _⟩ => rfl
  | ⟨1, _⟩ => rfl
  | ⟨2, _⟩ => rfl

/-- The sum over the inputs (axis 2) at `(b, p, u)`: the sum over `q` of the operand at `(b, p, q, u)`. -/
theorem sum_inputs_apply (X : FVec Ideal S16x128x128x5 .f32) (b : Fin 16) (p : Fin 128) (u : Fin 5) :
    multiReduction (F := Ideal) .add [2] S16x128x5 X 0x00000000#32 reduces_S16x128x128x5_S16x128x5 (.inl rfl) rfl (ix3 b p u)
      = ∑ q : Fin 128, X (ix4 b p q u) := by
  refine (Ideal.multiReduction_add_single X 0x00000000#32 reduces_S16x128x128x5_S16x128x5 (.inl rfl) rfl (ix3 b p u)).trans ?_
  refine Finset.sum_congr rfl fun q _ => congrArg X (funext fun a => Fin.ext ?_)
  match a with
  | ⟨0, _⟩ => rfl
  | ⟨1, _⟩ => rfl
  | ⟨2, _⟩ => rfl
  | ⟨3, _⟩ => rfl

theorem weightT_apply (v3 v4 v5 v6 : Vec Ideal S16x128 .f32) (v7 : Vec Ideal S128x128 .f32) (v8 : Vec Ideal S16x128x5 .f32) (v9 : Vec Ideal S16x128 .f32)
    (v10 : Vec Ideal S32x11 .f32) (v11 : Vec Ideal S32 .f32) (v12 : Vec Ideal S6x32 .f32) (v13 : Vec Ideal S6 .f32)
    (p q : Fin 128) :
    Terms.weightT v3 v4 v5 v6 v7 v8 v9 v10 v11 v12 v13 (ix2 p q)
      = v7 (ix2 p q) + Ideal.div (∑ b : Fin 16, Terms.updT v3 v4 v5 v6 v7 v8 v9 v10 v11 v12 v13 (ix4 b p q 5)) d16 := by
  show addf (F := Ideal) (φ := .f32) v7
      (divf
        (multiReduction (F := Ideal) .add [0] S128x128
          (shapeCast S16x128x128
            (extractStridedSlice S16x128x128x1 ![0, 0, 0, 5] (Terms.updT v3 v4 v5 v6 v7 v8 v9 v10 v11 v12 v13)
              slices_S16x128x128x6_o0_0_0_5_S16x128x128x1)
            shapeCasts_S16x128x128x1_S16x128x128)
          0x00000000#32 reduces_S16x128x128_S128x128 (.inl rfl) rfl)
        (broadcast S128x128 (Scalar.ofBits (F := Ideal) .f32 0x41800000#32)))
      (ix2 p q) = _
  -- old weight plus quotient, element by element; the divisor is the same word everywhere; the dividend is a sum over samples
  rw [addf_apply, divf_apply, broadcast_apply, sum_samples_apply]
  refine congrArg (fun t => v7 (ix2 p q) + Ideal.div t d16) (Finset.sum_congr rfl fun b _ => ?_)
  -- under the sum: the dropped unit axis, then the cut at the sixth output
  rw [squeeze_last_apply, slice_sixth_apply]

theorem carryT_apply (v3 v4 v5 v6 : Vec Ideal S16x128 .f32) (v7 : Vec Ideal S128x128 .f32) (v8 : Vec Ideal S16x128x5 .f32) (v9 : Vec Ideal S16x128 .f32)
    (v10 : Vec Ideal S32x11 .f32) (v11 : Vec Ideal S32 .f32) (v12 : Vec Ideal S6x32 .f32) (v13 : Vec Ideal S6 .f32)
    (prev : Vec Ideal S16x128x5 .f32) (b : Fin 16) (p : Fin 128) (u : Fin 5) :
    Terms.carryT v3 v4 v5 v6 v7 v8 v9 v10 v11 v12 v13 prev (ix3 b p u)
      = prev (ix3 b p u) + ∑ q : Fin 128, Terms.updT v3 v4 v5 v6 v7 v8 v9 v10 v11 v12 v13 (ix4 b p q u.castSucc) := by
  show shapeCast S16x128x5
      (addf (F := Ideal) (φ := .f32) prev
        (multiReduction (F := Ideal) .add [2] S16x128x5
          (extractStridedSlice S16x128x128x5 ![0, 0, 0, 0] (Terms.updT v3 v4 v5 v6 v7 v8 v9 v10 v11 v12 v13)
            slices_S16x128x128x6_o0_0_0_0_S16x128x128x5)
          0x00000000#32 reduces_S16x128x128x5_S16x128x5 (.inl rfl) rfl))
      shapeCasts_S16x128x5_S16x128x5 (ix3 b p u) = _
  -- a cast to the same shape changes nothing; previous sum plus this tile's sum over inputs, element by element
  rw [shapeCast_self, addf_apply, sum_inputs_apply]
  refine congrArg (prev (ix3 b p u) + ·) (Finset.sum_congr rfl fun q _ => ?_)
  -- under the sum: the cut at the first five outputs
  rw [slice_five_apply]

theorem clearedT_apply (b : Fin 16) (p : Fin 128) (u : Fin 5) :
    Terms.clearedT (F := Ideal) (ix3 b p u) = 0 := by
  show shapeCast S16x128x5 (broadcast S16x128x5 (Scalar.ofBits (F := Ideal) .f32 0x00000000#32)) shapeCasts_S16x128x5_S16x128x5 (ix3 b p u) = 0
  rw [shapeCast_self, broadcast_apply]
  exact Ideal.ofBits_zero_f32

theorem meanT_apply (s : Vec Ideal S16x128x5 .f32) (b : Fin 16) (p : Fin 128) (u : Fin 5) :
    Terms.meanT s (ix3 b p u) = Ideal.div (s (ix3 b p u)) d512 := by
  show divf s (broadcast S16x128x5 (Scalar.ofBits (F := Ideal) .f32 0x44000000#32)) (ix3 b p u) = Ideal.div (s (ix3 b p u)) d512
  rw [divf_apply, broadcast_apply]
  rfl

/-! ## The second kernel's product: where its operand indices point

The product contracts axis 1 of the sample block with axis 0 of the transposed weight. At an output index `i` and a
contraction index `q`, the left operand is read at `(i 0, q)` and the right one at `(q, i 1)`; one lemma per axis. -/

/-- The left operand's row is the output's row. -/
theorem dense_lhs_0 (i : S16x512.Idx) (q : dot_S16x512_S512x512_S16x512_1_0_0_1_n_n.contr.Idx) :
    (dot_S16x512_S512x512_S16x512_1_0_0_1_n_n.lhsIdx i q 0).val = (i 0).val := by
  unfold DotDims.lhsIdx
  rw [dif_neg (show ¬(0 : Fin S16x512.rank) ∈ dot_S16x512_S512x512_S16x512_1_0_0_1_n_n.lhsBatch by decide),
    dif_pos (show (0 : Fin S16x512.rank) ∈ dot_S16x512_S512x512_S16x512_1_0_0_1_n_n.lhsNonContracting by decide)]
  rfl

/-- The left operand's column is the contraction index. -/
theorem dense_lhs_1 (i : S16x512.Idx) (q : dot_S16x512_S512x512_S16x512_1_0_0_1_n_n.contr.Idx) :
    (dot_S16x512_S512x512_S16x512_1_0_0_1_n_n.lhsIdx i q 1).val = (q ⟨0, by decide⟩).val :=
  dot_S16x512_S512x512_S16x512_1_0_0_1_n_n.lhsIdx_val_of_single rfl i q

/-- The right operand's row is the contraction index. -/
theorem dense_rhs_0 (i : S16x512.Idx) (q : dot_S16x512_S512x512_S16x512_1_0_0_1_n_n.contr.Idx) :
    (dot_S16x512_S512x512_S16x512_1_0_0_1_n_n.rhsIdx i q 0).val = (q ⟨0, by decide⟩).val :=
  dot_S16x512_S512x512_S16x512_1_0_0_1_n_n.rhsIdx_val_of_single rfl i q

/-- The right operand's column is the output's column. -/
theorem dense_rhs_1 (i : S16x512.Idx) (q : dot_S16x512_S512x512_S16x512_1_0_0_1_n_n.contr.Idx) :
    (dot_S16x512_S512x512_S16x512_1_0_0_1_n_n.rhsIdx i q 1).val = (i 1).val := by
  unfold DotDims.rhsIdx
  rw [dif_neg (show ¬(1 : Fin S512x512.rank) ∈ dot_S16x512_S512x512_S16x512_1_0_0_1_n_n.rhsBatch by decide),
    dif_pos (show (1 : Fin S512x512.rank) ∈ dot_S16x512_S512x512_S16x512_1_0_0_1_n_n.rhsNonContracting by decide)]
  rfl

/-- The product into a zero accumulator, read at `(b, o)`: the sum over the contraction coordinate `k` of the left
    operand at `(b, k)` times the right operand at `(k, o)`. -/
theorem dense_matmul_apply (x : FVec Ideal S16x512 .f32) (y : FVec Ideal S512x512 .f32) (b : Fin 16) (o : Fin 512) :
    FloatOps.matmul dot_S16x512_S512x512_S16x512_1_0_0_1_n_n none x y (constant S16x512 .f32 0x00000000#32) (ix2 b o)
      = ∑ k : Fin 512, x (ix2 b k) * y (ix2 k o) := by
  rw [Ideal.matmul_constant_zero_apply,
    ← Equiv.sum_comp (contrEquiv1 dot_S16x512_S512x512_S16x512_1_0_0_1_n_n 512 rfl rfl).symm]
  refine Finset.sum_congr rfl fun k _ => ?_
  have hk := contrEquiv1_symm_val dot_S16x512_S512x512_S16x512_1_0_0_1_n_n 512 rfl rfl k
  have el : dot_S16x512_S512x512_S16x512_1_0_0_1_n_n.lhsIdx (ix2 b o)
      ((contrEquiv1 dot_S16x512_S512x512_S16x512_1_0_0_1_n_n 512 rfl rfl).symm k) = ix2 b k :=
    funext fun a => Fin.ext (by
      match a with
      | ⟨0, _⟩ => exact dense_lhs_0 _ _
      | ⟨1, _⟩ => exact (dense_lhs_1 _ _).trans hk)
  have er : dot_S16x512_S512x512_S16x512_1_0_0_1_n_n.rhsIdx (ix2 b o)
      ((contrEquiv1 dot_S16x512_S512x512_S16x512_1_0_0_1_n_n 512 rfl rfl).symm k) = ix2 k o :=
    funext fun a => Fin.ext (by
      match a with
      | ⟨0, _⟩ => exact (dense_rhs_0 _ _).trans hk
      | ⟨1, _⟩ => exact dense_rhs_1 _ _)
  rw [el, er]

theorem denseT_apply (x : Vec Ideal S16x512 .f32) (w : Vec Ideal S512x512 .f32) (bias : Vec Ideal S512 .f32) (b : Fin 16) (o : Fin 512) :
    Terms.denseT x w bias (ix2 b o) = (∑ i : Fin 512, x (ix2 b i) * w (ix2 o i)) + bias (ix1 o) := by
  show addf (F := Ideal) (φ := .f32)
      (FloatOps.matmul dot_S16x512_S512x512_S16x512_1_0_0_1_n_n none (x : FVec Ideal S16x512 .f32)
        (transpose S512x512 [1, 0] (shapeCast S512x512 (w : FVec Ideal S512x512 .f32) shapeCasts_S512x512_S512x512)
          transposes_S512x512_p1_0_S512x512)
        (constant S16x512 .f32 0x00000000#32))
      (broadcastTo S16x512 (shapeCast S1x512 (bias : FVec Ideal S512 .f32) shapeCasts_S512_S1x512) broadcasts_S1x512_S16x512)
      (ix2 b o) = _
  -- the sum of the product and the bias row, element by element; the bias row is the bias at the column
  rw [addf_apply, broadcastTo_1b_ab_apply, shapeCast_a_1a_apply, dense_matmul_apply, shapeCast_self]
  -- the transposed weight at (k, o) is the weight at (o, k)
  refine congrArg (· + bias (ix1 o)) (Finset.sum_congr rfl fun k _ => ?_)
  rw [transpose_ix2_apply]

end Cert.KernelIdeal.TileEnds

end
-- ==== Proof.WeightFinal.lean ====
/-
  The new weight array after the first region. Every grid point writes back its tile of the new weight; the tile at
  point `t` is the old tile plus the sample mean of the network's sixth output over the tile, and, the point's blocks
  being the whole arrays restricted to the tile, that is the tile of one function of the whole arrays. The sixteen
  tiles cover the array, so the array ends at that function.

  Point `t` of the four-by-four grid works on outputs `128 (t / 4) .. 128 (t / 4) + 127` and inputs
  `128 (t % 4) .. 128 (t % 4) + 127`: position `(p, q)` of its tile is position `(128 (t / 4) + p, 128 (t % 4) + q)` of
  the array. Conversely the array position `(o, i)` lies in the tile of the point `4 (o / 128) + i / 128`.
-/
import proofs.«167862_j23304492548723_1_alg».proof.Proof.TileBlocks
import proofs.«167862_j23304492548723_1_alg».proof.Proof.TileRead
import proofs.«167862_j23304492548723_1_alg».proof.Proof.TileEnds
import Idealize.ShloMosaic.Lib.Pipeline.Value

noncomputable section

namespace Cert.KernelIdeal.Whole

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.CellSpec

variable (V : (c : Dev nD) → (b : Ref sig .tc) → Buf (Elt Ideal) ((c : Thread nD τ).loc b))

/-- The new weight's tile at point `t`, read at output `p` and input `q` of the tile, is the new weight of the whole
    cell at output `128 (t / 4) + p` and input `128 (t % 4) + q`. The tile is the old tile plus the sample mean of the
    sixth output; the six outputs over the tile are the grouped arrangement on the tile's signals; the tile's signals are
    the whole cell's restricted to the tile and the network is the whole network; and the grouped arrangement on a tile
    is the plain arrangement on the whole cell at the tile's positions. The old tile's entry is the whole weight's entry
    at the same position, again by the restriction. -/
theorem weight_tile_apply (c : Dev nD) (t : Fin cfg0.N) (p q : Fin 128) :
    Terms.weightT (Tile.b0 V c t) (Tile.b1 V c t) (Tile.b2 V c t) (Tile.b3 V c t) (Tile.b4 V c t) (Tile.b5 V c t) (Tile.b6 V c t)
        (Tile.b7 V c t) (Tile.b8 V c t) (Tile.b9 V c t) (Tile.b10 V c t) (ix2 p q)
      = newWeight (sigs V c) (nets V c) d16 (tileIx (rowOf t) p) (tileIx (colOf t) q) := by
  -- old entry plus the mean over the sixteen samples of the sixth output
  rw [TileEnds.weightT_apply]
  -- each sample's sixth output, as the grouped arrangement on the tile's signals
  simp only [TileRead.updT_apply]
  -- the tile's signals are the whole cell's restricted to the tile; the network is the whole network
  rw [signals_at, net_at]
  -- on a tile the grouped arrangement is the plain one at the tile's positions in the whole cell
  simp only [updChunks_tileOf]
  -- the old tile's entry is the whole weight's entry at the tile's position
  have hw : (Tile.b4 V c t) (ix2 p q) = (sigs V c).wt (tileIx (rowOf t) p) (tileIx (colOf t) q) :=
    congrFun (congrFun (congrArg Signals.wt (signals_at V c t)) p) q
  rw [hw]
  rfl

/-- The new weight's block at point `t` is block `(t / 4, t % 4)` of the array: decided over the sixteen points. -/
theorem weight_index : ∀ t : Fin cfg0.N, win0_11.index t (0 : Fin 2) = t.val / 4 ∧ win0_11.index t (1 : Fin 2) = t.val % 4 :=
  (by decide +kernel : ∀ t : Fin grid0.N, _)

/-- What point `t` writes back is its block of the new weight: position `y` of the block sits in the array at
    `(128 (t / 4) + y 0, 128 (t % 4) + y 1)` (block index times block size plus the position inside the block, on each
    axis), and the tile's value there is the whole cell's new weight at that position. -/
theorem weight_flushed (c : Dev nD) (t : Fin cfg0.N) :
    (Tile.dat V c).flushed 11 t = ((cfg0.win 11).blk t).view.read (Elt Ideal) (weightG V c) := by
  show (cfg0.win 11).cut (grid0.coords t) ((Tile.dat V c).after 11 t) = _
  rw [Tile.after_11]
  funext y
  obtain ⟨e0, e1⟩ := weight_index t
  show Terms.weightT (Tile.b0 V c t) (Tile.b1 V c t) (Tile.b2 V c t) (Tile.b3 V c t) (Tile.b4 V c t) (Tile.b5 V c t) (Tile.b6 V c t)
        (Tile.b7 V c t) (Tile.b8 V c t) (Tile.b9 V c t) (Tile.b10 V c t) (y : S128x128.Idx)
      = weightG V c (((cfg0.win 11).blk t).view.emb y)
  -- the position inside the block, by its two coordinates
  have hy : (y : S128x128.Idx) = ix2 (y 0) (y 1) := eq_ix2 y
  -- where that position sits in the array
  have hemb : ((cfg0.win 11).blk t).view.emb y = ix2 (tileIx (rowOf t) (y 0)) (tileIx (colOf t) (y 1)) := by
    funext a; apply Fin.ext
    match a with
    | ⟨0, _⟩ =>
      show win0_11.index t (0 : Fin 2) * 128 + 1 * (y 0).val = (rowOf t).val * 128 + (y 0).val
      rw [e0]; show _ = t.val / 4 * 128 + _; omega
    | ⟨1, _⟩ =>
      show win0_11.index t (1 : Fin 2) * 128 + 1 * (y 1).val = (colOf t).val * 128 + (y 1).val
      rw [e1]; show _ = t.val % 4 * 128 + _; omega
  rw [hemb, weightG_apply, hy]
  exact weight_tile_apply V c t (y 0) (y 1)

/-- An array position lies in point `t`'s block iff, on each axis, its coordinate is one of the block's 128. -/
theorem weight_mem_blk (t : Fin cfg0.N) (i : S512x512.Idx) :
    i ∈ ((cfg0.win 11).blk t).view.set
      ↔ ∀ a : Fin 2, win0_11.index t a * S128x128.size a ≤ (i a).val
          ∧ (i a).val < win0_11.index t a * S128x128.size a + S128x128.size a := by
  show i ∈ ((View.whole main_v0_0).slice (win0_11.rect t)).set ↔ _
  rw [View.set_slice_whole, Rect.mem_set_unit]
  exact Iff.rfl

/-- The sixteen tiles cover the array: position `(o, i)` lies in the tile of the point `4 (o / 128) + i / 128`, whose
    quotient by four is `o / 128` and whose remainder is `i / 128`; and every point writes its tile back. -/
theorem weight_cover (i : S512x512.Idx) :
    ∃ t : Fin cfg0.N, (cfg0.win 11).flush t = true ∧ i ∈ ((cfg0.win 11).blk t).view.set := by
  have hi0 : (i 0).val < 512 := (i 0).isLt
  have hi1 : (i 1).val < 512 := (i 1).isLt
  have hN : cfg0.N = 16 := N_0
  let t : Fin cfg0.N := ⟨4 * ((i 0).val / 128) + (i 1).val / 128, by rw [hN]; omega⟩
  have ht : t.val = 4 * ((i 0).val / 128) + (i 1).val / 128 := rfl
  obtain ⟨e0, e1⟩ := weight_index t
  refine ⟨t, flush0_11 t, ?_⟩
  rw [weight_mem_blk]
  intro a
  match a with
  | ⟨0, _⟩ =>
    show win0_11.index t (0 : Fin 2) * 128 ≤ (i 0).val ∧ (i 0).val < win0_11.index t (0 : Fin 2) * 128 + 128
    rw [e0, ht]; omega
  | ⟨1, _⟩ =>
    show win0_11.index t (1 : Fin 2) * 128 ≤ (i 1).val ∧ (i 1).val < win0_11.index t (1 : Fin 2) * 128 + 128
    rw [e1, ht]; omega

/-- Every point writes back its block of one function of the whole arrays, and the blocks cover the array: the array
    ends at that function. -/
theorem weight_final (c : Dev nD) :
    ((Tile.dat V c).arrAt 11 cfg0.N : S512x512.Idx → EReal) = weightG V c :=
  (Tile.dat V c).arrAt_eq_of_cover 11 (weightG V c) (fun t _ => weight_flushed V c t) weight_cover

end Cert.KernelIdeal.Whole

end
-- ==== Proof.HiddenFinal.lean ====
/-
  The new hidden-state array after the first region. Only the last tile of each row of tiles writes its block back,
  and what it writes is the running sum over the row's four tiles divided by the number of inputs. Unfolding the running
  sum over the row's four points gives the four tile sums added in order to zero, which is the sum over all 512 inputs:
  the block of one function of the whole arrays. The four written blocks cover the array.
-/
import proofs.«167862_j23304492548723_1_alg».proof.Proof.TileBlocks
import proofs.«167862_j23304492548723_1_alg».proof.Proof.TileRead
import proofs.«167862_j23304492548723_1_alg».proof.Proof.TileEnds
import Idealize.ShloMosaic.Lib.Pipeline.Value

noncomputable section

namespace Cert.KernelIdeal.Whole

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.CellSpec

variable (V : (c : Dev nD) → (b : Ref sig .tc) → Buf (Elt Ideal) ((c : Thread nD τ).loc b))

/-! ## One tile's contribution -/

/-- The network's outputs over the tile of point `t`, read at `(b, p, q, u)`: the point's blocks are the whole arrays
    restricted to outputs `rowOf t` and inputs `colOf t`, so this is the whole cell's output at output
    `128 (rowOf t) + p` and input `128 (colOf t) + q`. -/
theorem hidden_tile_term (c : Dev nD) (t : Fin cfg0.N) (b : Fin 16) (p q : Fin 128) (u : Fin 6) :
    Terms.updT (Tile.b0 V c t) (Tile.b1 V c t) (Tile.b2 V c t) (Tile.b3 V c t) (Tile.b4 V c t) (Tile.b5 V c t) (Tile.b6 V c t)
        (Tile.b7 V c t) (Tile.b8 V c t) (Tile.b9 V c t) (Tile.b10 V c t) (ix4 b p q u)
      = upd (sigs V c) (nets V c) b (tileIx (rowOf t) p) (tileIx (colOf t) q) u := by
  refine (TileRead.updT_apply (Tile.b0 V c t) (Tile.b1 V c t) (Tile.b2 V c t) (Tile.b3 V c t) (Tile.b4 V c t) (Tile.b5 V c t)
    (Tile.b6 V c t) (Tile.b7 V c t) (Tile.b8 V c t) (Tile.b9 V c t) (Tile.b10 V c t) b p q u).trans ?_
  rw [signals_at, net_at, updChunks_tileOf]

/-- The running sum after point `n`, continued from `prev`, at `(b, p, u)`: `prev` there plus the tile's sum over its 128
    inputs of output `u` of the whole cell. -/
theorem hidden_carry_at (c : Dev nD) (t : Fin cfg0.N) (prev : Vec Ideal S16x128x5 .f32) (b : Fin 16) (p : Fin 128) (u : Fin 5) :
    Terms.carryT (Tile.b0 V c t) (Tile.b1 V c t) (Tile.b2 V c t) (Tile.b3 V c t) (Tile.b4 V c t) (Tile.b5 V c t) (Tile.b6 V c t)
        (Tile.b7 V c t) (Tile.b8 V c t) (Tile.b9 V c t) (Tile.b10 V c t) prev (ix3 b p u)
      = prev (ix3 b p u)
        + ∑ q : Fin 128, upd (sigs V c) (nets V c) b (tileIx (rowOf t) p) (tileIx (colOf t) q) u.castSucc := by
  refine (TileEnds.carryT_apply (Tile.b0 V c t) (Tile.b1 V c t) (Tile.b2 V c t) (Tile.b3 V c t) (Tile.b4 V c t) (Tile.b5 V c t)
    (Tile.b6 V c t) (Tile.b7 V c t) (Tile.b8 V c t) (Tile.b9 V c t) (Tile.b10 V c t) prev b p u).trans ?_
  exact congrArg (prev (ix3 b p u) + ·) (Finset.sum_congr rfl fun q _ => hidden_tile_term V c t b p q u.castSucc)

/-! ## The running sum over a row of tiles -/

/-- At a row's first tile (remainder 0) the running sum is the tile's sum added to zero. -/
theorem hidden_sum_first (c : Dev nD) (n : ℕ) (hn : n < cfg0.N) (h : n % 4 = 0) (b : Fin 16) (p : Fin 128) (u : Fin 5) :
    Tile.sumAt V c n hn (ix3 b p u)
      = 0 + ∑ q : Fin 128, upd (sigs V c) (nets V c) b (tileIx (rowOf ⟨n, hn⟩) p) (tileIx (colOf ⟨n, hn⟩) q) u.castSucc := by
  refine (congrFun (Tile.sumAt_first V c ⟨n, hn⟩ h) (ix3 b p u)).trans ?_
  rw [hidden_carry_at, TileEnds.clearedT_apply]

/-- At any later tile of a row the running sum is the tile's sum added to what the point before left. -/
theorem hidden_sum_later (c : Dev nD) (n : ℕ) (hn : n < cfg0.N) (h : ¬n % 4 = 0) (b : Fin 16) (p : Fin 128) (u : Fin 5) :
    Tile.sumAt V c n hn (ix3 b p u)
      = Tile.sumAt V c (n - 1) (Nat.lt_of_le_of_lt (Nat.sub_le _ _) hn) (ix3 b p u)
        + ∑ q : Fin 128, upd (sigs V c) (nets V c) b (tileIx (rowOf ⟨n, hn⟩) p) (tileIx (colOf ⟨n, hn⟩) q) u.castSucc := by
  refine (congrFun (Tile.sumAt_later V c ⟨n, hn⟩ h) (ix3 b p u)).trans ?_
  exact hidden_carry_at V c ⟨n, hn⟩ _ b p u

/-- At a row's last tile (remainder 3) the running sum is the sum over all 512 inputs: points `n - 3`, `n - 2`, `n - 1`, `n`
    are tiles 0, 1, 2, 3 of one row, their four sums are added in order to zero, and four consecutive blocks of 128
    make up the 512. -/
theorem hidden_sum_row (c : Dev nD) (n : ℕ) (hn : n < cfg0.N) (h3 : n % 4 = 3) (b : Fin 16) (p : Fin 128) (u : Fin 5) :
    Tile.sumAt V c n hn (ix3 b p u)
      = ∑ i : Fin 512, upd (sigs V c) (nets V c) b (tileIx (rowOf ⟨n, hn⟩) p) i u.castSucc := by
  have h2 : n - 1 < cfg0.N := Nat.lt_of_le_of_lt (Nat.sub_le _ _) hn
  have h1 : n - 1 - 1 < cfg0.N := Nat.lt_of_le_of_lt (Nat.sub_le _ _) h2
  have h0 : n - 1 - 1 - 1 < cfg0.N := Nat.lt_of_le_of_lt (Nat.sub_le _ _) h1
  rw [hidden_sum_later V c n hn (by omega), hidden_sum_later V c (n - 1) h2 (by omega),
    hidden_sum_later V c (n - 1 - 1) h1 (by omega), hidden_sum_first V c (n - 1 - 1 - 1) h0 (by omega)]
  -- the four points share their row …
  have r2 : rowOf ⟨n - 1, h2⟩ = rowOf ⟨n, hn⟩ := Fin.ext (by show (n - 1) / 4 = n / 4; omega)
  have r1 : rowOf ⟨n - 1 - 1, h1⟩ = rowOf ⟨n, hn⟩ := Fin.ext (by show (n - 1 - 1) / 4 = n / 4; omega)
  have r0 : rowOf ⟨n - 1 - 1 - 1, h0⟩ = rowOf ⟨n, hn⟩ := Fin.ext (by show (n - 1 - 1 - 1) / 4 = n / 4; omega)
  -- … and are its tiles 3, 2, 1, 0
  have c3 : colOf ⟨n, hn⟩ = 3 := Fin.ext (by show n % 4 = 3; omega)
  have c2 : colOf ⟨n - 1, h2⟩ = 2 := Fin.ext (by show (n - 1) % 4 = 2; omega)
  have c1 : colOf ⟨n - 1 - 1, h1⟩ = 1 := Fin.ext (by show (n - 1 - 1) % 4 = 1; omega)
  have c0 : colOf ⟨n - 1 - 1 - 1, h0⟩ = 0 := Fin.ext (by show (n - 1 - 1 - 1) % 4 = 0; omega)
  rw [r2, r1, r0, c3, c2, c1, c0]
  exact sum_four_tiles fun i => upd (sigs V c) (nets V c) b (tileIx (rowOf ⟨n, hn⟩) p) i u.castSucc

/-! ## From the written blocks to the array -/

/-- The hidden-state window's block index at point `t`: block `t / 4` along the outputs, block 0 along the samples and
    along the five states. -/
theorem hidden_index : ∀ t : Fin cfg0.N, win0_12.index t (0 : Fin 3) = 0 ∧ win0_12.index t (1 : Fin 3) = t.val / 4
    ∧ win0_12.index t (2 : Fin 3) = 0 :=
  (by decide +kernel : ∀ t : Fin grid0.N, _)

/-- What a row's last tile writes back is its block of the new hidden state: local `(b, p, u)` sits at
    `(b, 128 (t / 4) + p, u)` of the array, and the stored mean there is the sum over all inputs over their number. -/
theorem hidden_flushed (c : Dev nD) (t : Fin cfg0.N) (hf : (cfg0.win 12).flush t = true) :
    (Tile.dat V c).flushed 12 t = ((cfg0.win 12).blk t).view.read (Elt Ideal) (hiddenG V c) := by
  have h3 : t.val % 4 = 3 := (flush0_12 t).mp hf
  obtain ⟨e0, e1, e2⟩ := hidden_index t
  show (cfg0.win 12).cut (grid0.coords t) ((Tile.dat V c).after 12 t) = _
  rw [Tile.after_12]
  refine funext fun (y : S16x128x5.Idx) => ?_
  obtain ⟨b, p, u, rfl⟩ : ∃ (b : Fin 16) (p : Fin 128) (u : Fin 5), y = ix3 b p u := ⟨y 0, y 1, y 2, eq_ix3 y⟩
  show Terms.meanT (Tile.sumAt V c t.val t.isLt) (ix3 b p u) = hiddenG V c (((cfg0.win 12).blk t).view.emb (ix3 b p u))
  have hi : ((cfg0.win 12).blk t).view.emb (ix3 b p u) = ix3 b (tileIx (rowOf t) p) u := by
    funext a; apply Fin.ext
    match a with
    | ⟨0, _⟩ => show win0_12.index t (0 : Fin 3) * 16 + 1 * b.val = b.val; omega
    | ⟨1, _⟩ => show win0_12.index t (1 : Fin 3) * 128 + 1 * p.val = t.val / 4 * 128 + p.val; omega
    | ⟨2, _⟩ => show win0_12.index t (2 : Fin 3) * 5 + 1 * u.val = u.val; omega
  rw [hi, hiddenG_apply, TileEnds.meanT_apply, hidden_sum_row V c t.val t.isLt h3]
  rfl

/-- Every index `(b, o, u)` of the array lies in the block written at the last tile of row `o / 128`. -/
theorem hidden_cover (i : S16x512x5.Idx) :
    ∃ t : Fin cfg0.N, (cfg0.win 12).flush t = true ∧ i ∈ ((cfg0.win 12).blk t).view.set := by
  have hi0 : (i 0).val < 16 := (i 0).isLt
  have hi1 : (i 1).val < 512 := (i 1).isLt
  have hi2 : (i 2).val < 5 := (i 2).isLt
  obtain ⟨t, ht⟩ : ∃ t : Fin cfg0.N, t.val = 4 * ((i 1).val / 128) + 3 :=
    ⟨⟨4 * ((i 1).val / 128) + 3, lt_of_lt_of_eq (by omega : 4 * ((i 1).val / 128) + 3 < 16) N_0.symm⟩, rfl⟩
  obtain ⟨e0, e1, e2⟩ := hidden_index t
  refine ⟨t, (flush0_12 t).mpr (by omega), ?_⟩
  show i ∈ ((View.whole main_v0_1).slice (win0_12.rect t)).set
  rw [View.set_slice_whole, Rect.mem_set_unit]
  intro a
  match a with
  | ⟨0, _⟩ => show win0_12.index t (0 : Fin 3) * 16 ≤ (i 0).val ∧ (i 0).val < win0_12.index t (0 : Fin 3) * 16 + 16; omega
  | ⟨1, _⟩ => show win0_12.index t (1 : Fin 3) * 128 ≤ (i 1).val ∧ (i 1).val < win0_12.index t (1 : Fin 3) * 128 + 128; omega
  | ⟨2, _⟩ => show win0_12.index t (2 : Fin 3) * 5 ≤ (i 2).val ∧ (i 2).val < win0_12.index t (2 : Fin 3) * 5 + 5; omega

/-- The new hidden-state array after the region is the new hidden state of the whole cell. -/
theorem hidden_final (c : Dev nD) :
    ((Tile.dat V c).arrAt 12 cfg0.N : S16x512x5.Idx → EReal) = hiddenG V c :=
  (Tile.dat V c).arrAt_eq_of_cover 12 (hiddenG V c) (fun t hf => hidden_flushed V c t hf) hidden_cover

end Cert.KernelIdeal.Whole

end
-- ==== Proof.DenseFinal.lean ====
/-
  The output array after the second region: its one grid point loads the whole sample block, the whole weight as the
  first region left it and the whole bias, and writes back the whole output, each entry the row of the sample against the
  row of the weight, plus the bias.

  The steps: every window's block index is 0 on every axis, so a block read at a local index is its array at the same
  index (0 * size + 1 * local = local); the body's term at (b, o) is the sum over i of x(b, i) * w(o, i) plus bias(o);
  the one output block covers the array, so the array ends at that closed form everywhere.
-/
import proofs.«167862_j23304492548723_1_alg».proof.Proof.DenseFrameIdeal
import proofs.«167862_j23304492548723_1_alg».proof.Proof.TileEnds
import Idealize.ShloMosaic.Lib.Pipeline.Value

noncomputable section

namespace Cert.KernelIdeal.Whole

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.CellSpec

variable (V : (c : Dev nD) → (b : Ref sig .tc) → Buf (Elt Ideal) ((c : Thread nD τ).loc b))

/-- The sample block, the weight and the bias as the second region finds them, at their literal types. -/
abbrev xArr (c : Dev nD) : S16x512.Idx → EReal := V c main_arg0
abbrev wArr (c : Dev nD) : S512x512.Idx → EReal := V c main_v0_0
abbrev biasArr (c : Dev nD) : S512.Idx → EReal := V c main_arg8

/-- At the region's one grid point every window sits at block index 0 on every axis: each block is its whole array. -/
theorem dense_index : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0 :=
  (by decide +kernel : ∀ t : Fin grid1.N, _)

/-- The sample window's block at a local index is the sample array at the same index:
    0 * 16 + 1 * b = b on the sample axis, 0 * 512 + 1 * i = i on the feature axis. -/
theorem dense_blk_x (c : Dev nD) (t : Fin cfg1.N) (y : S16x512.Idx) :
    (Dense.blk V c 0 t : S16x512.Idx → EReal) y = xArr V c y := by
  obtain ⟨e0, e1, -⟩ := dense_index t
  unfold Dense.blk
  rw [View.read_apply]
  show V c main_arg0 _ = V c main_arg0 _
  congr 1
  funext a
  apply Fin.ext
  match a with
  | ⟨0, _⟩ => show win1_0.index t (0 : Fin 2) * 16 + 1 * (y 0).val = (y 0).val; omega
  | ⟨1, _⟩ => show win1_0.index t (1 : Fin 2) * 512 + 1 * (y 1).val = (y 1).val; omega

/-- The weight window's block at a local index is the weight array at the same index (0 * 512 + 1 * k = k on both axes). -/
theorem dense_blk_w (c : Dev nD) (t : Fin cfg1.N) (y : S512x512.Idx) :
    (Dense.blk V c 1 t : S512x512.Idx → EReal) y = wArr V c y := by
  obtain ⟨-, -, e0, e1, -⟩ := dense_index t
  unfold Dense.blk
  rw [View.read_apply]
  show V c main_v0_0 _ = V c main_v0_0 _
  congr 1
  funext a
  apply Fin.ext
  match a with
  | ⟨0, _⟩ => show win1_1.index t (0 : Fin 2) * 512 + 1 * (y 0).val = (y 0).val; omega
  | ⟨1, _⟩ => show win1_1.index t (1 : Fin 2) * 512 + 1 * (y 1).val = (y 1).val; omega

/-- The bias window's block at a local index is the bias array at the same index (0 * 512 + 1 * o = o). -/
theorem dense_blk_bias (c : Dev nD) (t : Fin cfg1.N) (y : S512.Idx) :
    (Dense.blk V c 2 t : S512.Idx → EReal) y = biasArr V c y := by
  obtain ⟨-, -, -, -, e0, -⟩ := dense_index t
  unfold Dense.blk
  rw [View.read_apply]
  show V c main_arg8 _ = V c main_arg8 _
  congr 1
  funext a
  apply Fin.ext
  match a with
  | ⟨0, _⟩ => show win1_2.index t (0 : Fin 1) * 512 + 1 * (y 0).val = (y 0).val; omega

/-- The body's term of three blocks that agree entry by entry with three arrays, read at a local index j whose
    coordinates are those of an array index k: row k 0 of the first array against row k 1 of the second, summed over
    the 512 features, plus entry k 1 of the third. -/
theorem dense_term_of_reads (x : Vec Ideal S16x512 .f32) (w : Vec Ideal S512x512 .f32) (bias : Vec Ideal S512 .f32)
    (X : S16x512.Idx → EReal) (W : S512x512.Idx → EReal) (B : S512.Idx → EReal)
    (hx : ∀ y, x y = X y) (hw : ∀ y, w y = W y) (hb : ∀ y, bias y = B y)
    (j k : S16x512.Idx) (h0 : (k 0).val = (j 0).val) (h1 : (k 1).val = (j 1).val) :
    Terms.denseT x w bias j = (∑ i : Fin 512, X (ix2 (k 0) i) * W (ix2 (k 1) i)) + B (ix1 (k 1)) := by
  obtain ⟨b, o, rfl⟩ : ∃ (b : Fin 16) (o : Fin 512), j = ix2 b o := ⟨j 0, j 1, eq_ix2 j⟩
  have e0 : k 0 = b := Fin.ext h0
  have e1 : k 1 = o := Fin.ext h1
  rw [e0, e1, TileEnds.denseT_apply]
  simp only [hx, hw, hb]

/-- The output array's closed form: entry (b, o) is row b of the sample block against row o of the weight, plus
    bias entry o. -/
abbrev dense_closed (c : Dev nD) : S16x512.Idx → EReal :=
  fun j => (∑ i : Fin 512, xArr V c (ix2 (j 0) i) * wArr V c (ix2 (j 1) i)) + biasArr V c (ix1 (j 1))

/-- What the point writes back is its block of the closed form: the output block's local index (b, o) sits at array
    index (0 * 16 + 1 * b, 0 * 512 + 1 * o) = (b, o), and the three input blocks are their arrays. -/
theorem dense_flushed (c : Dev nD) (t : Fin cfg1.N) :
    (Dense.dat V c).flushed 3 t = ((cfg1.win 3).blk t).view.read (Elt Ideal) (dense_closed V c) := by
  obtain ⟨-, -, -, -, -, e0, e1⟩ := dense_index t
  show (cfg1.win 3).cut (grid1.coords t) ((Dense.dat V c).after 3 t) = _
  rw [Dense.after_3]
  funext j
  rw [View.read_apply]
  refine dense_term_of_reads _ _ _ (xArr V c) (wArr V c) (biasArr V c)
    (dense_blk_x V c t) (dense_blk_w V c t) (dense_blk_bias V c t) j _ ?_ ?_
  · show win1_3.index t (0 : Fin 2) * 16 + 1 * (j 0).val = (j 0).val; omega
  · show win1_3.index t (1 : Fin 2) * 512 + 1 * (j 1).val = (j 1).val; omega

/-- The one point's output block is the whole array: on each axis 0 * size ≤ i < 0 * size + size for every index i. -/
theorem dense_cover (i : S16x512.Idx) :
    ∃ t : Fin cfg1.N, (cfg1.win 3).flush t = true ∧ i ∈ ((cfg1.win 3).blk t).view.set := by
  refine ⟨t1_0, flush1_3 t1_0, ?_⟩
  obtain ⟨-, -, -, -, -, e0, e1⟩ := dense_index t1_0
  show i ∈ ((View.whole main_v1).slice (win1_3.rect t1_0)).set
  rw [View.set_slice_whole, Rect.mem_set_unit]
  intro a
  have h0 : (i 0).val < 16 := (i 0).isLt
  have h1 : (i 1).val < 512 := (i 1).isLt
  match a with
  | ⟨0, _⟩ => show win1_3.index t1_0 (0 : Fin 2) * 16 ≤ (i 0).val ∧ (i 0).val < win1_3.index t1_0 (0 : Fin 2) * 16 + 16; omega
  | ⟨1, _⟩ => show win1_3.index t1_0 (1 : Fin 2) * 512 ≤ (i 1).val ∧ (i 1).val < win1_3.index t1_0 (1 : Fin 2) * 512 + 512; omega

theorem dense_final (c : Dev nD) :
    ((Dense.dat V c).arrAt 3 cfg1.N : S16x512.Idx → EReal)
      = fun j => (∑ i : Fin 512, xArr V c (ix2 (j 0) i) * wArr V c (ix2 (j 1) i)) + biasArr V c (ix1 (j 1)) := by
  exact (Dense.dat V c).arrAt_eq_of_cover 3 (dense_closed V c) (fun t _ => dense_flushed V c t) dense_cover

end Cert.KernelIdeal.Whole

end
-- ==== Proof.Results.lean ====
/-
  The cell's two results as functions of its thirteen argument arrays: the output at (sample, output) and the new
  hidden state at (sample, output, state). Both programs' results are stated against these two functions.
-/
import proofs.«167862_j23304492548723_1_alg».proof.Proof.Views

noncomputable section

namespace Cert.CellSpec

open Idealize.ShloMosaic Idealize.ShloMosaic.ValueIdx

/-- The new hidden state from the arrays: label, prediction, error, previous input, previous output, hidden state,
    weight, and the small network's two layers. -/
def hiddenOf (x1 x2 x3 x4 x5 : (⟨2, ![16, 512]⟩ : Shape).Idx → EReal) (x6 : (⟨3, ![16, 512, 5]⟩ : Shape).Idx → EReal)
    (x7 : (⟨2, ![512, 512]⟩ : Shape).Idx → EReal) (x9 : (⟨2, ![32, 11]⟩ : Shape).Idx → EReal) (x10 : (⟨1, ![32]⟩ : Shape).Idx → EReal)
    (x11 : (⟨2, ![6, 32]⟩ : Shape).Idx → EReal) (x12 : (⟨1, ![6]⟩ : Shape).Idx → EReal) : (⟨3, ![16, 512, 5]⟩ : Shape).Idx → EReal :=
  fun j => newHidden (signalsOf x1 x2 x3 x5 x7 x6 x4) (netOf x9 x10 x11 x12) d512 (j 0) (j 1) (j 2)

/-- The cell's output from the arrays: the sample block first, the bias ninth. -/
def outputOf (x0 x1 x2 x3 x4 x5 : (⟨2, ![16, 512]⟩ : Shape).Idx → EReal) (x6 : (⟨3, ![16, 512, 5]⟩ : Shape).Idx → EReal)
    (x7 : (⟨2, ![512, 512]⟩ : Shape).Idx → EReal) (x8 : (⟨1, ![512]⟩ : Shape).Idx → EReal) (x9 : (⟨2, ![32, 11]⟩ : Shape).Idx → EReal)
    (x10 : (⟨1, ![32]⟩ : Shape).Idx → EReal) (x11 : (⟨2, ![6, 32]⟩ : Shape).Idx → EReal) (x12 : (⟨1, ![6]⟩ : Shape).Idx → EReal) :
    (⟨2, ![16, 512]⟩ : Shape).Idx → EReal :=
  fun j => output (grid2 x0) (grid1 x8) (signalsOf x1 x2 x3 x5 x7 x6 x4) (netOf x9 x10 x11 x12) d16 (j 0) (j 1)

end Cert.CellSpec

end
-- ==== Proof.KernelValue.lean ====
/-
  The idealized kernel's run with both results named: the output array ends at the cell's output and the hidden-state
  array at the cell's new hidden state, each as a function of the thirteen argument arrays. The second region's result is
  read with the weight the first region left, which is the specification's new weight.
-/
import proofs.«167862_j23304492548723_1_alg».proof.Proof.RunIdeal
import proofs.«167862_j23304492548723_1_alg».proof.Proof.WeightFinal
import proofs.«167862_j23304492548723_1_alg».proof.Proof.HiddenFinal
import proofs.«167862_j23304492548723_1_alg».proof.Proof.DenseFinal
import proofs.«167862_j23304492548723_1_alg».proof.Proof.Results

noncomputable section

namespace Cert.KernelIdeal.Results

open Idealize.ShloMosaic Idealize.ShloMosaic.TcCoe Idealize.ShloMosaic.ValueIdx Idealize.SL.Sem
open Cert.KernelIdeal Cert.KernelIdeal.Gen Cert.CellSpec

variable (m : (ℓ : Loc nD τ sig) → Buf (Elt Ideal) ℓ) (ρ : Dev nD → PrngReg)

/-- The argument arrays as launched, at their literal types. -/
abbrev a0 (c : Dev nD) : S16x512.Idx → EReal := m ((c.tc : Thread nD τ).loc main_arg0)
abbrev a1 (c : Dev nD) : S16x512.Idx → EReal := m ((c.tc : Thread nD τ).loc main_arg1)
abbrev a2 (c : Dev nD) : S16x512.Idx → EReal := m ((c.tc : Thread nD τ).loc main_arg2)
abbrev a3 (c : Dev nD) : S16x512.Idx → EReal := m ((c.tc : Thread nD τ).loc main_arg3)
abbrev a4 (c : Dev nD) : S16x512.Idx → EReal := m ((c.tc : Thread nD τ).loc main_arg4)
abbrev a5 (c : Dev nD) : S16x512.Idx → EReal := m ((c.tc : Thread nD τ).loc main_arg5)
abbrev a6 (c : Dev nD) : S16x512x5.Idx → EReal := m ((c.tc : Thread nD τ).loc main_arg6)
abbrev a7 (c : Dev nD) : S512x512.Idx → EReal := m ((c.tc : Thread nD τ).loc main_arg7)
abbrev a8 (c : Dev nD) : S512.Idx → EReal := m ((c.tc : Thread nD τ).loc main_arg8)
abbrev a9 (c : Dev nD) : S32x11.Idx → EReal := m ((c.tc : Thread nD τ).loc main_arg9)
abbrev a10 (c : Dev nD) : S32.Idx → EReal := m ((c.tc : Thread nD τ).loc main_arg10)
abbrev a11 (c : Dev nD) : S6x32.Idx → EReal := m ((c.tc : Thread nD τ).loc main_arg11)
abbrev a12 (c : Dev nD) : S6.Idx → EReal := m ((c.tc : Thread nD τ).loc main_arg12)

/-- The new hidden state of the whole arrays is the function of the arguments. -/
theorem hidden_eq (c : Dev nD) : Whole.hiddenG (Run.V0 m) c = hiddenOf (a1 m c) (a2 m c) (a3 m c) (a4 m c) (a5 m c) (a6 m c) (a7 m c) (a9 m c) (a10 m c) (a11 m c) (a12 m c) := rfl

/-- The output array after the second region is the cell's output: the second region finds the sample block and the bias
    as launched and the weight at what the first region left, the specification's new weight. -/
theorem output_final (c : Dev nD) :
    ((Dense.dat (Run.V1 m) c).arrAt 3 cfg1.N : S16x512.Idx → EReal) = outputOf (a0 m c) (a1 m c) (a2 m c) (a3 m c) (a4 m c) (a5 m c) (a6 m c) (a7 m c) (a8 m c) (a9 m c) (a10 m c) (a11 m c) (a12 m c) := by
  rw [Whole.dense_final (Run.V1 m) c]
  have hw : Whole.wArr (Run.V1 m) c = Whole.weightG (Run.V0 m) c :=
    (Run.V1_main_v0_0 m c).trans (Whole.weight_final (Run.V0 m) c)
  have hx : Whole.xArr (Run.V1 m) c = a0 m c := Run.V1_main_arg0 m c
  have hb : Whole.biasArr (Run.V1 m) c = a8 m c := Run.V1_main_arg8 m c
  rw [hw, hx, hb]
  rfl

/-- Every weakly fair execution of the idealized kernel ends with the two results at the cell's output and new hidden
    state, and the arguments unchanged. -/
theorem kernel_run : θ_run (defs (F := Ideal)) (onTc (τ := τ) (main (F := Ideal))) ⟨m, fun _ => 0, ρ⟩ (fun r => ∀ c : Dev nD,
      r.2.mem ((c.tc : Thread nD τ).loc main_v1) = outputOf (a0 m c) (a1 m c) (a2 m c) (a3 m c) (a4 m c) (a5 m c) (a6 m c) (a7 m c) (a8 m c) (a9 m c) (a10 m c) (a11 m c) (a12 m c)
      ∧ r.2.mem ((c.tc : Thread nD τ).loc main_v0_1) = hiddenOf (a1 m c) (a2 m c) (a3 m c) (a4 m c) (a5 m c) (a6 m c) (a7 m c) (a9 m c) (a10 m c) (a11 m c) (a12 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c).1.trans (output_final m c), (h c).2.1.trans ((Whole.hidden_final (Run.V0 m) c).trans (hidden_eq m c)), (h c).2.2⟩)
    (Run.run_results (F := Ideal) m ρ)

end Cert.KernelIdeal.Results

end
-- ==== Proof.RefRead.lean ====
/-
  The reference program read back one host operation at a time: this module only brings in the run of the
  reference and its read-at-an-index lemmas, on which the reference side of the value claim is built.
-/
import proofs.«167862_j23304492548723_1_alg».proof.Proof.Gen.ReferenceIdeal.Read
-- ==== Proof.RefSide.lean ====
/-
  The reference program's two results read at an index. Operation by operation the reference builds, for every sample,
  output and input, the row of eleven features (seven arrays broadcast over the axes they do not depend on and joined
  along the last axis), applies the first layer, `tanh` and the second layer, averages the sixth output over the samples
  into the new weight, averages the first five over the inputs into the new hidden state, and multiplies the sample block
  by the transposed new weight. Read at an index these are the specification's `output` and `newHidden`, as written.

  The steps, each stated at explicit coordinates: the joined row at `(b, o, i, f)` is feature `f` (the piece of the join
  whose span along the last axis holds `f`, read through its two broadcasts); the first layer at `(b, o, i, g)` is `pre`;
  the second layer at `(b, o, i, u)` is `upd`; the sum over the samples divided by their number, cut at the sixth output
  and added to the old weight, is `newWeight`; the sum over the inputs divided by their number, cut to the first five
  outputs, is `newHidden`; the contraction of the sample block with the transposed new weight plus the bias is `output`.
  A sum's initial value is the zero word, which is the extended real zero; the two divisor words stay as they are.
-/
import proofs.«167862_j23304492548723_1_alg».proof.Proof.RefRead
import proofs.«167862_j23304492548723_1_alg».proof.Proof.Views
import Idealize.ShloMosaic.Lib.Pipeline.Value
import Idealize.ShloMosaic.Lib.ValueLayout
import Idealize.ShloMosaic.PureOps.Ideal.Laws

noncomputable section

namespace Cert.ReferenceIdeal.RefSide

open Idealize.ShloMosaic Idealize.ShloMosaic.ValueIdx Idealize.SL.Sem Cert.ReferenceIdeal Cert.ReferenceIdeal.Gen Cert.ReferenceIdeal.Read Cert.CellSpec

/-! ## The row of eleven features

The join along the last axis lays seven pieces end to end, of extents 1, 1, 1, 1, 5, 1, 1: coordinate `f` of the row falls in
the piece whose span holds it, at `f` less the extents before that piece. Each piece is an array broadcast twice, over
the axes it does not depend on. -/

/-- Feature 0 is the label: the first piece, which spans coordinate 0, broadcast over the inputs. -/
theorem feature_label (x1 x2 x3 x4 x5 : (⟨S16x512, .f32⟩ : BufTy).Contents (Elt Ideal)) (x6 : (⟨S16x512x5, .f32⟩ : BufTy).Contents (Elt Ideal)) (x7 : (⟨S512x512, .f32⟩ : BufTy).Contents (Elt Ideal))
    (b : Fin 16) (o i : Fin 512) :
    val_main_v14 (F := Ideal) x1 x2 x3 x4 x5 x6 x7 (ix4 b o i (0 : Fin 11)) = x1 (ix2 b o) := by
  unfold val_main_v14
  rw [concatenate_apply_piece (3 : Fin 4) _ _ (ix4 b o i (0 : Fin 11)) 0 (by show (0 : Nat) < 7; omega) S16x512x512x1
    (val_main_v1 (F := Ideal) x1) rfl rfl 0 rfl (ix4 b o i (0 : Fin 1)) (fun a ha => by match a with | ⟨0, _⟩ => rfl | ⟨1, _⟩ => rfl | ⟨2, _⟩ => rfl | ⟨3, _⟩ => exact absurd rfl ha) rfl]
  rw [val_main_v1_apply, val_main_v0_apply]
  exact congrArg x1 (funext fun a => by match a with | ⟨0, _⟩ => rfl | ⟨1, _⟩ => rfl)

/-- Feature 1 is the prediction: the second piece, which spans coordinate 1. -/
theorem feature_pred (x1 x2 x3 x4 x5 : (⟨S16x512, .f32⟩ : BufTy).Contents (Elt Ideal)) (x6 : (⟨S16x512x5, .f32⟩ : BufTy).Contents (Elt Ideal)) (x7 : (⟨S512x512, .f32⟩ : BufTy).Contents (Elt Ideal))
    (b : Fin 16) (o i : Fin 512) :
    val_main_v14 (F := Ideal) x1 x2 x3 x4 x5 x6 x7 (ix4 b o i (1 : Fin 11)) = x2 (ix2 b o) := by
  unfold val_main_v14
  rw [concatenate_apply_piece (3 : Fin 4) _ _ (ix4 b o i (1 : Fin 11)) 1 (by show (1 : Nat) < 7; omega) S16x512x512x1
    (val_main_v3 (F := Ideal) x2) rfl rfl 1 rfl (ix4 b o i (0 : Fin 1)) (fun a ha => by match a with | ⟨0, _⟩ => rfl | ⟨1, _⟩ => rfl | ⟨2, _⟩ => rfl | ⟨3, _⟩ => exact absurd rfl ha) rfl]
  rw [val_main_v3_apply, val_main_v2_apply]
  exact congrArg x2 (funext fun a => by match a with | ⟨0, _⟩ => rfl | ⟨1, _⟩ => rfl)

/-- Feature 2 is the error: the third piece, which spans coordinate 2. -/
theorem feature_err (x1 x2 x3 x4 x5 : (⟨S16x512, .f32⟩ : BufTy).Contents (Elt Ideal)) (x6 : (⟨S16x512x5, .f32⟩ : BufTy).Contents (Elt Ideal)) (x7 : (⟨S512x512, .f32⟩ : BufTy).Contents (Elt Ideal))
    (b : Fin 16) (o i : Fin 512) :
    val_main_v14 (F := Ideal) x1 x2 x3 x4 x5 x6 x7 (ix4 b o i (2 : Fin 11)) = x3 (ix2 b o) := by
  unfold val_main_v14
  rw [concatenate_apply_piece (3 : Fin 4) _ _ (ix4 b o i (2 : Fin 11)) 2 (by show (2 : Nat) < 7; omega) S16x512x512x1
    (val_main_v5 (F := Ideal) x3) rfl rfl 2 rfl (ix4 b o i (0 : Fin 1)) (fun a ha => by match a with | ⟨0, _⟩ => rfl | ⟨1, _⟩ => rfl | ⟨2, _⟩ => rfl | ⟨3, _⟩ => exact absurd rfl ha) rfl]
  rw [val_main_v5_apply, val_main_v4_apply]
  exact congrArg x3 (funext fun a => by match a with | ⟨0, _⟩ => rfl | ⟨1, _⟩ => rfl)

/-- Feature 10 is the previous output: the seventh piece, which spans coordinate 10. -/
theorem feature_outp (x1 x2 x3 x4 x5 : (⟨S16x512, .f32⟩ : BufTy).Contents (Elt Ideal)) (x6 : (⟨S16x512x5, .f32⟩ : BufTy).Contents (Elt Ideal)) (x7 : (⟨S512x512, .f32⟩ : BufTy).Contents (Elt Ideal))
    (b : Fin 16) (o i : Fin 512) :
    val_main_v14 (F := Ideal) x1 x2 x3 x4 x5 x6 x7 (ix4 b o i (10 : Fin 11)) = x5 (ix2 b o) := by
  unfold val_main_v14
  rw [concatenate_apply_piece (3 : Fin 4) _ _ (ix4 b o i (10 : Fin 11)) 6 (by show (6 : Nat) < 7; omega) S16x512x512x1
    (val_main_v13 (F := Ideal) x5) rfl rfl 10 rfl (ix4 b o i (0 : Fin 1)) (fun a ha => by match a with | ⟨0, _⟩ => rfl | ⟨1, _⟩ => rfl | ⟨2, _⟩ => rfl | ⟨3, _⟩ => exact absurd rfl ha) rfl]
  rw [val_main_v13_apply, val_main_v12_apply]
  exact congrArg x5 (funext fun a => by match a with | ⟨0, _⟩ => rfl | ⟨1, _⟩ => rfl)

/-- Feature 3 is the weight: the fourth piece, which spans coordinate 3, broadcast over the samples. -/
theorem feature_wt (x1 x2 x3 x4 x5 : (⟨S16x512, .f32⟩ : BufTy).Contents (Elt Ideal)) (x6 : (⟨S16x512x5, .f32⟩ : BufTy).Contents (Elt Ideal)) (x7 : (⟨S512x512, .f32⟩ : BufTy).Contents (Elt Ideal))
    (b : Fin 16) (o i : Fin 512) :
    val_main_v14 (F := Ideal) x1 x2 x3 x4 x5 x6 x7 (ix4 b o i (3 : Fin 11)) = x7 (ix2 o i) := by
  unfold val_main_v14
  rw [concatenate_apply_piece (3 : Fin 4) _ _ (ix4 b o i (3 : Fin 11)) 3 (by show (3 : Nat) < 7; omega) S16x512x512x1
    (val_main_v7 (F := Ideal) x7) rfl rfl 3 rfl (ix4 b o i (0 : Fin 1)) (fun a ha => by match a with | ⟨0, _⟩ => rfl | ⟨1, _⟩ => rfl | ⟨2, _⟩ => rfl | ⟨3, _⟩ => exact absurd rfl ha) rfl]
  rw [val_main_v7_apply, val_main_v6_apply]
  exact congrArg x7 (funext fun a => by match a with | ⟨0, _⟩ => rfl | ⟨1, _⟩ => rfl)

/-- Features 4 to 8 are the five hidden states: the fifth piece, which spans coordinates 4 to 8, broadcast over the
    outputs; coordinate `4 + h` of the row is state `h`. -/
theorem feature_hid (x1 x2 x3 x4 x5 : (⟨S16x512, .f32⟩ : BufTy).Contents (Elt Ideal)) (x6 : (⟨S16x512x5, .f32⟩ : BufTy).Contents (Elt Ideal)) (x7 : (⟨S512x512, .f32⟩ : BufTy).Contents (Elt Ideal))
    (b : Fin 16) (o i : Fin 512) (h : Fin 5) :
    val_main_v14 (F := Ideal) x1 x2 x3 x4 x5 x6 x7 (ix4 b o i (⟨4 + h.val, by have := h.isLt; omega⟩ : Fin 11)) = x6 (ix3 b i h) := by
  unfold val_main_v14
  rw [concatenate_apply_piece (3 : Fin 4) _ _ (ix4 b o i (⟨4 + h.val, by have := h.isLt; omega⟩ : Fin 11)) 4 (by show (4 : Nat) < 7; omega) S16x512x512x5
    (val_main_v9 (F := Ideal) x6) rfl rfl 4 rfl (ix4 b o i h) (fun a ha => by match a with | ⟨0, _⟩ => rfl | ⟨1, _⟩ => rfl | ⟨2, _⟩ => rfl | ⟨3, _⟩ => exact absurd rfl ha) rfl]
  rw [val_main_v9_apply, val_main_v8_apply]
  exact congrArg x6 (funext fun a => by match a with | ⟨0, _⟩ => rfl | ⟨1, _⟩ => rfl | ⟨2, _⟩ => rfl)

/-- Feature 9 is the previous input: the sixth piece, which spans coordinate 9, broadcast over the outputs. -/
theorem feature_inp (x1 x2 x3 x4 x5 : (⟨S16x512, .f32⟩ : BufTy).Contents (Elt Ideal)) (x6 : (⟨S16x512x5, .f32⟩ : BufTy).Contents (Elt Ideal)) (x7 : (⟨S512x512, .f32⟩ : BufTy).Contents (Elt Ideal))
    (b : Fin 16) (o i : Fin 512) :
    val_main_v14 (F := Ideal) x1 x2 x3 x4 x5 x6 x7 (ix4 b o i (9 : Fin 11)) = x4 (ix2 b i) := by
  unfold val_main_v14
  rw [concatenate_apply_piece (3 : Fin 4) _ _ (ix4 b o i (9 : Fin 11)) 5 (by show (5 : Nat) < 7; omega) S16x512x512x1
    (val_main_v11 (F := Ideal) x4) rfl rfl 9 rfl (ix4 b o i (0 : Fin 1)) (fun a ha => by match a with | ⟨0, _⟩ => rfl | ⟨1, _⟩ => rfl | ⟨2, _⟩ => rfl | ⟨3, _⟩ => exact absurd rfl ha) rfl]
  rw [val_main_v11_apply, val_main_v10_apply]
  exact congrArg x4 (funext fun a => by match a with | ⟨0, _⟩ => rfl | ⟨1, _⟩ => rfl)

/-- The joined row at sample `b`, output `o`, input `i` and coordinate `f` is feature `f`. -/
theorem feature_apply (x1 x2 x3 x4 x5 : (⟨S16x512, .f32⟩ : BufTy).Contents (Elt Ideal)) (x6 : (⟨S16x512x5, .f32⟩ : BufTy).Contents (Elt Ideal)) (x7 : (⟨S512x512, .f32⟩ : BufTy).Contents (Elt Ideal))
    (b : Fin 16) (o i : Fin 512) (f : Fin 11) :
    val_main_v14 (F := Ideal) x1 x2 x3 x4 x5 x6 x7 (ix4 b o i f) = feature (signalsOf x1 x2 x3 x5 x7 x6 x4) b o i f := by
  match f with
  | ⟨0, _⟩ => exact feature_label x1 x2 x3 x4 x5 x6 x7 b o i
  | ⟨1, _⟩ => exact feature_pred x1 x2 x3 x4 x5 x6 x7 b o i
  | ⟨2, _⟩ => exact feature_err x1 x2 x3 x4 x5 x6 x7 b o i
  | ⟨3, _⟩ => exact feature_wt x1 x2 x3 x4 x5 x6 x7 b o i
  | ⟨4, _⟩ => exact feature_hid x1 x2 x3 x4 x5 x6 x7 b o i 0
  | ⟨5, _⟩ => exact feature_hid x1 x2 x3 x4 x5 x6 x7 b o i 1
  | ⟨6, _⟩ => exact feature_hid x1 x2 x3 x4 x5 x6 x7 b o i 2
  | ⟨7, _⟩ => exact feature_hid x1 x2 x3 x4 x5 x6 x7 b o i 3
  | ⟨8, _⟩ => exact feature_hid x1 x2 x3 x4 x5 x6 x7 b o i 4
  | ⟨9, _⟩ => exact feature_inp x1 x2 x3 x4 x5 x6 x7 b o i
  | ⟨10, _⟩ => exact feature_outp x1 x2 x3 x4 x5 x6 x7 b o i

/-! ## The two layers -/

/-- The first layer before its `tanh`, at `(b, o, i, g)`: the contraction over the eleven features against row `g` of the
    first matrix (feature times matrix entry, summed in feature order), plus the bias broadcast along the last axis. -/
theorem pre_apply (x1 x2 x3 x4 x5 : (⟨S16x512, .f32⟩ : BufTy).Contents (Elt Ideal)) (x6 : (⟨S16x512x5, .f32⟩ : BufTy).Contents (Elt Ideal)) (x7 : (⟨S512x512, .f32⟩ : BufTy).Contents (Elt Ideal)) (x9 : (⟨S32x11, .f32⟩ : BufTy).Contents (Elt Ideal)) (x10 : (⟨S32, .f32⟩ : BufTy).Contents (Elt Ideal)) (x11 : (⟨S6x32, .f32⟩ : BufTy).Contents (Elt Ideal)) (x12 : (⟨S6, .f32⟩ : BufTy).Contents (Elt Ideal))
    (b : Fin 16) (o i : Fin 512) (g : Fin 32) :
    val_main_v18 (F := Ideal) x1 x2 x3 x4 x5 x6 x7 x9 x10 (ix4 b o i g) = pre (signalsOf x1 x2 x3 x5 x7 x6 x4) (netOf x9 x10 x11 x12) b o i g := by
  rw [val_main_v18_apply, val_main_v15_apply, val_main_v17_apply, val_main_v16_apply]
  have e1 : ∀ k : Fin 11, lidx_main_v15 (ix4 b o i g) k = ix4 b o i k := fun k => funext fun a => by match a with | ⟨0, _⟩ => rfl | ⟨1, _⟩ => rfl | ⟨2, _⟩ => rfl | ⟨3, _⟩ => rfl
  have e2 : ∀ k : Fin 11, ridx_main_v15 (ix4 b o i g) k = ix2 g k := fun k => funext fun a => by match a with | ⟨0, _⟩ => rfl | ⟨1, _⟩ => rfl
  have e3 : idx_main_v16 (idx_main_v17 (ix4 b o i g)) = ix1 g := funext fun a => by match a with | ⟨0, _⟩ => rfl
  simp only [e1, e2, e3, feature_apply, Ideal.addf_def]
  rfl

/-- The second layer at `(b, o, i, u)`: the contraction over the 32 hidden units (`tanh` of the first layer times the
    second matrix's entry), plus the bias broadcast along the last axis. -/
theorem upd_apply (x1 x2 x3 x4 x5 : (⟨S16x512, .f32⟩ : BufTy).Contents (Elt Ideal)) (x6 : (⟨S16x512x5, .f32⟩ : BufTy).Contents (Elt Ideal)) (x7 : (⟨S512x512, .f32⟩ : BufTy).Contents (Elt Ideal)) (x9 : (⟨S32x11, .f32⟩ : BufTy).Contents (Elt Ideal)) (x10 : (⟨S32, .f32⟩ : BufTy).Contents (Elt Ideal)) (x11 : (⟨S6x32, .f32⟩ : BufTy).Contents (Elt Ideal)) (x12 : (⟨S6, .f32⟩ : BufTy).Contents (Elt Ideal))
    (b : Fin 16) (o i : Fin 512) (u : Fin 6) :
    val_main_v23 (F := Ideal) x1 x2 x3 x4 x5 x6 x7 x9 x10 x11 x12 (ix4 b o i u) = upd (signalsOf x1 x2 x3 x5 x7 x6 x4) (netOf x9 x10 x11 x12) b o i u := by
  rw [val_main_v23_apply, val_main_v20_apply, val_main_v22_apply, val_main_v21_apply]
  have e1 : ∀ k : Fin 32, lidx_main_v20 (ix4 b o i u) k = ix4 b o i k := fun k => funext fun a => by match a with | ⟨0, _⟩ => rfl | ⟨1, _⟩ => rfl | ⟨2, _⟩ => rfl | ⟨3, _⟩ => rfl
  have e2 : ∀ k : Fin 32, ridx_main_v20 (ix4 b o i u) k = ix2 u k := fun k => funext fun a => by match a with | ⟨0, _⟩ => rfl | ⟨1, _⟩ => rfl
  have e3 : idx_main_v21 (idx_main_v22 (ix4 b o i u)) = ix1 u := funext fun a => by match a with | ⟨0, _⟩ => rfl
  simp only [e1, e2, e3, val_main_v19_apply, pre_apply x1 x2 x3 x4 x5 x6 x7 x9 x10 x11 x12, Ideal.hostUnary_tanh_def, Ideal.addf_def]
  rfl

/-! ## The new weight: the mean over the samples -/

/-- The new weight at `(o, i)`: the second layer's sixth output summed over the samples from the zero word, divided by
    the number of samples, cut out of the six, read as a matrix (row `o`, column `i` of a `512 × 512 × 1` array is
    entry `o * 512 + i` of its row-major order), and added to the old weight. -/
theorem newWeight_apply (x1 x2 x3 x4 x5 : (⟨S16x512, .f32⟩ : BufTy).Contents (Elt Ideal)) (x6 : (⟨S16x512x5, .f32⟩ : BufTy).Contents (Elt Ideal)) (x7 : (⟨S512x512, .f32⟩ : BufTy).Contents (Elt Ideal)) (x9 : (⟨S32x11, .f32⟩ : BufTy).Contents (Elt Ideal)) (x10 : (⟨S32, .f32⟩ : BufTy).Contents (Elt Ideal)) (x11 : (⟨S6x32, .f32⟩ : BufTy).Contents (Elt Ideal)) (x12 : (⟨S6, .f32⟩ : BufTy).Contents (Elt Ideal))
    (o i : Fin 512) :
    val_main_v29 (F := Ideal) x1 x2 x3 x4 x5 x6 x7 x9 x10 x11 x12 (ix2 o i) = newWeight (signalsOf x1 x2 x3 x5 x7 x6 x4) (netOf x9 x10 x11 x12) d16 o i := by
  rw [val_main_v29_apply, val_main_v28_apply, val_main_v27_apply, val_main_v26_apply, val_main_v24_apply, val_main_v25_apply,
    val_main_cst_apply, val_main_cst_0_apply]
  have e0 : idx_main_v27 (idx_main_v28 (ix2 o i)) = ix3 o i (5 : Fin 6) := funext fun a => Fin.ext (by
    have ho : o.val < 512 := o.isLt
    have hi : i.val < 512 := i.isLt
    match a with
    | ⟨0, _⟩ => show (o.val * 512 + i.val) / 512 = o.val; omega
    | ⟨1, _⟩ => show (o.val * 512 + i.val) / 1 % 512 = i.val; omega
    | ⟨2, _⟩ => rfl)
  have e1 : ∀ k : Fin 16, idx_main_v24 (ix3 o i (5 : Fin 6)) k = ix4 k o i (5 : Fin 6) := fun k => funext fun a => by match a with | ⟨0, _⟩ => rfl | ⟨1, _⟩ => rfl | ⟨2, _⟩ => rfl | ⟨3, _⟩ => rfl
  simp only [e0, e1, upd_apply x1 x2 x3 x4 x5 x6 x7 x9 x10 x11 x12, Ideal.hostDivf_def, Ideal.addf_def, Ideal.ofBits_def,
    Ideal.ofBits_zero_f32, zero_add]
  rfl

/-- The reference's first result (the cell's output) at sample `b` and output `o`. -/
theorem ref_output_apply (x0 x1 x2 x3 x4 x5 : (⟨S16x512, .f32⟩ : BufTy).Contents (Elt Ideal)) (x6 : (⟨S16x512x5, .f32⟩ : BufTy).Contents (Elt Ideal)) (x7 : (⟨S512x512, .f32⟩ : BufTy).Contents (Elt Ideal))
    (x8 : (⟨S512, .f32⟩ : BufTy).Contents (Elt Ideal)) (x9 : (⟨S32x11, .f32⟩ : BufTy).Contents (Elt Ideal)) (x10 : (⟨S32, .f32⟩ : BufTy).Contents (Elt Ideal)) (x11 : (⟨S6x32, .f32⟩ : BufTy).Contents (Elt Ideal)) (x12 : (⟨S6, .f32⟩ : BufTy).Contents (Elt Ideal))
    (b : Fin 16) (o : Fin 512) :
    val_main_v38 (F := Ideal) x0 x1 x2 x3 x4 x5 x6 x7 x8 x9 x10 x11 x12 (ix2 b o)
      = output (grid2 x0) (grid1 x8) (signalsOf x1 x2 x3 x5 x7 x6 x4) (netOf x9 x10 x11 x12) d16 b o := by
  -- the contraction of row `b` of the sample block with column `o` of the transposed new weight, which is row `o` of
  -- the new weight; then the bias broadcast over the samples
  rw [val_main_v38_apply, val_main_v35_apply, val_main_v37_apply, val_main_v36_apply]
  have e1 : ∀ k : Fin 512, lidx_main_v35 (ix2 b o) k = ix2 b k := fun k => funext fun a => by match a with | ⟨0, _⟩ => rfl | ⟨1, _⟩ => rfl
  have e2 : ∀ k : Fin 512, idx_main_v34 (ridx_main_v35 (ix2 b o) k) = ix2 o k := fun k => funext fun a => by match a with | ⟨0, _⟩ => rfl | ⟨1, _⟩ => rfl
  have e3 : idx_main_v36 (idx_main_v37 (ix2 b o)) = ix1 o := funext fun a => by match a with | ⟨0, _⟩ => rfl
  simp only [val_main_v34_apply, e1, e2, e3, newWeight_apply x1 x2 x3 x4 x5 x6 x7 x9 x10 x11 x12, Ideal.addf_def]
  rfl

/-- The reference's second result (the new hidden state) at sample `b`, output `o` and state `u`. -/
theorem ref_hidden_apply (x0 x1 x2 x3 x4 x5 : (⟨S16x512, .f32⟩ : BufTy).Contents (Elt Ideal)) (x6 : (⟨S16x512x5, .f32⟩ : BufTy).Contents (Elt Ideal)) (x7 : (⟨S512x512, .f32⟩ : BufTy).Contents (Elt Ideal))
    (x8 : (⟨S512, .f32⟩ : BufTy).Contents (Elt Ideal)) (x9 : (⟨S32x11, .f32⟩ : BufTy).Contents (Elt Ideal)) (x10 : (⟨S32, .f32⟩ : BufTy).Contents (Elt Ideal)) (x11 : (⟨S6x32, .f32⟩ : BufTy).Contents (Elt Ideal)) (x12 : (⟨S6, .f32⟩ : BufTy).Contents (Elt Ideal))
    (b : Fin 16) (o : Fin 512) (u : Fin 5) :
    val_main_v33 (F := Ideal) x1 x2 x3 x4 x5 x6 x7 x9 x10 x11 x12 (ix3 b o u)
      = newHidden (signalsOf x1 x2 x3 x5 x7 x6 x4) (netOf x9 x10 x11 x12) d512 b o u := by
  -- state `u` of the five kept is output `u` of the six; the sum over the inputs starts from the zero word and is
  -- divided by the number of inputs
  rw [val_main_v33_apply, val_main_v32_apply, val_main_v30_apply, val_main_v31_apply, val_main_cst_1_apply, val_main_cst_2_apply]
  have e0 : idx_main_v33 (ix3 b o u) = ix3 b o u.castSucc := funext fun a => by match a with | ⟨0, _⟩ => rfl | ⟨1, _⟩ => rfl | ⟨2, _⟩ => rfl
  have e1 : ∀ k : Fin 512, idx_main_v30 (ix3 b o u.castSucc) k = ix4 b o k u.castSucc := fun k => funext fun a => by match a with | ⟨0, _⟩ => rfl | ⟨1, _⟩ => rfl | ⟨2, _⟩ => rfl | ⟨3, _⟩ => rfl
  simp only [e0, e1, upd_apply x1 x2 x3 x4 x5 x6 x7 x9 x10 x11 x12, Ideal.hostDivf_def, Ideal.ofBits_def,
    Ideal.ofBits_zero_f32, zero_add]
  rfl

end Cert.ReferenceIdeal.RefSide

end
-- ==== Proof.ReferenceValue.lean ====
/-
  The idealized reference's run with both results named: its first result is the cell's output and its second the cell's
  new hidden state, each as a function of the thirteen argument arrays.
-/
import proofs.«167862_j23304492548723_1_alg».proof.Proof.RefSide
import proofs.«167862_j23304492548723_1_alg».proof.Proof.Results

noncomputable section

namespace Cert.ReferenceIdeal.Results

open Idealize.ShloMosaic Idealize.ShloMosaic.TcCoe Idealize.ShloMosaic.ValueIdx Idealize.SL.Sem
open Cert.ReferenceIdeal Cert.ReferenceIdeal.Gen Cert.ReferenceIdeal.Read Cert.CellSpec

variable (m : (ℓ : Loc nD τ sig) → Buf (Elt Ideal) ℓ) (ρ : Dev nD → PrngReg)

/-- The argument arrays as launched, at their literal types. -/
abbrev r0 (c : Dev nD) : S16x512.Idx → EReal := m ((c.tc : Thread nD τ).loc main_arg0)
abbrev r1 (c : Dev nD) : S16x512.Idx → EReal := m ((c.tc : Thread nD τ).loc main_arg1)
abbrev r2 (c : Dev nD) : S16x512.Idx → EReal := m ((c.tc : Thread nD τ).loc main_arg2)
abbrev r3 (c : Dev nD) : S16x512.Idx → EReal := m ((c.tc : Thread nD τ).loc main_arg3)
abbrev r4 (c : Dev nD) : S16x512.Idx → EReal := m ((c.tc : Thread nD τ).loc main_arg4)
abbrev r5 (c : Dev nD) : S16x512.Idx → EReal := m ((c.tc : Thread nD τ).loc main_arg5)
abbrev r6 (c : Dev nD) : S16x512x5.Idx → EReal := m ((c.tc : Thread nD τ).loc main_arg6)
abbrev r7 (c : Dev nD) : S512x512.Idx → EReal := m ((c.tc : Thread nD τ).loc main_arg7)
abbrev r8 (c : Dev nD) : S512.Idx → EReal := m ((c.tc : Thread nD τ).loc main_arg8)
abbrev r9 (c : Dev nD) : S32x11.Idx → EReal := m ((c.tc : Thread nD τ).loc main_arg9)
abbrev r10 (c : Dev nD) : S32.Idx → EReal := m ((c.tc : Thread nD τ).loc main_arg10)
abbrev r11 (c : Dev nD) : S6x32.Idx → EReal := m ((c.tc : Thread nD τ).loc main_arg11)
abbrev r12 (c : Dev nD) : S6.Idx → EReal := m ((c.tc : Thread nD τ).loc main_arg12)

/-- Every weakly fair execution of the idealized reference ends with its two results at the cell's output and new hidden
    state, and the arguments unchanged. -/
theorem reference_run : θ_run (defs (F := Ideal)) (onTc (τ := τ) (main (F := Ideal))) ⟨m, fun _ => 0, ρ⟩ (fun r => ∀ c : Dev nD,
      r.2.mem ((c.tc : Thread nD τ).loc main_v38) = outputOf (r0 m c) (r1 m c) (r2 m c) (r3 m c) (r4 m c) (r5 m c) (r6 m c) (r7 m c) (r8 m c) (r9 m c) (r10 m c) (r11 m c) (r12 m c)
      ∧ r.2.mem ((c.tc : Thread nD τ).loc main_v33) = hiddenOf (r1 m c) (r2 m c) (r3 m c) (r4 m c) (r5 m c) (r6 m c) (r7 m c) (r9 m c) (r10 m c) (r11 m c) (r12 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c).1.trans ((val_main_v38_eq (F := Ideal) (r0 m c) (r1 m c) (r2 m c) (r3 m c) (r4 m c) (r5 m c) (r6 m c) (r7 m c) (r8 m c) (r9 m c) (r10 m c) (r11 m c) (r12 m c)).trans (funext fun j => by
        obtain ⟨b, o, rfl⟩ : ∃ (b : Fin 16) (o : Fin 512), j = ix2 b o := ⟨j 0, j 1, eq_ix2 j⟩
        exact RefSide.ref_output_apply (r0 m c) (r1 m c) (r2 m c) (r3 m c) (r4 m c) (r5 m c) (r6 m c) (r7 m c) (r8 m c) (r9 m c) (r10 m c) (r11 m c) (r12 m c) b o)),
      (h c).2.1.trans ((val_main_v33_eq (F := Ideal) (r1 m c) (r2 m c) (r3 m c) (r4 m c) (r5 m c) (r6 m c) (r7 m c) (r9 m c) (r10 m c) (r11 m c) (r12 m c)).trans (funext fun j => by
        obtain ⟨b, o, u, rfl⟩ : ∃ (b : Fin 16) (o : Fin 512) (u : Fin 5), j = ix3 b o u := ⟨j 0, j 1, j 2, eq_ix3 j⟩
        exact RefSide.ref_hidden_apply (r0 m c) (r1 m c) (r2 m c) (r3 m c) (r4 m c) (r5 m c) (r6 m c) (r7 m c) (r8 m c) (r9 m c) (r10 m c) (r11 m c) (r12 m c) b o u)),
      (h c).2.2⟩)
    (Cert.ReferenceIdeal.Value.run (F := Ideal) m ρ)

end Cert.ReferenceIdeal.Results

end
-- ==== Proof.lean ====
/-
  A self-modifying linear cell: the tiled kernel against its reference.

  The reference builds, for every sample, output and input, a row of eleven features, passes it through a small
  two-layer network with a `tanh` in between, averages the network's sixth output over the samples into a new weight and
  its first five outputs over the inputs into a new hidden state, and applies the new weight to the sample block. The
  kernel never builds the rows: it works tile by tile over (outputs, inputs), splits the first layer's eleven products
  into the four that depend on (sample, output), the one that depends on (output, input) and the six that depend on
  (sample, input), takes the 32 hidden units in four groups of eight, and carries the sum over the inputs from tile to
  tile of a row in a buffer of its own; a second kernel applies the new weight. Over the extended reals both compute the
  same sums, grouped differently: the equality uses commutativity and associativity of addition only, so no finiteness of
  the inputs is needed, and the two divisors (16 samples, 512 inputs) are the same float words on both sides.

  The three frames: each kernel program runs as its two regions in order, the first region's invariant carrying the
  running sum from grid point to grid point; the reference's frame is its run with the results dropped. The idealization
  rewrote nothing, so it is preserved trivially. The value claim pairs the kernel's run and the reference's run, both
  stated at the same two functions of the argument arrays.
-/
import proofs.«167862_j23304492548723_1_alg».proof.Defs
import proofs.«167862_j23304492548723_1_alg».proof.Proof.Gen.Kernel
import proofs.«167862_j23304492548723_1_alg».proof.Proof.Gen.KernelIdeal
import proofs.«167862_j23304492548723_1_alg».proof.Proof.Gen.ReferenceIdeal
import proofs.«167862_j23304492548723_1_alg».proof.Proof.Gen.Pre_finite_inputs
import proofs.«167862_j23304492548723_1_alg».proof.Proof.RunBits
import proofs.«167862_j23304492548723_1_alg».proof.Proof.KernelValue
import proofs.«167862_j23304492548723_1_alg».proof.Proof.ReferenceValue
import Idealize.ShloMosaic.Adequacy
import Idealize.ShloMosaic.Init

noncomputable section

namespace Cert.Proof

open Idealize.ShloMosaic Idealize.SL.Sem

/-- The word-level kernel runs to the end and leaves its arguments as launched. -/
theorem frame_kernel : Cert.frame_Kernel := fun m ρ _ => Cert.Kernel.Run.frame (F := Bits) m ρ

/-- So does the idealized kernel. -/
theorem frame_kernelIdeal : Cert.frame_KernelIdeal := fun m ρ _ => Cert.KernelIdeal.Run.frame (F := Ideal) m ρ

/-- The reference's frame is its run with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on the arguments both idealized programs end with the same two results: each run is stated
    at the same two functions of the argument arrays, and the arrays agree. -/
theorem algebraic : Cert.algebraic_KernelIdeal_ReferenceIdeal := by
  intro m ρ m' ρ' _ hagree
  refine ⟨_, _, Cert.KernelIdeal.Results.kernel_run m ρ, ?_⟩
  refine (θ_run Cert.ReferenceIdeal.defs _ _).mono (fun r h c => ?_) (Cert.ReferenceIdeal.Results.reference_run m' ρ')
  obtain ⟨h0, h1, h2, h3, h4, h5, h6, h7, h8, h9, h10, h11, h12⟩ := hagree c
  refine ⟨(h c).1.trans ?_, (h c).2.1.trans ?_, (h c).2.2⟩
  · rw [(show Cert.ReferenceIdeal.Results.r0 m' c = Cert.KernelIdeal.Results.a0 m c from h0),
      (show Cert.ReferenceIdeal.Results.r1 m' c = Cert.KernelIdeal.Results.a1 m c from h1),
      (show Cert.ReferenceIdeal.Results.r2 m' c = Cert.KernelIdeal.Results.a2 m c from h2),
      (show Cert.ReferenceIdeal.Results.r3 m' c = Cert.KernelIdeal.Results.a3 m c from h3),
      (show Cert.ReferenceIdeal.Results.r4 m' c = Cert.KernelIdeal.Results.a4 m c from h4),
      (show Cert.ReferenceIdeal.Results.r5 m' c = Cert.KernelIdeal.Results.a5 m c from h5),
      (show Cert.ReferenceIdeal.Results.r6 m' c = Cert.KernelIdeal.Results.a6 m c from h6),
      (show Cert.ReferenceIdeal.Results.r7 m' c = Cert.KernelIdeal.Results.a7 m c from h7),
      (show Cert.ReferenceIdeal.Results.r8 m' c = Cert.KernelIdeal.Results.a8 m c from h8),
      (show Cert.ReferenceIdeal.Results.r9 m' c = Cert.KernelIdeal.Results.a9 m c from h9),
      (show Cert.ReferenceIdeal.Results.r10 m' c = Cert.KernelIdeal.Results.a10 m c from h10),
      (show Cert.ReferenceIdeal.Results.r11 m' c = Cert.KernelIdeal.Results.a11 m c from h11),
      (show Cert.ReferenceIdeal.Results.r12 m' c = Cert.KernelIdeal.Results.a12 m c from h12)]
  · rw [(show Cert.ReferenceIdeal.Results.r1 m' c = Cert.KernelIdeal.Results.a1 m c from h1),
      (show Cert.ReferenceIdeal.Results.r2 m' c = Cert.KernelIdeal.Results.a2 m c from h2),
      (show Cert.ReferenceIdeal.Results.r3 m' c = Cert.KernelIdeal.Results.a3 m c from h3),
      (show Cert.ReferenceIdeal.Results.r4 m' c = Cert.KernelIdeal.Results.a4 m c from h4),
      (show Cert.ReferenceIdeal.Results.r5 m' c = Cert.KernelIdeal.Results.a5 m c from h5),
      (show Cert.ReferenceIdeal.Results.r6 m' c = Cert.KernelIdeal.Results.a6 m c from h6),
      (show Cert.ReferenceIdeal.Results.r7 m' c = Cert.KernelIdeal.Results.a7 m c from h7),
      (show Cert.ReferenceIdeal.Results.r9 m' c = Cert.KernelIdeal.Results.a9 m c from h9),
      (show Cert.ReferenceIdeal.Results.r10 m' c = Cert.KernelIdeal.Results.a10 m c from h10),
      (show Cert.ReferenceIdeal.Results.r11 m' c = Cert.KernelIdeal.Results.a11 m c from h11),
      (show Cert.ReferenceIdeal.Results.r12 m' c = Cert.KernelIdeal.Results.a12 m c from h12)]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
